-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v34)) (v5 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_v45) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v47) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x128 : Shape := ⟨2, ![256, 128]⟩
abbrev S128 : Shape := ⟨1, ![128]⟩
abbrev S8192x128 : Shape := ⟨2, ![8192, 128]⟩
abbrev S1x128 : Shape := ⟨2, ![1, 128]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S8192x128 : S_.BroadcastsInDim S8192x128 (![] : Fin 0 → Fin S8192x128.rank)
  reducesTo_S8192x128_S_d0_1 : S8192x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S8192x128 .f32) (main_arg10 : FVec F S1x128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S8192x128 .f32 := Host.absf main_arg9
  let main_cst_16 : FVec F S_ .f32 := constant S_ .f32 0x7F800000#32
  let main_v45 : FVec F S8192x128 .f32 := broadcastInDim S8192x128 ![] bcast_S_S8192x128 main_cst_16
  let main_v46 : IVec S8192x128 1 := cmpf .olt main_v44 main_v45
  let main_c_17 : IVec S_ 1 := constantI S_ 1 1#1
  let main_v47 : IVec S_ 1 := (fun x v => Host.reduce IntOp.andi x v reducesTo_S8192x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_v48 main_v49 main_v50

def fn_part1 {F : FTy → Type} [FloatOps F] (main_arg4 : FVec F S256x128 .f32) (main_arg5 : FVec F S256x128 .f32) (main_arg6 : FVec F S256x128 .f32) (main_arg7 : FVec F S256x128 .f32) (main_arg8 : FVec F S128 .f32) (main_arg9 : FVec F S8192x128 .f32) (main_arg10 : FVec F S1x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x512 .f32) (main_arg1 : FVec F S8192x8192 .f32) (main_arg2 : FVec F S512x256 .f32) (main_arg3 : FVec F S256x128 .f32) (main_arg4 : FVec F S256x128 .f32) (main_arg5 : FVec F S256x128 .f32) (main_arg6 : FVec F S256x128 .f32) (main_arg7 : FVec F S256x128 .f32) (main_arg8 : FVec F S128 .f32) (main_arg9 : FVec F S8192x128 .f32) (main_arg10 : FVec F S1x128 .f32) (main_arg11 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x128 : Shape := ⟨2, ![256, 128]⟩
abbrev S128 : Shape := ⟨1, ![128]⟩
abbrev S8192x128 : Shape := ⟨2, ![8192, 128]⟩
abbrev S1x128 : Shape := ⟨2, ![1, 128]⟩
abbrev S8192 : Shape := ⟨1, ![8192]⟩
abbrev S8192x256 : Shape := ⟨2, ![8192, 256]⟩
abbrev S2048x1024 : Shape := ⟨2, ![2048, 1024]⟩
abbrev S1024x256 : Shape := ⟨2, ![1024, 256]⟩
abbrev S2048x256 : Shape := ⟨2, ![2048, 256]⟩
abbrev S256x512 : Shape := ⟨2, ![256, 512]⟩
abbrev S1024x512 : Shape := ⟨2, ![1024, 512]⟩
abbrev S2048x512 : Shape := ⟨2, ![2048, 512]⟩
abbrev S_ : Shape := ⟨0, ![]⟩
abbrev S8192x1 : Shape := ⟨2, ![8192, 1]⟩
abbrev S2048x128 : Shape := ⟨2, ![2048, 128]⟩
abbrev S2048x2048 : Shape := ⟨2, ![2048, 2048]⟩

abbrev nBuf : Space → Nat
  | .hbm => 95
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S8192x128, .f32⟩
  | .hbm, ⟨10, _⟩ => ⟨S1x128, .f32⟩
  | .hbm, ⟨11, _⟩ => ⟨S8192, .i32⟩
  | .hbm, ⟨12, _⟩ => ⟨S8192x256, .f32⟩
  | .hbm, ⟨13, _⟩ => ⟨S8192x256, .f32⟩
  | .hbm, ⟨14, _⟩ => ⟨S256x512, .f32⟩
  | .hbm, ⟨15, _⟩ => ⟨S8192x512, .f32⟩
  | .hbm, ⟨16, _⟩ => ⟨S8192x512, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x128, .i1⟩
  | .hbm, ⟨28, _⟩ => ⟨S_, .f32⟩
  | .hbm, ⟨29, _⟩ => ⟨S_, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S1x128, .f32⟩
  | .hbm, ⟨37, _⟩ => ⟨S8192x1, .i32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S8192x128, .f32⟩
  | .hbm, ⟨43, _⟩ => ⟨S_, .f32⟩
  | .hbm, ⟨44, _⟩ => ⟨S1x128, .f32⟩
  | .hbm, ⟨45, _⟩ => ⟨S8192x1, .i32⟩
  | .hbm, ⟨46, _⟩ => ⟨S1x128, .f32⟩
  | .hbm, ⟨47, _⟩ => ⟨S1x128, .f32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S8192x128, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .i32⟩
  | .hbm, ⟨64, _⟩ => ⟨S8192x1, .i32⟩
  | .hbm, ⟨65, _⟩ => ⟨S8192x128, .f32⟩
  | .hbm, ⟨66, _⟩ => ⟨S_, .f32⟩
  | .hbm, ⟨67, _⟩ => ⟨S8192x128, .f32⟩
  | .hbm, ⟨68, _⟩ => ⟨S8192x128, .i1⟩
  | .hbm, ⟨69, _⟩ => ⟨S_, .f32⟩
  | .hbm, ⟨70, _⟩ => ⟨S_, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S_, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .i32⟩
  | .hbm, ⟨85, _⟩ => ⟨S8192x1, .i32⟩
  | .hbm, ⟨86, _⟩ => ⟨S8192x128, .f32⟩
  | .hbm, ⟨87, _⟩ => ⟨S8192x128, .f32⟩
  | .hbm, ⟨88, _⟩ => ⟨S8192x128, .f32⟩
  | .hbm, ⟨89, _⟩ => ⟨S8192x256, .f32⟩
  | .hbm, ⟨90, _⟩ => ⟨S8192x128, .f32⟩
  | .hbm, ⟨91, _⟩ => ⟨S1x128, .f32⟩
  | .hbm, ⟨92, _⟩ => ⟨S8192x128, .f32⟩
  | .hbm, ⟨93, _⟩ => ⟨S8192x128, .f32⟩
  | .hbm, ⟨94, _⟩ => ⟨S8192x8192, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S1024x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x1024, .f32⟩
  | .local _ .vmem, ⟨8, _⟩ => ⟨S2048x1024, .f32⟩
  | .local _ .vmem, ⟨9, _⟩ => ⟨S1024x512, .f32⟩
  | .local _ .vmem, ⟨10, _⟩ => ⟨S1024x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x2048, .f32⟩
  | .local _ .vmem, ⟨19, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_11 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S256x128_S256x128_S256x128_S256x128_S256x512_d1 : Shape.Concatenates [S256x128, S256x128, S256x128, S256x128] S256x512 1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S8192x512_S8192x128_0_0 : S8192x512.Slices ![0, 0] S8192x128
  slices_S8192x512_S8192x128_0_128 : S8192x512.Slices ![0, 128] S8192x128
  slices_S8192x512_S8192x128_0_256 : S8192x512.Slices ![0, 256] S8192x128
  slices_S8192x512_S8192x128_0_384 : S8192x512.Slices ![0, 384] S8192x128
  bcast_S_S8192x128 : S_.BroadcastsInDim S8192x128 (![] : Fin 0 → Fin S8192x128.rank)
  bcast_S_S1x128 : S_.BroadcastsInDim S1x128 (![] : Fin 0 → Fin S1x128.rank)
  bcast_S8192_S8192x1_0 : S8192.BroadcastsInDim S8192x1 (![0] : Fin 1 → Fin S8192x1.rank)
  bcast_S_S8192 : S_.BroadcastsInDim S8192 (![] : Fin 0 → Fin S8192.rank)
  concatenates_S8192x128_S8192x128_S8192x256_d1 : Shape.Concatenates [S8192x128, S8192x128] S8192x256 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  dot_S8192x512_S512x256_S8192x256_1_0_0_1_n_n_wf : DotDims.WF S8192x512 S512x256 S8192x256 [1] [0] [0] [1] [] []
  dot_S2048x1024_S1024x256_S2048x256_1_0_0_1_n_n_wf : DotDims.WF S2048x1024 S1024x256 S2048x256 [1] [0] [0] [1] [] []
  dot_S8192x256_S256x512_S8192x512_1_0_0_1_n_n_wf : DotDims.WF S8192x256 S256x512 S8192x512 [1] [0] [0] [1] [] []
  dot_S2048x1024_S1024x512_S2048x512_1_0_0_1_n_n_wf : DotDims.WF S2048x1024 S1024x512 S2048x512 [1] [0] [0] [1] [] []
  scatter_S1x128_S8192x1_S8192x128_1_0_0_1_wf : ScatterDims.WF S1x128 S8192x1 S8192x128 [1] [0] [0] 1
  gather_S1x128_S8192x1_S8192x128_1_0_n_n_0_1_1128_wf : GatherDims.WF S1x128 S8192x1 S8192x128 [1] [0] [] [0] [] 1 ![1, 128]
  dot_S8192x256_S256x128_S8192x128_1_0_0_1_n_n_wf : DotDims.WF S8192x256 S256x128 S8192x128 [1] [0] [0] [1] [] []
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .f32 = 32 ∨ (Rect.block (s := S8192x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S8192x512.size a
  hwx1_2 : ∀ i : grid1.Coords, EltTy.bits .f32 = 32 ∨ (Rect.block (s := S8192x512) S2048x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .f32 = 32 ∨ (Rect.block (s := S8192x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S8192x8192.size a
  hwx2_2 : ∀ i : grid2.Coords, EltTy.bits .f32 = 32 ∨ (Rect.block (s := S8192x8192) S2048x2048.size (cc2_transform_2 i) (hinb2_2 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def scatter_S1x128_S8192x1_S8192x128_1_0_0_1 : ScatterDims S1x128 S8192x1 S8192x128 where
  updateWindowDims := [1]
  insertedWindowDims := [0]
  scatterDimsToOperandDims := [0]
  indexVectorDim := 1
  wf := scatter_S1x128_S8192x1_S8192x128_1_0_0_1_wf
def gather_S1x128_S8192x1_S8192x128_1_0_n_n_0_1_1128 : GatherDims S1x128 S8192x1 S8192x128 where
  offsetDims := [1]
  collapsedSliceDims := [0]
  operandBatchingDims := []
  startIndicesBatchingDims := []
  startIndexMap := [0]
  indexVectorDim := 1
  sliceSizes := ![1, 128]
  wf := gather_S1x128_S8192x1_S8192x128_1_0_n_n_0_1_1128_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v62) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x128 : Shape := ⟨2, ![256, 128]⟩
abbrev S128 : Shape := ⟨1, ![128]⟩
abbrev S8192x128 : Shape := ⟨2, ![8192, 128]⟩
abbrev S1x128 : Shape := ⟨2, ![1, 128]⟩
abbrev S8192 : Shape := ⟨1, ![8192]⟩
abbrev S8192x256 : Shape := ⟨2, ![8192, 256]⟩
abbrev S_ : Shape := ⟨0, ![]⟩
abbrev S8192x1 : Shape := ⟨2, ![8192, 1]⟩
abbrev S128x8192 : Shape := ⟨2, ![128, 8192]⟩

abbrev nBuf : Space → Nat
  | .hbm => 100
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S8192x128, .f32⟩
  | .hbm, ⟨10, _⟩ => ⟨S1x128, .f32⟩
  | .hbm, ⟨11, _⟩ => ⟨S8192, .i32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S8192x128, .f32⟩
  | .hbm, ⟨31, _⟩ => ⟨S8192x128, .i1⟩
  | .hbm, ⟨32, _⟩ => ⟨S_, .f32⟩
  | .hbm, ⟨33, _⟩ => ⟨S_, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S1x128, .f32⟩
  | .hbm, ⟨41, _⟩ => ⟨S8192x1, .i32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S8192x128, .f32⟩
  | .hbm, ⟨47, _⟩ => ⟨S_, .f32⟩
  | .hbm, ⟨48, _⟩ => ⟨S1x128, .f32⟩
  | .hbm, ⟨49, _⟩ => ⟨S8192x1, .i32⟩
  | .hbm, ⟨50, _⟩ => ⟨S1x128, .f32⟩
  | .hbm, ⟨51, _⟩ => ⟨S1x128, .f32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S8192x128, .f32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x128, .f32⟩
  | .hbm, ⟨70, _⟩ => ⟨S_, .f32⟩
  | .hbm, ⟨71, _⟩ => ⟨S8192x128, .f32⟩
  | .hbm, ⟨72, _⟩ => ⟨S8192x128, .i1⟩
  | .hbm, ⟨73, _⟩ => ⟨S_, .f32⟩
  | .hbm, ⟨74, _⟩ => ⟨S_, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S_, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S_, .i32⟩
  | .hbm, ⟨83, _⟩ => ⟨S8192, .i32⟩
  | .hbm, ⟨84, _⟩ => ⟨S8192, .i1⟩
  | .hbm, ⟨85, _⟩ => ⟨S_, .i32⟩
  | .hbm, ⟨86, _⟩ => ⟨S8192, .i32⟩
  | .hbm, ⟨87, _⟩ => ⟨S8192, .i32⟩
  | .hbm, ⟨88, _⟩ => ⟨S8192, .i32⟩
  | .hbm, ⟨89, _⟩ => ⟨S8192x1, .i32⟩
  | .hbm, ⟨90, _⟩ => ⟨S8192x128, .f32⟩
  | .hbm, ⟨91, _⟩ => ⟨S8192x128, .f32⟩
  | .hbm, ⟨92, _⟩ => ⟨S8192x128, .f32⟩
  | .hbm, ⟨93, _⟩ => ⟨S8192x256, .f32⟩
  | .hbm, ⟨94, _⟩ => ⟨S8192x128, .f32⟩
  | .hbm, ⟨95, _⟩ => ⟨S1x128, .f32⟩
  | .hbm, ⟨96, _⟩ => ⟨S8192x128, .f32⟩
  | .hbm, ⟨97, _⟩ => ⟨S8192x128, .f32⟩
  | .hbm, ⟨98, _⟩ => ⟨S128x8192, .f32⟩
  | .hbm, ⟨99, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_cst : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  bcast_S_S8192x128 : S_.BroadcastsInDim S8192x128 (![] : Fin 0 → Fin S8192x128.rank)
  bcast_S_S1x128 : S_.BroadcastsInDim S1x128 (![] : Fin 0 → Fin S1x128.rank)
  bcast_S8192_S8192x1_0 : S8192.BroadcastsInDim S8192x1 (![0] : Fin 1 → Fin S8192x1.rank)
  bcast_S_S8192 : S_.BroadcastsInDim S8192 (![] : Fin 0 → Fin S8192.rank)
  concatenates_S8192x128_S8192x128_S8192x256_d1 : Shape.Concatenates [S8192x128, S8192x128] S8192x256 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  scatter_S1x128_S8192x1_S8192x128_1_0_0_1_wf : ScatterDims.WF S1x128 S8192x1 S8192x128 [1] [0] [0] 1
  gather_S1x128_S8192x1_S8192x128_1_0_n_n_0_1_1128_wf : GatherDims.WF S1x128 S8192x1 S8192x128 [1] [0] [] [0] [] 1 ![1, 128]
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def scatter_S1x128_S8192x1_S8192x128_1_0_0_1 : ScatterDims S1x128 S8192x1 S8192x128 where
  updateWindowDims := [1]
  insertedWindowDims := [0]
  scatterDimsToOperandDims := [0]
  indexVectorDim := 1
  wf := scatter_S1x128_S8192x1_S8192x128_1_0_0_1_wf
def gather_S1x128_S8192x1_S8192x128_1_0_n_n_0_1_1128 : GatherDims S1x128 S8192x1 S8192x128 where
  offsetDims := [1]
  collapsedSliceDims := [0]
  operandBatchingDims := []
  startIndicesBatchingDims := []
  startIndexMap := [0]
  indexVectorDim := 1
  sliceSizes := ![1, 128]
  wf := gather_S1x128_S8192x1_S8192x128_1_0_n_n_0_1_1128_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Reg0.lean ====
/-
  Region 0 of the kernel's @main (the first adjacency product), at any float instance and at the
  contents `V` the region is entered from.

  The pallas_call runs on a 4 x 8 grid: point `t = 8 i + k` multiplies block `(i, k)` of the adjacency matrix
  (2048 x 1024) with block `k` of the right operand (1024 x 256) and adds the product to a 2048 x 256
  accumulator kept in scratch memory; at `k = 0` the accumulator is first cleared, and at `k = 7` the
  output block `i` is stored as the accumulator clamped below at zero. The output window is therefore idle
  (stored nowhere, written back nowhere) except at the points `t % 8 = 7`.

  This module fixes the proof data: what the accumulator holds after each point (`acc0`), what the output's
  staging buffer holds after a point that stores it, the invariant that carries the accumulator from point to
  point, and the body obligation.
-/
import proofs.«181997_j36361193128417_1_alg».proof.Proof.Gen.Kernel.Launch
import proofs.«181997_j36361193128417_1_alg».proof.Proof.Gen.Kernel.Skeleton
import proofs.«181997_j36361193128417_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator's memref: the kernel's one scratch operand, whole. -/
abbrev scM0 : Memref sig .tc .vmem S2048x256 .f32 := Memref.whole cc0_scratch0

/-- One point's update of the accumulator `s`: the product of the point's two blocks added to it (past the grid, nothing). -/
def step0 (c : Dev nD) (n : ℕ) (s : Vec F S2048x256 .f32) : Vec F S2048x256 .f32 :=
  if h : n < cfg0.N then k0_pay2 (iblk0 V c 0 ⟨n, h⟩) (iblk0 V c 1 ⟨n, h⟩) s else s

/-- THE ACCUMULATION. What the scratch accumulator holds after the body at position `n`: the point's update of
    zero where the run along `k` begins (`n % 8 = 0`), of what the point before left elsewhere. -/
def acc0 (c : Dev nD) : ℕ → Vec F S2048x256 .f32
  | 0 => step0 V c 0 (k0_pay1 (F := F))
  | n + 1 => step0 V c (n + 1) (if (n + 1) % 8 = 0 then k0_pay1 (F := F) else acc0 c n)

/-- What the output's staging buffer holds after a point that stores it: the accumulator clamped below at zero. -/
def out0_2 (c : Dev nD) (t : Fin cfg0.N) : Vec F S2048x256 .f32 := k0_pay3 (acc0 V c t.val)

/-- The core's scoped buffers other than region 0's staging buffers and the accumulator, each whole at some contents. -/
def restNS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The region invariant before position `n`: before the first point the class's (every scratch at anything); afterwards
    the accumulator at what the point before left, the other scoped buffers at anything, the generator register at some state. -/
def Phi0 (c : Dev nD) : ℕ → sProp 𝕄
  | 0 => Pipeline.ΦA spec0 c
  | n + 1 => iprop(owns (c : Thread nD τ) scM0 fullShare (acc0 V c n) ∗ restNS0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 V c t
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 V c t := by dsimp only [dat0]

/-- The offsets of a whole-buffer access are all zero. -/
theorem offs_zero0 : (![0, 0] : Fin 2 → Nat) = fun _ => 0 := by
  funext a; fin_cases a <;> rfl

/-- A store through the whole buffer, made last, is what the buffer then reads as, whatever was stored before
    and whatever the buffer held. -/
theorem read_store_whole0 {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb]

/-- A load through the whole buffer reads the buffer's contents. -/
theorem load_whole0 {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f := by
  rw [View.readAt_eq_ld, View.ld_unit_zero hz inb]

/-- The body's first conditional (the accumulator is cleared), as the kernel computes it from the grid point. -/
abbrev k0_first (i : grid0.Coords) : Prop :=
  (Scalar.cmpi .ne (Scalar.extui (Scalar.cmpi .eq (BitVec.ofNat 32 (i 1).val) 0#32)) 0#32) = 1#1
/-- The body's second conditional (the output block is stored). -/
abbrev k0_last (i : grid0.Coords) : Prop := k0_cond2 i = 1#1

/-- The accumulator is cleared exactly where the run along the contracted axis begins. -/
theorem k0_first_iff : ∀ t : Fin cfg0.N, k0_first (grid0.coords t) ↔ t.val % 8 = 0 :=
  (by decide +kernel : ∀ t : Fin grid0.N, k0_first (grid0.coords t) ↔ t.val % 8 = 0)
/-- The output block is stored exactly where that run ends. -/
theorem k0_last_iff : ∀ t : Fin cfg0.N, k0_last (grid0.coords t) ↔ t.val % 8 = 7 :=
  (by decide +kernel : ∀ t : Fin grid0.N, k0_last (grid0.coords t) ↔ t.val % 8 = 7)

set_option maxHeartbeats 1000000 in
/-- The body where a run begins: the accumulator, found at anything, is cleared and then takes the point's product. -/
theorem sound_kernel0_first (c : Dev nD) (E : Set ℕ) (i : grid0.Coords)
    (arg2 : Memref sig .tc .vmem S2048x1024 .f32) (harg2 : arg2.IsWhole)
    (arg3 : Memref sig .tc .vmem S1024x256 .f32) (harg3 : arg3.IsWhole)
    (arg4 : Memref sig .tc .vmem S2048x256 .f32) (harg4 : arg4.IsWhole)
    (arg5 : Memref sig .tc .vmem S2048x256 .f32) (harg5 : arg5.IsWhole)
    (hc1 : k0_first i) (hc2 : ¬ k0_last i)
    (x0 : Vec F S2048x1024 .f32) (x1 : Vec F S1024x256 .f32) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 x0 x1 (k0_pay1 (F := F)))) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_store_whole0 _ _ offs_zero0]
  simp only [load_whole0 (S := S2048x1024) _ _ offs_zero0, load_whole0 (S := S1024x256) _ _ offs_zero0,
    load_whole0 (S := S2048x256) _ _ offs_zero0, View.readCov_unit_zero (S := S2048x256) _ offs_zero0]

set_option maxHeartbeats 1000000 in
/-- The body inside a run: the accumulator takes the point's product on top of what it held. -/
theorem sound_kernel0_mid (c : Dev nD) (E : Set ℕ) (i : grid0.Coords)
    (arg2 : Memref sig .tc .vmem S2048x1024 .f32) (harg2 : arg2.IsWhole)
    (arg3 : Memref sig .tc .vmem S1024x256 .f32) (harg3 : arg3.IsWhole)
    (arg4 : Memref sig .tc .vmem S2048x256 .f32) (harg4 : arg4.IsWhole)
    (arg5 : Memref sig .tc .vmem S2048x256 .f32) (harg5 : arg5.IsWhole)
    (hc1 : ¬ k0_first i) (hc2 : ¬ k0_last i)
    (x0 : Vec F S2048x1024 .f32) (x1 : Vec F S1024x256 .f32) (s : Vec F S2048x256 .f32) (K : PUnit → sProp 𝕄) :
    iprop(owns (c : Thread nD τ) arg2 fullShare x0 ∗ owns (c : Thread nD τ) arg3 fullShare x1
        ∗ owns (c : Thread nD τ) arg5 fullShare s
        ∗ (iprop(owns (c : Thread nD τ) arg2 fullShare x0 ∗ owns (c : Thread nD τ) arg3 fullShare x1
            ∗ owns (c : Thread nD τ) arg5 fullShare (k0_pay2 x0 x1 s)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_store_whole0 _ _ offs_zero0]
  simp only [load_whole0 (S := S2048x1024) _ _ offs_zero0, load_whole0 (S := S1024x256) _ _ offs_zero0,
    load_whole0 (S := S2048x256) _ _ offs_zero0, View.readCov_unit_zero (S := S2048x256) _ offs_zero0]

set_option maxHeartbeats 1000000 in
/-- The body where a run ends: the accumulator takes the point's product, and the output's buffer, found at
    anything, is stored from what the accumulator then holds. -/
theorem sound_kernel0_last (c : Dev nD) (E : Set ℕ) (i : grid0.Coords)
    (arg2 : Memref sig .tc .vmem S2048x1024 .f32) (harg2 : arg2.IsWhole)
    (arg3 : Memref sig .tc .vmem S1024x256 .f32) (harg3 : arg3.IsWhole)
    (arg4 : Memref sig .tc .vmem S2048x256 .f32) (harg4 : arg4.IsWhole)
    (arg5 : Memref sig .tc .vmem S2048x256 .f32) (harg5 : arg5.IsWhole)
    (hc1 : ¬ k0_first i) (hc2 : k0_last i)
    (x0 : Vec F S2048x1024 .f32) (x1 : Vec F S1024x256 .f32) (s : Vec F S2048x256 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s))
            ∗ owns (c : Thread nD τ) arg5 fullShare (k0_pay2 x0 x1 s)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole0 _ _ offs_zero0]
    simp only [load_whole0 (S := S2048x1024) _ _ offs_zero0, load_whole0 (S := S1024x256) _ _ offs_zero0,
      load_whole0 (S := S2048x256) _ _ offs_zero0, View.readCov_unit_zero (S := S2048x256) _ offs_zero0]
  iexists _; isplitr
  swap; · iexact HS
  ipureintro
  sl_unfold_run_names
  rw [read_store_whole0 _ _ offs_zero0]
  simp only [load_whole0 (S := S2048x1024) _ _ offs_zero0, load_whole0 (S := S1024x256) _ _ offs_zero0,
    load_whole0 (S := S2048x256) _ _ offs_zero0, View.readCov_unit_zero (S := S2048x256) _ offs_zero0]

/-! ## The accumulator, point by point -/

/-- One point's update at a point of the grid: the product of the point's two blocks added to `s`. -/
theorem step0_at (c : Dev nD) (t : Fin cfg0.N) (s : Vec F S2048x256 .f32) :
    step0 V c t.val s = k0_pay2 (iblk0 V c 0 t) (iblk0 V c 1 t) s := by
  unfold step0; rw [dif_pos t.isLt]

/-- Where a run along the contracted axis begins the accumulator holds the point's product alone. -/
theorem acc0_reset (c : Dev nD) (t : Fin cfg0.N) (h : t.val % 8 = 0) :
    acc0 V c t.val = k0_pay2 (iblk0 V c 0 t) (iblk0 V c 1 t) (k0_pay1 (F := F)) := by
  rw [← step0_at]
  obtain ⟨n, hn⟩ := t
  cases n with
  | zero => rfl
  | succ n =>
    dsimp only at h
    show step0 V c (n + 1) (if (n + 1) % 8 = 0 then _ else _) = _
    rw [if_pos h]

/-- Elsewhere it holds the point's product on top of what the point before left. -/
theorem acc0_carry (c : Dev nD) (t : Fin cfg0.N) (h : t.val % 8 ≠ 0) :
    acc0 V c t.val = k0_pay2 (iblk0 V c 0 t) (iblk0 V c 1 t) (acc0 V c (t.val - 1)) := by
  rw [← step0_at]
  obtain ⟨n, hn⟩ := t
  cases n with
  | zero => exact absurd (Nat.zero_mod 8) h
  | succ n =>
    dsimp only at h
    show step0 V c (n + 1) (if (n + 1) % 8 = 0 then _ else _) = _
    rw [if_neg h]; rfl

/-! ## The invariant, position by position -/

/-- After point `n` the accumulator is held at what that point left. -/
theorem Phi0_succ (c : Dev nD) (n : ℕ) :
    Phi0 V c (n + 1) = iprop(owns (c : Thread nD τ) scM0 fullShare (acc0 V c n) ∗ restNS0 (F := F) c ∗ (∃ r, prngReg c r)) := rfl

/-- Before any point but the first the accumulator is held at what the point before left. -/
theorem Phi0_pos (c : Dev nD) (n : ℕ) (hn : n ≠ 0) :
    Phi0 V c n = iprop(owns (c : Thread nD τ) scM0 fullShare (acc0 V c (n - 1)) ∗ restNS0 (F := F) c ∗ (∃ r, prngReg c r)) := by
  cases n with
  | zero => exact absurd rfl hn
  | succ n => rfl

/-- The class's invariant is the accumulator at some contents, the other scoped buffers, and the generator register:
    the accumulator is one of the scoped buffers that is no staging buffer of this region. -/
theorem PhiA0_acc_rest (c : Dev nD) :
    (Pipeline.ΦA spec0 c : sProp 𝕄)
      = iprop((∃ d, owns (c : Thread nD τ) scM0 fullShare d) ∗ restNS0 (F := F) c ∗ (∃ r, prngReg c r)) := by
  unfold Pipeline.ΦA Pipeline.scopedRest restNS0
  rw [bigSep_erase (i := cc0_scratch0) (by decide)]
  simp only [scM0, owns_whole]
  exact BI.equiv_iff.mp ⟨Idealize.SL.BI.sep_assoc, Idealize.SL.BI.sep_assoc'⟩

/-- At every position the invariant yields the accumulator at some contents. -/
theorem Phi0_any (c : Dev nD) (n : ℕ) :
    Phi0 V c n ⊢ iprop((∃ d, owns (c : Thread nD τ) scM0 fullShare d) ∗ restNS0 (F := F) c ∗ (∃ r, prngReg c r)) := by
  cases n with
  | zero =>
    rw [show Phi0 V c 0 = Pipeline.ΦA spec0 c from rfl, PhiA0_acc_rest]
  | succ n =>
    rw [Phi0_succ]
    iintro ⟨HS, HR, Hg⟩
    isplitl [HS]; · iexists _; iexact HS
    isplitl [HR]; · iexact HR
    iexact Hg

/-! ## What the body finds in the input windows' buffers, and where the output window is idle -/

/-- The left operand's buffer holds its block at every point: the body leaves it in place, and a point that does not
    fetch has not moved the block index. -/
theorem before0_0 (c : Dev nD) (t : Fin cfg0.N) (d) : (dat0 V c).before 0 t d = iblk0 V c 0 t := by
  rw [(dat0 V c).before_in_eq_fetched 0 rfl (fun _ => rfl) (fun _ _ _ => rfl)
    (fun u => by rw [after0_0]; unfold Dat.blockOf iblk0; rw [A_eq0]) t d]
  unfold Dat.fetched Dat.blockOf iblk0; rw [A_eq0]; rfl

/-- The right operand's buffer likewise. -/
theorem before0_1 (c : Dev nD) (t : Fin cfg0.N) (d) : (dat0 V c).before 1 t d = iblk0 V c 1 t := by
  rw [(dat0 V c).before_in_eq_fetched 1 rfl (fun _ => rfl) (fun _ _ _ => rfl)
    (fun u => by rw [after0_1]; unfold Dat.blockOf iblk0; rw [A_eq0]) t d]
  unfold Dat.fetched Dat.blockOf iblk0; rw [A_eq0]; rfl

/-- Inside a run the output window is idle, -/
theorem idle0_2_inside : ∀ t : Fin cfg0.N, t.val % 8 ≠ 7 → cfg0.idle 2 (grid0.coords t) = true := by decide +kernel
/-- and live where it ends. -/
theorem idle0_2_end : ∀ t : Fin cfg0.N, t.val % 8 = 7 → cfg0.idle 2 (grid0.coords t) = false := by decide +kernel
/-- Inside a run the output block is not written back. -/
theorem flush0_2_inside (t : Fin cfg0.N) (h : t.val % 8 ≠ 7) : (cfg0.win 2).flush t = false :=
  Bool.eq_false_iff.mpr fun hf => h ((flush0_2 t).mp hf)

/-- What the body is to leave in each window's buffer: the operands' blocks in place, -/
theorem leaves0_0 (c : Dev nD) (t : Fin cfg0.N) :
    (dat0 V c).leavesExact 0 t = owns (c : Thread nD τ) (st0_0 t) fullShare (iblk0 V c 0 t) := by
  unfold Dat.leavesExact; rw [after0_0]
theorem leaves0_1 (c : Dev nD) (t : Fin cfg0.N) :
    (dat0 V c).leavesExact 1 t = owns (c : Thread nD τ) (st0_1 t) fullShare (iblk0 V c 1 t) := by
  unfold Dat.leavesExact; rw [after0_1]
/-- the output's buffer as found inside a run, -/
theorem leaves0_2_inside (c : Dev nD) (t : Fin cfg0.N) (h : t.val % 8 ≠ 7) :
    (dat0 V c).leavesExact 2 t = iprop(∃ d, owns (c : Thread nD τ) (st0_2 t) fullShare ((dat0 V c).before 2 t d)) :=
  (dat0 V c).leavesExact_idle 2 t (idle0_2_inside t h) (flush0_2_inside t h)
/-- and at the stored block where the run ends. -/
theorem leaves0_2_end (c : Dev nD) (t : Fin cfg0.N) (h : t.val % 8 = 7) :
    (dat0 V c).leavesExact 2 t = owns (c : Thread nD τ) (st0_2 t) fullShare (out0_2 V c t) := by
  unfold Dat.leavesExact; rw [idle0_2_end t h, after0_2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4000000 in
/-- The body at any point, by the point's place in its run along the contracted axis: the invariant hands the body the
    accumulator (at anything where a run begins, else at what the point before left) and takes it back at this point's
    contents; the operands' buffers hold their blocks and keep them; the output's buffer is handed back as found inside a
    run and at the stored block where the run ends; the other scoped buffers, the generator register and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) from rfl, Phi0_succ,
    show (dat0 V c).Φ t.castSucc = Phi0 V c t.val from rfl, leaves0_0, leaves0_1]
  by_cases h0 : t.val % 8 = 0
  · have h7 : t.val % 8 ≠ 7 := by omega
    rw [leaves0_2_inside V c t h7, acc0_reset V c t h0]
    iintro ⟨HΦ, Ho, ⟨%d0, H0⟩, ⟨%d1, H1⟩, H2⟩
    icases (Phi0_any V c t.val) $$ HΦ with ⟨HS, HR, Hg⟩
    iapply (sound_kernel0_first c Set.univ (grid0.coords t) _ _ _ _ _ _ _ _ ((k0_first_iff t).mpr h0)
      (fun h => h7 ((k0_last_iff t).mp h)) (iblk0 V c 0 t) (iblk0 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hpos : t.val ≠ 0 := fun h => h0 (by rw [h])
    by_cases h7 : t.val % 8 = 7
    · rw [leaves0_2_end V c t h7]; unfold out0_2
      rw [Phi0_pos V c t.val hpos, acc0_carry V c t h0]
      iintro ⟨⟨HS, HR, Hg⟩, Ho, ⟨%d0, H0⟩, ⟨%d1, H1⟩, ⟨%d2, H2⟩⟩
      iapply (sound_kernel0_last c Set.univ (grid0.coords t) _ _ _ _ _ _ _ _ (fun h => h0 ((k0_first_iff t).mp h))
        ((k0_last_iff t).mpr h7) (iblk0 V c 0 t) (iblk0 V c 1 t) (acc0 V c (t.val - 1)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [leaves0_2_inside V c t h7, Phi0_pos V c t.val hpos, acc0_carry V c t h0]
      iintro ⟨⟨HS, HR, Hg⟩, Ho, ⟨%d0, H0⟩, ⟨%d1, H1⟩, H2⟩
      iapply (sound_kernel0_mid c Set.univ (grid0.coords t) _ _ _ _ _ _ _ _ (fun h => h0 ((k0_first_iff t).mp h))
        (fun h => h7 ((k0_last_iff t).mp h)) (iblk0 V c 0 t) (iblk0 V c 1 t) (acc0 V c (t.val - 1)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The class's invariant with the accumulator split off the scoped rest. -/
theorem PhiA0_split (c : Dev nD) :
    (Pipeline.ΦA spec0 c : sProp 𝕄)
      = iprop((∃ d, owns (c : Thread nD τ) scM0 fullShare d) ∗ restNS0 (F := F) c ∗ (∃ r, prngReg c r)) :=
  PhiA0_acc_rest c

/-- What the launch hands the region is the invariant before the first point. -/
theorem hin0 (c : Dev nD) : Pipeline.ΦA spec0 c ⊢ (dat0 V c).Φ 0 :=
  Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl, PhiA0_acc_rest]
  exact Phi0_any V c _

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel's @main (the second adjacency product, over the four weight blocks side by side), at any float instance and at the
  contents `V` the region is entered from.

  The pallas_call runs on a 4 x 8 grid: point `t = 8 i + k` multiplies block `(i, k)` of the adjacency matrix
  (2048 x 1024) with block `k` of the right operand (1024 x 512) and adds the product to a 2048 x 512
  accumulator kept in scratch memory; at `k = 0` the accumulator is first cleared, and at `k = 7` the
  output block `i` is stored as the accumulator itself. The output window is therefore idle
  (stored nowhere, written back nowhere) except at the points `t % 8 = 7`.

  This module fixes the proof data: what the accumulator holds after each point (`acc1`), what the output's
  staging buffer holds after a point that stores it, the invariant that carries the accumulator from point to
  point, and the body obligation.
-/
import proofs.«181997_j36361193128417_1_alg».proof.Proof.Gen.Kernel.Launch
import proofs.«181997_j36361193128417_1_alg».proof.Proof.Gen.Kernel.Skeleton
import proofs.«181997_j36361193128417_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator's memref: the kernel's one scratch operand, whole. -/
abbrev scM1 : Memref sig .tc .vmem S2048x512 .f32 := Memref.whole cc1_scratch0

/-- One point's update of the accumulator `s`: the product of the point's two blocks added to it (past the grid, nothing). -/
def step1 (c : Dev nD) (n : ℕ) (s : Vec F S2048x512 .f32) : Vec F S2048x512 .f32 :=
  if h : n < cfg1.N then k1_pay2 (iblk1 V c 0 ⟨n, h⟩) (iblk1 V c 1 ⟨n, h⟩) s else s

/-- THE ACCUMULATION. What the scratch accumulator holds after the body at position `n`: the point's update of
    zero where the run along `k` begins (`n % 8 = 0`), of what the point before left elsewhere. -/
def acc1 (c : Dev nD) : ℕ → Vec F S2048x512 .f32
  | 0 => step1 V c 0 (k1_pay1 (F := F))
  | n + 1 => step1 V c (n + 1) (if (n + 1) % 8 = 0 then k1_pay1 (F := F) else acc1 c n)

/-- What the output's staging buffer holds after a point that stores it: the accumulator. -/
def out1_2 (c : Dev nD) (t : Fin cfg1.N) : Vec F S2048x512 .f32 := acc1 V c t.val

/-- The core's scoped buffers other than region 1's staging buffers and the accumulator, each whole at some contents. -/
def restNS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The region invariant before position `n`: before the first point the class's (every scratch at anything); afterwards
    the accumulator at what the point before left, the other scoped buffers at anything, the generator register at some state. -/
def Phi1 (c : Dev nD) : ℕ → sProp 𝕄
  | 0 => Pipeline.ΦA spec1 c
  | n + 1 => iprop(owns (c : Thread nD τ) scM1 fullShare (acc1 V c n) ∗ restNS1 (F := F) c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

/-- The offsets of a whole-buffer access are all zero. -/
theorem offs_zero1 : (![0, 0] : Fin 2 → Nat) = fun _ => 0 := by
  funext a; fin_cases a <;> rfl

/-- A store through the whole buffer, made last, is what the buffer then reads as, whatever was stored before
    and whatever the buffer held. -/
theorem read_store_whole1 {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb]

/-- A load through the whole buffer reads the buffer's contents. -/
theorem load_whole1 {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f := by
  rw [View.readAt_eq_ld, View.ld_unit_zero hz inb]

/-- The body's first conditional (the accumulator is cleared), as the kernel computes it from the grid point. -/
abbrev k1_first (i : grid1.Coords) : Prop :=
  (Scalar.cmpi .ne (Scalar.extui (Scalar.cmpi .eq (BitVec.ofNat 32 (i 1).val) 0#32)) 0#32) = 1#1
/-- The body's second conditional (the output block is stored). -/
abbrev k1_last (i : grid1.Coords) : Prop := k1_cond2 i = 1#1

/-- The accumulator is cleared exactly where the run along the contracted axis begins. -/
theorem k1_first_iff : ∀ t : Fin cfg1.N, k1_first (grid1.coords t) ↔ t.val % 8 = 0 :=
  (by decide +kernel : ∀ t : Fin grid1.N, k1_first (grid1.coords t) ↔ t.val % 8 = 0)
/-- The output block is stored exactly where that run ends. -/
theorem k1_last_iff : ∀ t : Fin cfg1.N, k1_last (grid1.coords t) ↔ t.val % 8 = 7 :=
  (by decide +kernel : ∀ t : Fin grid1.N, k1_last (grid1.coords t) ↔ t.val % 8 = 7)

set_option maxHeartbeats 1000000 in
/-- The body where a run begins: the accumulator, found at anything, is cleared and then takes the point's product. -/
theorem sound_kernel1_first (c : Dev nD) (E : Set ℕ) (i : grid1.Coords)
    (arg2 : Memref sig .tc .vmem S2048x1024 .f32) (harg2 : arg2.IsWhole)
    (arg3 : Memref sig .tc .vmem S1024x512 .f32) (harg3 : arg3.IsWhole)
    (arg4 : Memref sig .tc .vmem S2048x512 .f32) (harg4 : arg4.IsWhole)
    (arg5 : Memref sig .tc .vmem S2048x512 .f32) (harg5 : arg5.IsWhole)
    (hc1 : k1_first i) (hc2 : ¬ k1_last i)
    (x0 : Vec F S2048x1024 .f32) (x1 : Vec F S1024x512 .f32) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 x0 x1 (k1_pay1 (F := F)))) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_store_whole1 _ _ offs_zero1]
  simp only [load_whole1 (S := S2048x1024) _ _ offs_zero1, load_whole1 (S := S1024x512) _ _ offs_zero1,
    load_whole1 (S := S2048x512) _ _ offs_zero1, View.readCov_unit_zero (S := S2048x512) _ offs_zero1]

set_option maxHeartbeats 1000000 in
/-- The body inside a run: the accumulator takes the point's product on top of what it held. -/
theorem sound_kernel1_mid (c : Dev nD) (E : Set ℕ) (i : grid1.Coords)
    (arg2 : Memref sig .tc .vmem S2048x1024 .f32) (harg2 : arg2.IsWhole)
    (arg3 : Memref sig .tc .vmem S1024x512 .f32) (harg3 : arg3.IsWhole)
    (arg4 : Memref sig .tc .vmem S2048x512 .f32) (harg4 : arg4.IsWhole)
    (arg5 : Memref sig .tc .vmem S2048x512 .f32) (harg5 : arg5.IsWhole)
    (hc1 : ¬ k1_first i) (hc2 : ¬ k1_last i)
    (x0 : Vec F S2048x1024 .f32) (x1 : Vec F S1024x512 .f32) (s : Vec F S2048x512 .f32) (K : PUnit → sProp 𝕄) :
    iprop(owns (c : Thread nD τ) arg2 fullShare x0 ∗ owns (c : Thread nD τ) arg3 fullShare x1
        ∗ owns (c : Thread nD τ) arg5 fullShare s
        ∗ (iprop(owns (c : Thread nD τ) arg2 fullShare x0 ∗ owns (c : Thread nD τ) arg3 fullShare x1
            ∗ owns (c : Thread nD τ) arg5 fullShare (k1_pay2 x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_store_whole1 _ _ offs_zero1]
  simp only [load_whole1 (S := S2048x1024) _ _ offs_zero1, load_whole1 (S := S1024x512) _ _ offs_zero1,
    load_whole1 (S := S2048x512) _ _ offs_zero1, View.readCov_unit_zero (S := S2048x512) _ offs_zero1]

set_option maxHeartbeats 1000000 in
/-- The body where a run ends: the accumulator takes the point's product, and the output's buffer, found at
    anything, is stored from what the accumulator then holds. -/
theorem sound_kernel1_last (c : Dev nD) (E : Set ℕ) (i : grid1.Coords)
    (arg2 : Memref sig .tc .vmem S2048x1024 .f32) (harg2 : arg2.IsWhole)
    (arg3 : Memref sig .tc .vmem S1024x512 .f32) (harg3 : arg3.IsWhole)
    (arg4 : Memref sig .tc .vmem S2048x512 .f32) (harg4 : arg4.IsWhole)
    (arg5 : Memref sig .tc .vmem S2048x512 .f32) (harg5 : arg5.IsWhole)
    (hc1 : ¬ k1_first i) (hc2 : k1_last i)
    (x0 : Vec F S2048x1024 .f32) (x1 : Vec F S1024x512 .f32) (s : Vec F S2048x512 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare ((k1_pay2 x0 x1 s))
            ∗ owns (c : Thread nD τ) arg5 fullShare (k1_pay2 x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole1 _ _ offs_zero1]
    simp only [load_whole1 (S := S2048x1024) _ _ offs_zero1, load_whole1 (S := S1024x512) _ _ offs_zero1,
      load_whole1 (S := S2048x512) _ _ offs_zero1, View.readCov_unit_zero (S := S2048x512) _ offs_zero1]
  iexists _; isplitr
  swap; · iexact HS
  ipureintro
  sl_unfold_run_names
  rw [read_store_whole1 _ _ offs_zero1]
  simp only [load_whole1 (S := S2048x1024) _ _ offs_zero1, load_whole1 (S := S1024x512) _ _ offs_zero1,
    load_whole1 (S := S2048x512) _ _ offs_zero1, View.readCov_unit_zero (S := S2048x512) _ offs_zero1]

/-! ## The accumulator, point by point -/

/-- One point's update at a point of the grid: the product of the point's two blocks added to `s`. -/
theorem step1_at (c : Dev nD) (t : Fin cfg1.N) (s : Vec F S2048x512 .f32) :
    step1 V c t.val s = k1_pay2 (iblk1 V c 0 t) (iblk1 V c 1 t) s := by
  unfold step1; rw [dif_pos t.isLt]

/-- Where a run along the contracted axis begins the accumulator holds the point's product alone. -/
theorem acc1_reset (c : Dev nD) (t : Fin cfg1.N) (h : t.val % 8 = 0) :
    acc1 V c t.val = k1_pay2 (iblk1 V c 0 t) (iblk1 V c 1 t) (k1_pay1 (F := F)) := by
  rw [← step1_at]
  obtain ⟨n, hn⟩ := t
  cases n with
  | zero => rfl
  | succ n =>
    dsimp only at h
    show step1 V c (n + 1) (if (n + 1) % 8 = 0 then _ else _) = _
    rw [if_pos h]

/-- Elsewhere it holds the point's product on top of what the point before left. -/
theorem acc1_carry (c : Dev nD) (t : Fin cfg1.N) (h : t.val % 8 ≠ 0) :
    acc1 V c t.val = k1_pay2 (iblk1 V c 0 t) (iblk1 V c 1 t) (acc1 V c (t.val - 1)) := by
  rw [← step1_at]
  obtain ⟨n, hn⟩ := t
  cases n with
  | zero => exact absurd (Nat.zero_mod 8) h
  | succ n =>
    dsimp only at h
    show step1 V c (n + 1) (if (n + 1) % 8 = 0 then _ else _) = _
    rw [if_neg h]; rfl

/-! ## The invariant, position by position -/

/-- After point `n` the accumulator is held at what that point left. -/
theorem Phi1_succ (c : Dev nD) (n : ℕ) :
    Phi1 V c (n + 1) = iprop(owns (c : Thread nD τ) scM1 fullShare (acc1 V c n) ∗ restNS1 (F := F) c ∗ (∃ r, prngReg c r)) := rfl

/-- Before any point but the first the accumulator is held at what the point before left. -/
theorem Phi1_pos (c : Dev nD) (n : ℕ) (hn : n ≠ 0) :
    Phi1 V c n = iprop(owns (c : Thread nD τ) scM1 fullShare (acc1 V c (n - 1)) ∗ restNS1 (F := F) c ∗ (∃ r, prngReg c r)) := by
  cases n with
  | zero => exact absurd rfl hn
  | succ n => rfl

/-- The class's invariant is the accumulator at some contents, the other scoped buffers, and the generator register:
    the accumulator is one of the scoped buffers that is no staging buffer of this region. -/
theorem PhiA1_acc_rest (c : Dev nD) :
    (Pipeline.ΦA spec1 c : sProp 𝕄)
      = iprop((∃ d, owns (c : Thread nD τ) scM1 fullShare d) ∗ restNS1 (F := F) c ∗ (∃ r, prngReg c r)) := by
  unfold Pipeline.ΦA Pipeline.scopedRest restNS1
  rw [bigSep_erase (i := cc1_scratch0) (by decide)]
  simp only [scM1, owns_whole]
  exact BI.equiv_iff.mp ⟨Idealize.SL.BI.sep_assoc, Idealize.SL.BI.sep_assoc'⟩

/-- At every position the invariant yields the accumulator at some contents. -/
theorem Phi1_any (c : Dev nD) (n : ℕ) :
    Phi1 V c n ⊢ iprop((∃ d, owns (c : Thread nD τ) scM1 fullShare d) ∗ restNS1 (F := F) c ∗ (∃ r, prngReg c r)) := by
  cases n with
  | zero =>
    rw [show Phi1 V c 0 = Pipeline.ΦA spec1 c from rfl, PhiA1_acc_rest]
  | succ n =>
    rw [Phi1_succ]
    iintro ⟨HS, HR, Hg⟩
    isplitl [HS]; · iexists _; iexact HS
    isplitl [HR]; · iexact HR
    iexact Hg

/-! ## What the body finds in the input windows' buffers, and where the output window is idle -/

/-- The left operand's buffer holds its block at every point: the body leaves it in place, and a point that does not
    fetch has not moved the block index. -/
theorem before1_0 (c : Dev nD) (t : Fin cfg1.N) (d) : (dat1 V c).before 0 t d = iblk1 V c 0 t := by
  rw [(dat1 V c).before_in_eq_fetched 0 rfl (fun _ => rfl) (fun _ _ _ => rfl)
    (fun u => by rw [after1_0]; unfold Dat.blockOf iblk1; rw [A_eq1]) t d]
  unfold Dat.fetched Dat.blockOf iblk1; rw [A_eq1]; rfl

/-- The right operand's buffer likewise. -/
theorem before1_1 (c : Dev nD) (t : Fin cfg1.N) (d) : (dat1 V c).before 1 t d = iblk1 V c 1 t := by
  rw [(dat1 V c).before_in_eq_fetched 1 rfl (fun _ => rfl) (fun _ _ _ => rfl)
    (fun u => by rw [after1_1]; unfold Dat.blockOf iblk1; rw [A_eq1]) t d]
  unfold Dat.fetched Dat.blockOf iblk1; rw [A_eq1]; rfl

/-- Inside a run the output window is idle, -/
theorem idle1_2_inside : ∀ t : Fin cfg1.N, t.val % 8 ≠ 7 → cfg1.idle 2 (grid1.coords t) = true := by decide +kernel
/-- and live where it ends. -/
theorem idle1_2_end : ∀ t : Fin cfg1.N, t.val % 8 = 7 → cfg1.idle 2 (grid1.coords t) = false := by decide +kernel
/-- Inside a run the output block is not written back. -/
theorem flush1_2_inside (t : Fin cfg1.N) (h : t.val % 8 ≠ 7) : (cfg1.win 2).flush t = false :=
  Bool.eq_false_iff.mpr fun hf => h ((flush1_2 t).mp hf)

/-- What the body is to leave in each window's buffer: the operands' blocks in place, -/
theorem leaves1_0 (c : Dev nD) (t : Fin cfg1.N) :
    (dat1 V c).leavesExact 0 t = owns (c : Thread nD τ) (st1_0 t) fullShare (iblk1 V c 0 t) := by
  unfold Dat.leavesExact; rw [after1_0]
theorem leaves1_1 (c : Dev nD) (t : Fin cfg1.N) :
    (dat1 V c).leavesExact 1 t = owns (c : Thread nD τ) (st1_1 t) fullShare (iblk1 V c 1 t) := by
  unfold Dat.leavesExact; rw [after1_1]
/-- the output's buffer as found inside a run, -/
theorem leaves1_2_inside (c : Dev nD) (t : Fin cfg1.N) (h : t.val % 8 ≠ 7) :
    (dat1 V c).leavesExact 2 t = iprop(∃ d, owns (c : Thread nD τ) (st1_2 t) fullShare ((dat1 V c).before 2 t d)) :=
  (dat1 V c).leavesExact_idle 2 t (idle1_2_inside t h) (flush1_2_inside t h)
/-- and at the stored block where the run ends. -/
theorem leaves1_2_end (c : Dev nD) (t : Fin cfg1.N) (h : t.val % 8 = 7) :
    (dat1 V c).leavesExact 2 t = owns (c : Thread nD τ) (st1_2 t) fullShare (out1_2 V c t) := by
  unfold Dat.leavesExact; rw [idle1_2_end t h, after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
/-- The body at any point, by the point's place in its run along the contracted axis: the invariant hands the body the
    accumulator (at anything where a run begins, else at what the point before left) and takes it back at this point's
    contents; the operands' buffers hold their blocks and keep them; the output's buffer is handed back as found inside a
    run and at the stored block where the run ends; the other scoped buffers, the generator register and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) from rfl, Phi1_succ,
    show (dat1 V c).Φ t.castSucc = Phi1 V c t.val from rfl, leaves1_0, leaves1_1]
  by_cases h0 : t.val % 8 = 0
  · have h7 : t.val % 8 ≠ 7 := by omega
    rw [leaves1_2_inside V c t h7, acc1_reset V c t h0]
    iintro ⟨HΦ, Ho, ⟨%d0, H0⟩, ⟨%d1, H1⟩, H2⟩
    icases (Phi1_any V c t.val) $$ HΦ with ⟨HS, HR, Hg⟩
    iapply (sound_kernel1_first c Set.univ (grid1.coords t) _ _ _ _ _ _ _ _ ((k1_first_iff t).mpr h0)
      (fun h => h7 ((k1_last_iff t).mp h)) (iblk1 V c 0 t) (iblk1 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hpos : t.val ≠ 0 := fun h => h0 (by rw [h])
    by_cases h7 : t.val % 8 = 7
    · rw [leaves1_2_end V c t h7]; unfold out1_2
      rw [Phi1_pos V c t.val hpos, acc1_carry V c t h0]
      iintro ⟨⟨HS, HR, Hg⟩, Ho, ⟨%d0, H0⟩, ⟨%d1, H1⟩, ⟨%d2, H2⟩⟩
      iapply (sound_kernel1_last c Set.univ (grid1.coords t) _ _ _ _ _ _ _ _ (fun h => h0 ((k1_first_iff t).mp h))
        ((k1_last_iff t).mpr h7) (iblk1 V c 0 t) (iblk1 V c 1 t) (acc1 V c (t.val - 1)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [leaves1_2_inside V c t h7, Phi1_pos V c t.val hpos, acc1_carry V c t h0]
      iintro ⟨⟨HS, HR, Hg⟩, Ho, ⟨%d0, H0⟩, ⟨%d1, H1⟩, H2⟩
      iapply (sound_kernel1_mid c Set.univ (grid1.coords t) _ _ _ _ _ _ _ _ (fun h => h0 ((k1_first_iff t).mp h))
        (fun h => h7 ((k1_last_iff t).mp h)) (iblk1 V c 0 t) (iblk1 V c 1 t) (acc1 V c (t.val - 1)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The class's invariant with the accumulator split off the scoped rest. -/
theorem PhiA1_split (c : Dev nD) :
    (Pipeline.ΦA spec1 c : sProp 𝕄)
      = iprop((∃ d, owns (c : Thread nD τ) scM1 fullShare d) ∗ restNS1 (F := F) c ∗ (∃ r, prngReg c r)) :=
  PhiA1_acc_rest c

/-- What the launch hands the region is the invariant before the first point. -/
theorem hin1 (c : Dev nD) : Pipeline.ΦA spec1 c ⊢ (dat1 V c).Φ 0 :=
  Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl, PhiA1_acc_rest]
  exact Phi1_any V c _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel's @main (the closing product of the latent matrix with its own transpose), at
  any float instance and at the contents `V` the region is entered from.

  The pallas_call runs on a 4 x 4 grid: point `t = 4 i + j` takes row block `i` and row block `j` of ONE array (the
  8192 x 128 latent matrix, staged through two windows) and stores block `(i, j)` of the result, the 2048 x 2048
  matrix of the inner products of the rows of the first block with the rows of the second. Nothing is carried
  from point to point. The two input windows read one array, so the core holds it as two half shares.
-/
import proofs.«181997_j36361193128417_1_alg».proof.Proof.Gen.Kernel.Launch
import proofs.«181997_j36361193128417_1_alg».proof.Proof.Gen.Kernel.Skeleton
import proofs.«181997_j36361193128417_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output's staging buffer holds after the body at point `t`: the products of the two row blocks. -/
def out2_2 (c : Dev nD) (t : Fin cfg2.N) : Vec F S2048x2048 .f32 := k2_pay1 (iblk2 V c 0 t) (iblk2 V c 1 t)

/-- The proof data of pipeline 2 on core `c`: the two input windows hold the shared array at a half share each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 V c t
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 V c t := by dsimp only [dat2]

/-! ## The body at a point -/

/-- The offsets of a load or store of a whole buffer, however the zeros are spelt. -/
theorem zeros2 : (![0, 0] : Fin 2 → ℕ) = fun _ => 0 := funext fun a => by fin_cases a <;> rfl

/-- An input window's current staging buffer holds its block at every point, fetched there or not: window 0's block
    index (i, 0) does not move along j, so where it is not fetched the buffer still holds the block of the point
    before, which is this point's; window 1 is fetched at every point. Both windows are uncut and never idle. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The body's one store is through the whole-buffer rectangle, which holds every index. -/
theorem cover2_2 (p : Vec F S2048x2048 .f32) (y : S2048x2048.Idx) :
    ∃ pc ∈ ([⟨Rect.unit (s := S2048x2048) ![0, 0] S2048x2048.size inb_S2048x2048_S2048x2048_0_0, p⟩] :
        List (View.Piece (Elt F) S2048x2048 .f32)), y ∈ pc.1.set :=
  ⟨_, List.mem_singleton_self _, View.mem_set_unit_zero zeros2 inb_S2048x2048_S2048x2048_0_0 y⟩

set_option maxHeartbeats 1000000 in
/-- The kernel body on whole staging memrefs: the two inputs' at read contents `x0`, `x1` and the output's at
    anything. It loads both inputs whole, loads the output (a value it never uses) and stores the product of the first
    block with the transpose of the second over the WHOLE output buffer; so it runs to the continuation holding the
    inputs' as they were and the output's at that product. One store covers the buffer, so what it leaves is its
    payload; a load through the whole-buffer rectangle reads the contents. -/
theorem sound_kernel2 (c : Dev nD) (E : Set ℕ) (i : grid2.Coords)
    (arg0 : Memref sig .tc .vmem S2048x128 .f32) (harg0 : arg0.IsWhole)
    (arg1 : Memref sig .tc .vmem S2048x128 .f32) (harg1 : arg1.IsWhole)
    (arg2 : Memref sig .tc .vmem S2048x2048 .f32) (harg2 : arg2.IsWhole)
    (x0 x1 : Vec F S2048x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (k2_pay1 x0 x1)) -∗ K ⟨⟩))
      ⊢ wp frame (wpE (defs₀ (F := F)) Variants.none c none) E (cc2__self_matmul_kernel i arg0 harg0 arg1 harg1 arg2 harg2) K := by
  simp only [cc2__self_matmul_kernel_eq_skeleton]; unfold cc2__self_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover2_2 _),
    View.canon_unit_zero zeros2, View.readAt_eq_ld, View.readAt_eq_ld, View.ld_unit_zero zeros2, View.ld_unit_zero zeros2]

/-- What the body is called with at point `t`: the invariant, what the core owes, and each window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, the output's anything; the invariant and what the core
    owes are the same at every point and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold out2_2
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The shared array: one buffer behind two windows -/

/-- The distinct buffers behind region 2's three windows: the latent matrix's (windows 0 and 1) and the result's. -/
theorem arrImage2 : (Finset.univ.image (Pipeline.arrRef spec2)) = {main_v62, main_v63} := by decide

/-- The shares the windows' arrays are held at: an input's is the proof data's, the output's is full. -/
theorem share2_0 (c : Dev nD) : (dat2 V c).share 0 = fullShare.left := by
  unfold Dat.share; rw [if_neg (by decide)]; dsimp only [dat2]
theorem share2_1 (c : Dev nD) : (dat2 V c).share 1 = fullShare.right := by
  unfold Dat.share; rw [if_neg (by decide)]; dsimp only [dat2]
theorem share2_2 (c : Dev nD) : (dat2 V c).share 2 = fullShare := by
  unfold Dat.share; rw [if_pos (by decide)]

/-- The windows' arrays at any contents, window by window: every array is a whole buffer, so the three conjuncts are
    the shared buffer at its left half, the same buffer at its right half, and the result's buffer whole. -/
theorem arrays2_eq (c : Dev nD) (G : (w : Fin cfg2.W) → Buf (Elt F) ((cfg2.win w).arr.view.loc (c : Thread nD τ))) :
    ((dat2 V c).arrays G : sProp 𝕄)
      = iprop(((c : Thread nD τ).loc main_v62 ↦{fullShare.left} G 0) ∗ ((c : Thread nD τ).loc main_v62 ↦{fullShare.right} G 1)
          ∗ ((c : Thread nD τ).loc main_v63 ↦{fullShare} G 2)) := by
  unfold Dat.arrays
  rw [bigSep_W2, (arr_whole2 0).set_eq_univ, (arr_whole2 2).set_eq_univ, share2_0, share2_1, share2_2]

/-- The buffers behind the arrays, one conjunct per DISTINCT buffer: two, not three. -/
theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop(((c : Thread nD τ).loc main_v62 ↦{fullShare} X main_v62) ∗ ((c : Thread nD τ).loc main_v63 ↦{fullShare} X main_v63)) := by
  unfold Pipeline.arrBufs
  rw [arrImage2, bigSep_insert (by decide), bigSep_singleton]
  rfl

/-- ENTRY: the buffers behind region 2's arrays, each whole at the full share at `V`, are the windows' arrays at the
    proof data's entry contents and shares: the latent matrix's buffer split into two halves, the result's whole. -/
theorem hsplit2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  -- at entry every window's array holds the region-entry contents of its buffer
  show _ ⊢ iprop(((c : Thread nD τ).loc main_v62 ↦{fullShare.left} V c main_v62) ∗ ((c : Thread nD τ).loc main_v62 ↦{fullShare.right} V c main_v62)
          ∗ ((c : Thread nD τ).loc main_v63 ↦{fullShare} V c main_v63))
  iintro ⟨H62, H63⟩
  -- the full share of the shared buffer is the sum of its two halves
  ihave H := (pointsTo_share (PosShare.mem_left_op_right fullShare)).1 $$ H62
  icases H with ⟨Hl, Hr⟩
  isplitl [Hl]; · iexact Hl
  isplitl [Hr]; · iexact Hr
  iexact H63

/-- EXIT: the windows' arrays at the pipeline's final contents are those buffers whole again, the inputs as entered and
    the result at what the write-backs left. -/
theorem hjoin2 (c : Dev nD) :
    (dat2 V c).arrays ((dat2 V c).arrAt · cfg2.N)
      ⊢ (Pipeline.arrBufs (Ix := Unit) (Name := ℕ) (U := UR sig nD τ) (Lvl := ℕ) spec2 c
          (Function.update (V c) main_v63 ((dat2 V c).arrAt 2 cfg2.N)) : sProp 𝕄) := by
  rw [arrBufs2_eq, arrays2_eq, Function.update_self, Function.update_of_ne (by decide),
    (dat2 V c).arrAt_in 0 rfl, (dat2 V c).arrAt_in 1 rfl]
  -- an input array is never written: both input windows end at the entry contents of the one buffer
  show iprop(((c : Thread nD τ).loc main_v62 ↦{fullShare.left} V c main_v62) ∗ ((c : Thread nD τ).loc main_v62 ↦{fullShare.right} V c main_v62)
          ∗ ((c : Thread nD τ).loc main_v63 ↦{fullShare} (dat2 V c).arrAt 2 cfg2.N)) ⊢ _
  iintro ⟨Hl, Hr, H63⟩
  isplitl [Hl Hr]
  · iapply (pointsTo_share (PosShare.mem_left_op_right fullShare)).2
    isplitl [Hl]; · iexact Hl
    iexact Hr
  iexact H63

end Cert.Kernel.Hand

end
-- ==== Proof.K.RunBase.lean ====
/-
  The run of the kernel's @main, at any float instance: what the core's unscoped buffers hold between @main's items.
  Three pallas_calls stand among stretches of host operations. Between two items the core holds every unscoped buffer
  at a named valuation (the launch memory, then each host stretch applied, then after a region its result array at
  what the pipeline's write-backs leave), beside its generator register and the fact that it owes no other core
  anything. This module names what each region leaves, the proof data of the three pipelines (each at the contents its
  region is entered from), and that thread state.
-/
import proofs.«181997_j36361193128417_1_alg».proof.Proof.K.Reg0
import proofs.«181997_j36361193128417_1_alg».proof.Proof.K.Reg1
import proofs.«181997_j36361193128417_1_alg».proof.Proof.K.Reg2
import proofs.«181997_j36361193128417_1_alg».proof.Proof.Gen.Kernel.Regions
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The contents region 0 is entered from, read at the TensorCore's references. -/
abbrev Ve0 : (c : Dev nD) → (b : Ref sig .tc) → Buf (Elt F) ((c : Thread nD τ).loc b) := fun c b => V1 m c b

/-- After region 0: the hidden layer's array at what the pipeline's write-backs leave, every other buffer as entered. -/
def X2 (c : Dev nD) : Valuation τ sig (Elt F) := Function.update (V1 m c) main_v1 ((dat0 (Ve0 m) c).arrAt 2 cfg0.N)
/-- The regions' results so far: region 0's. -/
def outs2 : Outs (F := F) := fun _ r c => X2 m c r

/-- The contents region 1 is entered from. -/
abbrev Ve1 : (c : Dev nD) → (b : Ref sig .tc) → Buf (Elt F) ((c : Thread nD τ).loc b) := fun c b => V3 m (outs2 m) c b

/-- After region 1: its result array at what the write-backs leave, every other buffer as entered. -/
def X4 (c : Dev nD) : Valuation τ sig (Elt F) := Function.update (V3 m (outs2 m) c) main_v4 ((dat1 (Ve1 m) c).arrAt 2 cfg1.N)
/-- The regions' results so far: regions 0's and 1's. -/
def outs4 : Outs (F := F) := fun J r c => match J with | 2 => X2 m c r | _ => X4 m c r

/-- The contents region 2 is entered from. -/
abbrev Ve2 : (c : Dev nD) → (b : Ref sig .tc) → Buf (Elt F) ((c : Thread nD τ).loc b) := fun c b => V9 m (outs4 m) c b

/-- After region 2: its result array at what the write-backs leave, every other buffer as entered. -/
def X10 (c : Dev nD) : Valuation τ sig (Elt F) := Function.update (V9 m (outs4 m) c) main_v63 ((dat2 (Ve2 m) c).arrAt 2 cfg2.N)

/-- What the three regions leave in the buffers they may change. -/
def outs : Outs (F := F) := fun J r c => match J with | 2 => X2 m c r | 4 => X4 m c r | _ => X10 m c r

theorem outs_2 (c : Dev nD) : outs m 2 main_v1 c = (dat0 (Ve0 m) c).arrAt 2 cfg0.N := by
  show X2 m c main_v1 = _; unfold X2; exact Function.update_self ..
theorem V3_outs (c : Dev nD) : V3 m (outs m) c = V3 m (outs2 m) c := rfl
theorem outs_4 (c : Dev nD) : outs m 4 main_v4 c = (dat1 (Ve1 m) c).arrAt 2 cfg1.N := by
  show X4 m c main_v4 = _; unfold X4; exact Function.update_self ..
theorem V9_outs (c : Dev nD) : V9 m (outs m) c = V9 m (outs4 m) c := rfl
theorem outs_10 (c : Dev nD) : outs m 10 main_v63 c = (dat2 (Ve2 m) c).arrAt 2 cfg2.N := by
  show X10 m c main_v63 = _; unfold X10; exact Function.update_self ..

/-! ## The proof data family and the thread state -/

/-- The prefetched tables' admissible contents: no pallas_call has a table. -/
abbrev adm' : (p : Fin 3) → (pcfgs (F := F) p).Adm := fun p => (cfgs p).toPCfg_adm

/-- Every pipeline's proof data, each at the contents its region is entered from. -/
def pdats : (p : Fin 3) → (c : Dev nD) → Dat τ (Elt F) Unit ℕ (UR sig nD τ) ℕ (Pipeline.pin (pcfgs (F := F)) adm' p) c
  | ⟨0, _⟩ => fun c => dat0 (Ve0 m) c
  | ⟨1, _⟩ => fun c => dat1 (Ve1 m) c
  | ⟨2, _⟩ => fun c => dat2 (Ve2 m) c

/-- No core owes another anything: no level is assigned. -/
abbrev L0 : GSem nD τ sig → Finset Unit := fun _ => ∅
abbrev lv0 : GSem nD τ sig → Unit → ℕ := fun _ _ => 0

/-- What rides beside the buffers through every item: the core's generator register at some state, and that it owes nothing. -/
abbrev Rst (c : Dev nD) : sProp 𝕄 := iprop((∃ r, prngReg c r) ∗ ∃ W, owes (c : Thread nD τ) (0 : CellTallies nD τ sig Unit) W)
/-- The same between any two items. -/
abbrev Est : Fin 4 → Dev nD → sProp 𝕄 := fun _ c => Rst (F := F) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.RunR0.lean ====
/-
  Region 0 as an item of @main's run: entered from every unscoped buffer at the contents after the first host stretch,
  its windows' arrays are taken out of the unscoped buffers, the pipeline runs the body at every grid point, and the
  arrays are put back with the hidden layer's array at what the write-backs leave. The generator register passes into
  the region invariant and out; the accumulator is taken from the scoped buffers at the first point and forgotten after
  the last.
-/
import proofs.«181997_j36361193128417_1_alg».proof.Proof.K.RunBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 0 -/

/-- After region 0 each of its arrays holds what the pipeline leaves: the two operands as entered, the result at the
    write-backs' fold. -/
theorem hF0 (c : Dev nD) (w : Fin cfg0.W) : (dat0 (Ve0 m) c).arrAt w cfg0.N = V2 m (outs m) c (Pipeline.arrRef spec0 w) := by
  match w with
  | ⟨0, _⟩ => exact ((dat0 (Ve0 m) c).arrAt_in 0 rfl _).trans (V2_of m (outs m) c main_arg1 (by decide)).symm
  | ⟨1, _⟩ => exact ((dat0 (Ve0 m) c).arrAt_in 1 rfl _).trans (V2_of m (outs m) c main_v0 (by decide)).symm
  | ⟨2, _⟩ =>
    show _ = Function.update (V1 m c) main_v1 (outs m 2 main_v1 c) main_v1
    rw [Function.update_self, outs_2]; rfl
/-- Every other buffer is as region 0 found it. -/
theorem hrest0 (c : Dev nD) : ∀ b : Ref sig .tc, b ∉ Finset.univ.image (Pipeline.arrRef spec0) → V2 m (outs m) c b = V1 m c b :=
  fun b hb => V2_of m (outs m) c b fun h => hb (Finset.mem_image.mpr ⟨2, Finset.mem_univ _, (List.mem_singleton.mp h).symm⟩)

set_option backward.isDefEq.respectTransparency.types false in
/-- REGION 0 over the thread state: entered from every unscoped buffer at the contents after the first host stretch, left
    with the hidden layer's array at what the write-backs leave. The generator register passes into the region invariant and
    out; the accumulator is taken from the scoped buffers at the first point and forgotten after the last. -/
def reg0 : Pipeline.RegionSeg (pcfgs (F := F)) adm' (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L0 lv0 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Ve0 m) c)
    unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Ve0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunR1.lean ====
/-
  Region 1 as an item of @main's run: entered from every unscoped buffer at the contents after the second host stretch,
  its windows' arrays are taken out of the unscoped buffers, the pipeline runs the body at every grid point, and the
  arrays are put back with its result array at what the write-backs leave. The generator register passes into
  the region invariant and out; the accumulator is taken from the scoped buffers at the first point and forgotten after
  the last.
-/
import proofs.«181997_j36361193128417_1_alg».proof.Proof.K.RunBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 1 -/

/-- After region 1 each of its arrays holds what the pipeline leaves: the two operands as entered, the result at the
    write-backs' fold. -/
theorem hF1 (c : Dev nD) (w : Fin cfg1.W) : (dat1 (Ve1 m) c).arrAt w cfg1.N = V4 m (outs m) c (Pipeline.arrRef spec1 w) := by
  match w with
  | ⟨0, _⟩ => exact ((dat1 (Ve1 m) c).arrAt_in 0 rfl _).trans (V4_of m (outs m) c main_arg1 (by decide)).symm
  | ⟨1, _⟩ => exact ((dat1 (Ve1 m) c).arrAt_in 1 rfl _).trans (V4_of m (outs m) c main_v3 (by decide)).symm
  | ⟨2, _⟩ =>
    show _ = Function.update (V3 m (outs m) c) main_v4 (outs m 4 main_v4 c) main_v4
    rw [Function.update_self, outs_4]; rfl
/-- Every other buffer is as region 1 found it. -/
theorem hrest1 (c : Dev nD) : ∀ b : Ref sig .tc, b ∉ Finset.univ.image (Pipeline.arrRef spec1) → V4 m (outs m) c b = V3 m (outs m) c b :=
  fun b hb => V4_of m (outs m) c b fun h => hb (Finset.mem_image.mpr ⟨2, Finset.mem_univ _, (List.mem_singleton.mp h).symm⟩)

set_option backward.isDefEq.respectTransparency.types false in
/-- REGION 1 over the thread state: entered from every unscoped buffer at the contents after the second host stretch, left
    with its result array at what the write-backs leave. The generator register passes into the region invariant and
    out; the accumulator is taken from the scoped buffers at the first point and forgotten after the last. -/
def reg1 : Pipeline.RegionSeg (pcfgs (F := F)) adm' (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L0 lv0 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (Ve1 m c) fun _ => rfl
    rw [Pipeline.unscopedBufs_held, show V3 m (outs2 m) c = V3 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (Ve1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunR2.lean ====
/-
  Region 2 as an item of @main's run: entered from every unscoped buffer at the contents after the last host stretch
  and left with the result array at what the write-backs leave. Its two input windows read ONE array, so that
  array's buffer is dealt to them as two half shares at the entry and joined again at the exit.
-/
import proofs.«181997_j36361193128417_1_alg».proof.Proof.K.RunBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 2 -/

/-- The valuation after region 2, read at the TensorCore's references, is the one it was entered from with the result's
    buffer replaced. -/
theorem V10_upd (c : Dev nD) :
    (fun b : Ref sig .tc => V10 m (outs m) c b) = Function.update (Ve2 m c) main_v63 ((dat2 (Ve2 m) c).arrAt 2 cfg2.N) := by
  funext b
  by_cases hb : b = main_v63
  · subst hb
    rw [Function.update_self]
    show Function.update (V9 m (outs m) c) main_v63 (outs m 10 main_v63 c) main_v63 = _
    rw [Function.update_self, outs_10]
  · rw [Function.update_of_ne hb]
    exact V10_of m (outs m) c b fun h => hb (List.mem_singleton.mp h)

/-- The unscoped buffers that are none of region 2's arrays are as it found them. -/
theorem rest2_eq (c : Dev nD) :
    (Pipeline.unscopedRest (Ix := Unit) (Name := ℕ) (U := UR sig nD τ) (Lvl := ℕ) spec2 c (fun b => V10 m (outs m) c b) : sProp 𝕄)
      = Pipeline.unscopedRest spec2 c (Ve2 m c) := by
  unfold Pipeline.unscopedRest
  refine bigSep_congr fun b hb => ?_
  exact congrArg (fun v => (((c : Thread nD τ).loc b) ↦{fullShare} v : sProp 𝕄))
    (V10_of m (outs m) c b fun h => (Finset.mem_sdiff.mp hb).2 (Finset.mem_image.mpr ⟨2, Finset.mem_univ _, (List.mem_singleton.mp h).symm⟩))

/-- ENTRY: every unscoped buffer at the contents region 2 is entered from is its windows' arrays at the proof data's entry
    contents and shares, beside the buffers that are none of them. -/
theorem entry2 (c : Dev nD) :
    (StableHlo.held (c : Thread nD τ) (Pipeline.ucRefs τ sig) (V9 m (outs m) c) : sProp 𝕄)
      ⊢ iprop((pdats m 2 c).arrays ((pdats m 2 c).arrAt · 0) ∗ Pipeline.unscopedRest spec2 c (Ve2 m c)) := by
  show _ ⊢ iprop((dat2 (Ve2 m) c).arrays ((dat2 (Ve2 m) c).arrAt · 0) ∗ Pipeline.unscopedRest spec2 c (Ve2 m c))
  rw [← Pipeline.unscopedBufs_held c (V9 m (outs m) c),
    Pipeline.unscopedBufs_split₀ (Pipeline.pin (pcfgs (F := F)) adm') (2 : Fin 3) winFacts₀2.arr_unscoped c (fun b => V9 m (outs m) c b)]
  exact sep_mono (hsplit2 (Ve2 m) c) .rfl

/-- EXIT: the arrays at the pipeline's final contents and those other buffers are every unscoped buffer at the contents
    after region 2. -/
theorem exit2 (c : Dev nD) :
    iprop((pdats m 2 c).arrays ((pdats m 2 c).arrAt · cfg2.N) ∗ Pipeline.unscopedRest spec2 c (Ve2 m c))
      ⊢ (StableHlo.held (c : Thread nD τ) (Pipeline.ucRefs τ sig) (V10 m (outs m) c) : sProp 𝕄) := by
  show iprop((dat2 (Ve2 m) c).arrays ((dat2 (Ve2 m) c).arrAt · cfg2.N) ∗ Pipeline.unscopedRest spec2 c (Ve2 m c)) ⊢ _
  rw [← Pipeline.unscopedBufs_held c (V10 m (outs m) c),
    Pipeline.unscopedBufs_split₀ (Pipeline.pin (pcfgs (F := F)) adm') (2 : Fin 3) winFacts₀2.arr_unscoped c (fun b => V10 m (outs m) c b)]
  refine sep_mono ((hjoin2 (Ve2 m) c).trans (.of_eq ?_)) (.of_eq (rest2_eq m c).symm)
  exact congrArg (Pipeline.arrBufs spec2 c) (V10_upd m c).symm

set_option backward.isDefEq.respectTransparency.types false in
/-- REGION 2 over the thread state: entered from every unscoped buffer at the contents after the last host stretch, left with
    the result array at what the write-backs leave. The latent matrix's buffer is dealt to the two input windows as two half
    shares at the entry and joined again at the exit. -/
def reg2 : Pipeline.RegionSeg (pcfgs (F := F)) adm' (pdats m) () defs₀ Variants.none L0 lv0 2 where
  win := winFacts₀2
  block_pos := block_pos2
  stage_whole := stage_whole2
  K := PEmpty
  osem k := k.elim
  ho := Pipeline.OwnSemFacts.none _
  hbody c := (body_obligation2 (Ve2 m) c).loose
  hwaits := Pipeline.hwaits_of_owed_zero _ _ _ _ L0 lv0 2 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 m c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The launch of the kernel's @main, at any float instance: the ten items (host stretches and the three regions) run
  one after the other, each entered from what the one before left. The conclusion reads every unscoped buffer of the
  final memory off the last valuation; the frame claim (every argument array ends as launched) is read from it, since
  no host stretch writes an argument and no region may change one.
-/
import proofs.«181997_j36361193128417_1_alg».proof.Proof.K.RunR0
import proofs.«181997_j36361193128417_1_alg».proof.Proof.K.RunR1
import proofs.«181997_j36361193128417_1_alg».proof.Proof.K.RunR2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

set_option backward.isDefEq.respectTransparency.types false in
/-- THE RUN. At the compiled mesh, at any float instance, from any memory with zero counters: every weakly fair execution of
    @main on the TensorCores terminates, nothing faulting, and every unscoped buffer of the final memory holds what the last
    valuation says: the launch memory, each host stretch applied in turn, each region's result array at what its pipeline's
    write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm' (pdats m) () cellOf_inj emb₁ defs₀ Variants.none L0 lv0 m ρ main
    (segs m (outs m) Variants.none L0 lv0 (Est (F := F)) () (pdats m) (reg0 m) (reg1 m) (reg2 m))
    (fun c Q => by
      rewrite [main_chain c, Pipeline.Seg.run_eq_chain,
        show (segs m (outs m) Variants.none L0 lv0 (Est (F := F)) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      (show iprop(StableHlo.held (c : Thread nD τ) (Pipeline.ucRefs τ sig) (V10 m (outs m) c) ∗ Rst c)
          ⊢ (iprop(StableHlo.held (c : Thread nD τ) (Pipeline.ucRefs τ sig) (V10 m (outs m) c)
              ∗ ∃ W, owes (c : Thread nD τ) (0 : CellTallies nD τ sig Unit) W) : sProp 𝕄)
        from sep_mono .rfl (by iintro ⟨-, HO⟩; iexact HO))⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun _ h => h)

/-- THE FRAME: every weakly fair execution of @main terminates, nothing faulting, and every argument array ends holding its
    launch contents: no host stretch writes an argument and no region may change one, so the last valuation at an argument's
    buffer walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c),
      (h c _ (mem_uc main_arg11 (by decide))).trans (V10_main_arg11 m (outs m) c)⟩)
    (run_all m ρ)

end Cert.Kernel.Hand

end
-- ==== Proof.KI.Reg0.lean ====
/-
  Region 0 of the idealized kernel's @main (the first adjacency product), at any float instance and at the
  contents `V` the region is entered from.

  The pallas_call runs on a 4 x 8 grid: point `t = 8 i + k` multiplies block `(i, k)` of the adjacency matrix
  (2048 x 1024) with block `k` of the right operand (1024 x 256) and adds the product to a 2048 x 256
  accumulator kept in scratch memory; at `k = 0` the accumulator is first cleared, and at `k = 7` the
  output block `i` is stored as the accumulator clamped below at zero. The output window is therefore idle
  (stored nowhere, written back nowhere) except at the points `t % 8 = 7`.

  This module fixes the proof data: what the accumulator holds after each point (`acc0`), what the output's
  staging buffer holds after a point that stores it, the invariant that carries the accumulator from point to
  point, and the body obligation.
-/
import proofs.«181997_j36361193128417_1_alg».proof.Proof.Gen.KernelIdeal.Launch
import proofs.«181997_j36361193128417_1_alg».proof.Proof.Gen.KernelIdeal.Skeleton
import proofs.«181997_j36361193128417_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator's memref: the kernel's one scratch operand, whole. -/
abbrev scM0 : Memref sig .tc .vmem S2048x256 .f32 := Memref.whole cc0_scratch0

/-- One point's update of the accumulator `s`: the product of the point's two blocks added to it (past the grid, nothing). -/
def step0 (c : Dev nD) (n : ℕ) (s : Vec F S2048x256 .f32) : Vec F S2048x256 .f32 :=
  if h : n < cfg0.N then k0_pay2 (iblk0 V c 0 ⟨n, h⟩) (iblk0 V c 1 ⟨n, h⟩) s else s

/-- THE ACCUMULATION. What the scratch accumulator holds after the body at position `n`: the point's update of
    zero where the run along `k` begins (`n % 8 = 0`), of what the point before left elsewhere. -/
def acc0 (c : Dev nD) : ℕ → Vec F S2048x256 .f32
  | 0 => step0 V c 0 (k0_pay1 (F := F))
  | n + 1 => step0 V c (n + 1) (if (n + 1) % 8 = 0 then k0_pay1 (F := F) else acc0 c n)

/-- What the output's staging buffer holds after a point that stores it: the accumulator clamped below at zero. -/
def out0_2 (c : Dev nD) (t : Fin cfg0.N) : Vec F S2048x256 .f32 := k0_pay3 (acc0 V c t.val)

/-- The core's scoped buffers other than region 0's staging buffers and the accumulator, each whole at some contents. -/
def restNS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The region invariant before position `n`: before the first point the class's (every scratch at anything); afterwards
    the accumulator at what the point before left, the other scoped buffers at anything, the generator register at some state. -/
def Phi0 (c : Dev nD) : ℕ → sProp 𝕄
  | 0 => Pipeline.ΦA spec0 c
  | n + 1 => iprop(owns (c : Thread nD τ) scM0 fullShare (acc0 V c n) ∗ restNS0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 V c t
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 V c t := by dsimp only [dat0]

/-- The offsets of a whole-buffer access are all zero. -/
theorem offs_zero0 : (![0, 0] : Fin 2 → Nat) = fun _ => 0 := by
  funext a; fin_cases a <;> rfl

/-- A store through the whole buffer, made last, is what the buffer then reads as, whatever was stored before
    and whatever the buffer held. -/
theorem read_store_whole0 {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb]

/-- A load through the whole buffer reads the buffer's contents. -/
theorem load_whole0 {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f := by
  rw [View.readAt_eq_ld, View.ld_unit_zero hz inb]

/-- The body's first conditional (the accumulator is cleared), as the kernel computes it from the grid point. -/
abbrev k0_first (i : grid0.Coords) : Prop :=
  (Scalar.cmpi .ne (Scalar.extui (Scalar.cmpi .eq (BitVec.ofNat 32 (i 1).val) 0#32)) 0#32) = 1#1
/-- The body's second conditional (the output block is stored). -/
abbrev k0_last (i : grid0.Coords) : Prop := k0_cond2 i = 1#1

/-- The accumulator is cleared exactly where the run along the contracted axis begins. -/
theorem k0_first_iff : ∀ t : Fin cfg0.N, k0_first (grid0.coords t) ↔ t.val % 8 = 0 :=
  (by decide +kernel : ∀ t : Fin grid0.N, k0_first (grid0.coords t) ↔ t.val % 8 = 0)
/-- The output block is stored exactly where that run ends. -/
theorem k0_last_iff : ∀ t : Fin cfg0.N, k0_last (grid0.coords t) ↔ t.val % 8 = 7 :=
  (by decide +kernel : ∀ t : Fin grid0.N, k0_last (grid0.coords t) ↔ t.val % 8 = 7)

set_option maxHeartbeats 1000000 in
/-- The body where a run begins: the accumulator, found at anything, is cleared and then takes the point's product. -/
theorem sound_kernel0_first (c : Dev nD) (E : Set ℕ) (i : grid0.Coords)
    (arg2 : Memref sig .tc .vmem S2048x1024 .f32) (harg2 : arg2.IsWhole)
    (arg3 : Memref sig .tc .vmem S1024x256 .f32) (harg3 : arg3.IsWhole)
    (arg4 : Memref sig .tc .vmem S2048x256 .f32) (harg4 : arg4.IsWhole)
    (arg5 : Memref sig .tc .vmem S2048x256 .f32) (harg5 : arg5.IsWhole)
    (hc1 : k0_first i) (hc2 : ¬ k0_last i)
    (x0 : Vec F S2048x1024 .f32) (x1 : Vec F S1024x256 .f32) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 x0 x1 (k0_pay1 (F := F)))) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_store_whole0 _ _ offs_zero0]
  simp only [load_whole0 (S := S2048x1024) _ _ offs_zero0, load_whole0 (S := S1024x256) _ _ offs_zero0,
    load_whole0 (S := S2048x256) _ _ offs_zero0, View.readCov_unit_zero (S := S2048x256) _ offs_zero0]

set_option maxHeartbeats 1000000 in
/-- The body inside a run: the accumulator takes the point's product on top of what it held. -/
theorem sound_kernel0_mid (c : Dev nD) (E : Set ℕ) (i : grid0.Coords)
    (arg2 : Memref sig .tc .vmem S2048x1024 .f32) (harg2 : arg2.IsWhole)
    (arg3 : Memref sig .tc .vmem S1024x256 .f32) (harg3 : arg3.IsWhole)
    (arg4 : Memref sig .tc .vmem S2048x256 .f32) (harg4 : arg4.IsWhole)
    (arg5 : Memref sig .tc .vmem S2048x256 .f32) (harg5 : arg5.IsWhole)
    (hc1 : ¬ k0_first i) (hc2 : ¬ k0_last i)
    (x0 : Vec F S2048x1024 .f32) (x1 : Vec F S1024x256 .f32) (s : Vec F S2048x256 .f32) (K : PUnit → sProp 𝕄) :
    iprop(owns (c : Thread nD τ) arg2 fullShare x0 ∗ owns (c : Thread nD τ) arg3 fullShare x1
        ∗ owns (c : Thread nD τ) arg5 fullShare s
        ∗ (iprop(owns (c : Thread nD τ) arg2 fullShare x0 ∗ owns (c : Thread nD τ) arg3 fullShare x1
            ∗ owns (c : Thread nD τ) arg5 fullShare (k0_pay2 x0 x1 s)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_store_whole0 _ _ offs_zero0]
  simp only [load_whole0 (S := S2048x1024) _ _ offs_zero0, load_whole0 (S := S1024x256) _ _ offs_zero0,
    load_whole0 (S := S2048x256) _ _ offs_zero0, View.readCov_unit_zero (S := S2048x256) _ offs_zero0]

set_option maxHeartbeats 1000000 in
/-- The body where a run ends: the accumulator takes the point's product, and the output's buffer, found at
    anything, is stored from what the accumulator then holds. -/
theorem sound_kernel0_last (c : Dev nD) (E : Set ℕ) (i : grid0.Coords)
    (arg2 : Memref sig .tc .vmem S2048x1024 .f32) (harg2 : arg2.IsWhole)
    (arg3 : Memref sig .tc .vmem S1024x256 .f32) (harg3 : arg3.IsWhole)
    (arg4 : Memref sig .tc .vmem S2048x256 .f32) (harg4 : arg4.IsWhole)
    (arg5 : Memref sig .tc .vmem S2048x256 .f32) (harg5 : arg5.IsWhole)
    (hc1 : ¬ k0_first i) (hc2 : k0_last i)
    (x0 : Vec F S2048x1024 .f32) (x1 : Vec F S1024x256 .f32) (s : Vec F S2048x256 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s))
            ∗ owns (c : Thread nD τ) arg5 fullShare (k0_pay2 x0 x1 s)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole0 _ _ offs_zero0]
    simp only [load_whole0 (S := S2048x1024) _ _ offs_zero0, load_whole0 (S := S1024x256) _ _ offs_zero0,
      load_whole0 (S := S2048x256) _ _ offs_zero0, View.readCov_unit_zero (S := S2048x256) _ offs_zero0]
  iexists _; isplitr
  swap; · iexact HS
  ipureintro
  sl_unfold_run_names
  rw [read_store_whole0 _ _ offs_zero0]
  simp only [load_whole0 (S := S2048x1024) _ _ offs_zero0, load_whole0 (S := S1024x256) _ _ offs_zero0,
    load_whole0 (S := S2048x256) _ _ offs_zero0, View.readCov_unit_zero (S := S2048x256) _ offs_zero0]

/-! ## The accumulator, point by point -/

/-- One point's update at a point of the grid: the product of the point's two blocks added to `s`. -/
theorem step0_at (c : Dev nD) (t : Fin cfg0.N) (s : Vec F S2048x256 .f32) :
    step0 V c t.val s = k0_pay2 (iblk0 V c 0 t) (iblk0 V c 1 t) s := by
  unfold step0; rw [dif_pos t.isLt]

/-- Where a run along the contracted axis begins the accumulator holds the point's product alone. -/
theorem acc0_reset (c : Dev nD) (t : Fin cfg0.N) (h : t.val % 8 = 0) :
    acc0 V c t.val = k0_pay2 (iblk0 V c 0 t) (iblk0 V c 1 t) (k0_pay1 (F := F)) := by
  rw [← step0_at]
  obtain ⟨n, hn⟩ := t
  cases n with
  | zero => rfl
  | succ n =>
    dsimp only at h
    show step0 V c (n + 1) (if (n + 1) % 8 = 0 then _ else _) = _
    rw [if_pos h]

/-- Elsewhere it holds the point's product on top of what the point before left. -/
theorem acc0_carry (c : Dev nD) (t : Fin cfg0.N) (h : t.val % 8 ≠ 0) :
    acc0 V c t.val = k0_pay2 (iblk0 V c 0 t) (iblk0 V c 1 t) (acc0 V c (t.val - 1)) := by
  rw [← step0_at]
  obtain ⟨n, hn⟩ := t
  cases n with
  | zero => exact absurd (Nat.zero_mod 8) h
  | succ n =>
    dsimp only at h
    show step0 V c (n + 1) (if (n + 1) % 8 = 0 then _ else _) = _
    rw [if_neg h]; rfl

/-! ## The invariant, position by position -/

/-- After point `n` the accumulator is held at what that point left. -/
theorem Phi0_succ (c : Dev nD) (n : ℕ) :
    Phi0 V c (n + 1) = iprop(owns (c : Thread nD τ) scM0 fullShare (acc0 V c n) ∗ restNS0 (F := F) c ∗ (∃ r, prngReg c r)) := rfl

/-- Before any point but the first the accumulator is held at what the point before left. -/
theorem Phi0_pos (c : Dev nD) (n : ℕ) (hn : n ≠ 0) :
    Phi0 V c n = iprop(owns (c : Thread nD τ) scM0 fullShare (acc0 V c (n - 1)) ∗ restNS0 (F := F) c ∗ (∃ r, prngReg c r)) := by
  cases n with
  | zero => exact absurd rfl hn
  | succ n => rfl

/-- The class's invariant is the accumulator at some contents, the other scoped buffers, and the generator register:
    the accumulator is one of the scoped buffers that is no staging buffer of this region. -/
theorem PhiA0_acc_rest (c : Dev nD) :
    (Pipeline.ΦA spec0 c : sProp 𝕄)
      = iprop((∃ d, owns (c : Thread nD τ) scM0 fullShare d) ∗ restNS0 (F := F) c ∗ (∃ r, prngReg c r)) := by
  unfold Pipeline.ΦA Pipeline.scopedRest restNS0
  rw [bigSep_erase (i := cc0_scratch0) (by decide)]
  simp only [scM0, owns_whole]
  exact BI.equiv_iff.mp ⟨Idealize.SL.BI.sep_assoc, Idealize.SL.BI.sep_assoc'⟩

/-- At every position the invariant yields the accumulator at some contents. -/
theorem Phi0_any (c : Dev nD) (n : ℕ) :
    Phi0 V c n ⊢ iprop((∃ d, owns (c : Thread nD τ) scM0 fullShare d) ∗ restNS0 (F := F) c ∗ (∃ r, prngReg c r)) := by
  cases n with
  | zero =>
    rw [show Phi0 V c 0 = Pipeline.ΦA spec0 c from rfl, PhiA0_acc_rest]
  | succ n =>
    rw [Phi0_succ]
    iintro ⟨HS, HR, Hg⟩
    isplitl [HS]; · iexists _; iexact HS
    isplitl [HR]; · iexact HR
    iexact Hg

/-! ## What the body finds in the input windows' buffers, and where the output window is idle -/

/-- The left operand's buffer holds its block at every point: the body leaves it in place, and a point that does not
    fetch has not moved the block index. -/
theorem before0_0 (c : Dev nD) (t : Fin cfg0.N) (d) : (dat0 V c).before 0 t d = iblk0 V c 0 t := by
  rw [(dat0 V c).before_in_eq_fetched 0 rfl (fun _ => rfl) (fun _ _ _ => rfl)
    (fun u => by rw [after0_0]; unfold Dat.blockOf iblk0; rw [A_eq0]) t d]
  unfold Dat.fetched Dat.blockOf iblk0; rw [A_eq0]; rfl

/-- The right operand's buffer likewise. -/
theorem before0_1 (c : Dev nD) (t : Fin cfg0.N) (d) : (dat0 V c).before 1 t d = iblk0 V c 1 t := by
  rw [(dat0 V c).before_in_eq_fetched 1 rfl (fun _ => rfl) (fun _ _ _ => rfl)
    (fun u => by rw [after0_1]; unfold Dat.blockOf iblk0; rw [A_eq0]) t d]
  unfold Dat.fetched Dat.blockOf iblk0; rw [A_eq0]; rfl

/-- Inside a run the output window is idle, -/
theorem idle0_2_inside : ∀ t : Fin cfg0.N, t.val % 8 ≠ 7 → cfg0.idle 2 (grid0.coords t) = true := by decide +kernel
/-- and live where it ends. -/
theorem idle0_2_end : ∀ t : Fin cfg0.N, t.val % 8 = 7 → cfg0.idle 2 (grid0.coords t) = false := by decide +kernel
/-- Inside a run the output block is not written back. -/
theorem flush0_2_inside (t : Fin cfg0.N) (h : t.val % 8 ≠ 7) : (cfg0.win 2).flush t = false :=
  Bool.eq_false_iff.mpr fun hf => h ((flush0_2 t).mp hf)

/-- What the body is to leave in each window's buffer: the operands' blocks in place, -/
theorem leaves0_0 (c : Dev nD) (t : Fin cfg0.N) :
    (dat0 V c).leavesExact 0 t = owns (c : Thread nD τ) (st0_0 t) fullShare (iblk0 V c 0 t) := by
  unfold Dat.leavesExact; rw [after0_0]
theorem leaves0_1 (c : Dev nD) (t : Fin cfg0.N) :
    (dat0 V c).leavesExact 1 t = owns (c : Thread nD τ) (st0_1 t) fullShare (iblk0 V c 1 t) := by
  unfold Dat.leavesExact; rw [after0_1]
/-- the output's buffer as found inside a run, -/
theorem leaves0_2_inside (c : Dev nD) (t : Fin cfg0.N) (h : t.val % 8 ≠ 7) :
    (dat0 V c).leavesExact 2 t = iprop(∃ d, owns (c : Thread nD τ) (st0_2 t) fullShare ((dat0 V c).before 2 t d)) :=
  (dat0 V c).leavesExact_idle 2 t (idle0_2_inside t h) (flush0_2_inside t h)
/-- and at the stored block where the run ends. -/
theorem leaves0_2_end (c : Dev nD) (t : Fin cfg0.N) (h : t.val % 8 = 7) :
    (dat0 V c).leavesExact 2 t = owns (c : Thread nD τ) (st0_2 t) fullShare (out0_2 V c t) := by
  unfold Dat.leavesExact; rw [idle0_2_end t h, after0_2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4000000 in
/-- The body at any point, by the point's place in its run along the contracted axis: the invariant hands the body the
    accumulator (at anything where a run begins, else at what the point before left) and takes it back at this point's
    contents; the operands' buffers hold their blocks and keep them; the output's buffer is handed back as found inside a
    run and at the stored block where the run ends; the other scoped buffers, the generator register and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) from rfl, Phi0_succ,
    show (dat0 V c).Φ t.castSucc = Phi0 V c t.val from rfl, leaves0_0, leaves0_1]
  by_cases h0 : t.val % 8 = 0
  · have h7 : t.val % 8 ≠ 7 := by omega
    rw [leaves0_2_inside V c t h7, acc0_reset V c t h0]
    iintro ⟨HΦ, Ho, ⟨%d0, H0⟩, ⟨%d1, H1⟩, H2⟩
    icases (Phi0_any V c t.val) $$ HΦ with ⟨HS, HR, Hg⟩
    iapply (sound_kernel0_first c Set.univ (grid0.coords t) _ _ _ _ _ _ _ _ ((k0_first_iff t).mpr h0)
      (fun h => h7 ((k0_last_iff t).mp h)) (iblk0 V c 0 t) (iblk0 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hpos : t.val ≠ 0 := fun h => h0 (by rw [h])
    by_cases h7 : t.val % 8 = 7
    · rw [leaves0_2_end V c t h7]; unfold out0_2
      rw [Phi0_pos V c t.val hpos, acc0_carry V c t h0]
      iintro ⟨⟨HS, HR, Hg⟩, Ho, ⟨%d0, H0⟩, ⟨%d1, H1⟩, ⟨%d2, H2⟩⟩
      iapply (sound_kernel0_last c Set.univ (grid0.coords t) _ _ _ _ _ _ _ _ (fun h => h0 ((k0_first_iff t).mp h))
        ((k0_last_iff t).mpr h7) (iblk0 V c 0 t) (iblk0 V c 1 t) (acc0 V c (t.val - 1)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [leaves0_2_inside V c t h7, Phi0_pos V c t.val hpos, acc0_carry V c t h0]
      iintro ⟨⟨HS, HR, Hg⟩, Ho, ⟨%d0, H0⟩, ⟨%d1, H1⟩, H2⟩
      iapply (sound_kernel0_mid c Set.univ (grid0.coords t) _ _ _ _ _ _ _ _ (fun h => h0 ((k0_first_iff t).mp h))
        (fun h => h7 ((k0_last_iff t).mp h)) (iblk0 V c 0 t) (iblk0 V c 1 t) (acc0 V c (t.val - 1)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The class's invariant with the accumulator split off the scoped rest. -/
theorem PhiA0_split (c : Dev nD) :
    (Pipeline.ΦA spec0 c : sProp 𝕄)
      = iprop((∃ d, owns (c : Thread nD τ) scM0 fullShare d) ∗ restNS0 (F := F) c ∗ (∃ r, prngReg c r)) :=
  PhiA0_acc_rest c

/-- What the launch hands the region is the invariant before the first point. -/
theorem hin0 (c : Dev nD) : Pipeline.ΦA spec0 c ⊢ (dat0 V c).Φ 0 :=
  Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl, PhiA0_acc_rest]
  exact Phi0_any V c _

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the idealized kernel's @main (the second adjacency product, over the four weight blocks side by side), at any float instance and at the
  contents `V` the region is entered from.

  The pallas_call runs on a 4 x 8 grid: point `t = 8 i + k` multiplies block `(i, k)` of the adjacency matrix
  (2048 x 1024) with block `k` of the right operand (1024 x 512) and adds the product to a 2048 x 512
  accumulator kept in scratch memory; at `k = 0` the accumulator is first cleared, and at `k = 7` the
  output block `i` is stored as the accumulator itself. The output window is therefore idle
  (stored nowhere, written back nowhere) except at the points `t % 8 = 7`.

  This module fixes the proof data: what the accumulator holds after each point (`acc1`), what the output's
  staging buffer holds after a point that stores it, the invariant that carries the accumulator from point to
  point, and the body obligation.
-/
import proofs.«181997_j36361193128417_1_alg».proof.Proof.Gen.KernelIdeal.Launch
import proofs.«181997_j36361193128417_1_alg».proof.Proof.Gen.KernelIdeal.Skeleton
import proofs.«181997_j36361193128417_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator's memref: the kernel's one scratch operand, whole. -/
abbrev scM1 : Memref sig .tc .vmem S2048x512 .f32 := Memref.whole cc1_scratch0

/-- One point's update of the accumulator `s`: the product of the point's two blocks added to it (past the grid, nothing). -/
def step1 (c : Dev nD) (n : ℕ) (s : Vec F S2048x512 .f32) : Vec F S2048x512 .f32 :=
  if h : n < cfg1.N then k1_pay2 (iblk1 V c 0 ⟨n, h⟩) (iblk1 V c 1 ⟨n, h⟩) s else s

/-- THE ACCUMULATION. What the scratch accumulator holds after the body at position `n`: the point's update of
    zero where the run along `k` begins (`n % 8 = 0`), of what the point before left elsewhere. -/
def acc1 (c : Dev nD) : ℕ → Vec F S2048x512 .f32
  | 0 => step1 V c 0 (k1_pay1 (F := F))
  | n + 1 => step1 V c (n + 1) (if (n + 1) % 8 = 0 then k1_pay1 (F := F) else acc1 c n)

/-- What the output's staging buffer holds after a point that stores it: the accumulator. -/
def out1_2 (c : Dev nD) (t : Fin cfg1.N) : Vec F S2048x512 .f32 := acc1 V c t.val

/-- The core's scoped buffers other than region 1's staging buffers and the accumulator, each whole at some contents. -/
def restNS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The region invariant before position `n`: before the first point the class's (every scratch at anything); afterwards
    the accumulator at what the point before left, the other scoped buffers at anything, the generator register at some state. -/
def Phi1 (c : Dev nD) : ℕ → sProp 𝕄
  | 0 => Pipeline.ΦA spec1 c
  | n + 1 => iprop(owns (c : Thread nD τ) scM1 fullShare (acc1 V c n) ∗ restNS1 (F := F) c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

/-- The offsets of a whole-buffer access are all zero. -/
theorem offs_zero1 : (![0, 0] : Fin 2 → Nat) = fun _ => 0 := by
  funext a; fin_cases a <;> rfl

/-- A store through the whole buffer, made last, is what the buffer then reads as, whatever was stored before
    and whatever the buffer held. -/
theorem read_store_whole1 {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb]

/-- A load through the whole buffer reads the buffer's contents. -/
theorem load_whole1 {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f := by
  rw [View.readAt_eq_ld, View.ld_unit_zero hz inb]

/-- The body's first conditional (the accumulator is cleared), as the kernel computes it from the grid point. -/
abbrev k1_first (i : grid1.Coords) : Prop :=
  (Scalar.cmpi .ne (Scalar.extui (Scalar.cmpi .eq (BitVec.ofNat 32 (i 1).val) 0#32)) 0#32) = 1#1
/-- The body's second conditional (the output block is stored). -/
abbrev k1_last (i : grid1.Coords) : Prop := k1_cond2 i = 1#1

/-- The accumulator is cleared exactly where the run along the contracted axis begins. -/
theorem k1_first_iff : ∀ t : Fin cfg1.N, k1_first (grid1.coords t) ↔ t.val % 8 = 0 :=
  (by decide +kernel : ∀ t : Fin grid1.N, k1_first (grid1.coords t) ↔ t.val % 8 = 0)
/-- The output block is stored exactly where that run ends. -/
theorem k1_last_iff : ∀ t : Fin cfg1.N, k1_last (grid1.coords t) ↔ t.val % 8 = 7 :=
  (by decide +kernel : ∀ t : Fin grid1.N, k1_last (grid1.coords t) ↔ t.val % 8 = 7)

set_option maxHeartbeats 1000000 in
/-- The body where a run begins: the accumulator, found at anything, is cleared and then takes the point's product. -/
theorem sound_kernel1_first (c : Dev nD) (E : Set ℕ) (i : grid1.Coords)
    (arg2 : Memref sig .tc .vmem S2048x1024 .f32) (harg2 : arg2.IsWhole)
    (arg3 : Memref sig .tc .vmem S1024x512 .f32) (harg3 : arg3.IsWhole)
    (arg4 : Memref sig .tc .vmem S2048x512 .f32) (harg4 : arg4.IsWhole)
    (arg5 : Memref sig .tc .vmem S2048x512 .f32) (harg5 : arg5.IsWhole)
    (hc1 : k1_first i) (hc2 : ¬ k1_last i)
    (x0 : Vec F S2048x1024 .f32) (x1 : Vec F S1024x512 .f32) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 x0 x1 (k1_pay1 (F := F)))) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_store_whole1 _ _ offs_zero1]
  simp only [load_whole1 (S := S2048x1024) _ _ offs_zero1, load_whole1 (S := S1024x512) _ _ offs_zero1,
    load_whole1 (S := S2048x512) _ _ offs_zero1, View.readCov_unit_zero (S := S2048x512) _ offs_zero1]

set_option maxHeartbeats 1000000 in
/-- The body inside a run: the accumulator takes the point's product on top of what it held. -/
theorem sound_kernel1_mid (c : Dev nD) (E : Set ℕ) (i : grid1.Coords)
    (arg2 : Memref sig .tc .vmem S2048x1024 .f32) (harg2 : arg2.IsWhole)
    (arg3 : Memref sig .tc .vmem S1024x512 .f32) (harg3 : arg3.IsWhole)
    (arg4 : Memref sig .tc .vmem S2048x512 .f32) (harg4 : arg4.IsWhole)
    (arg5 : Memref sig .tc .vmem S2048x512 .f32) (harg5 : arg5.IsWhole)
    (hc1 : ¬ k1_first i) (hc2 : ¬ k1_last i)
    (x0 : Vec F S2048x1024 .f32) (x1 : Vec F S1024x512 .f32) (s : Vec F S2048x512 .f32) (K : PUnit → sProp 𝕄) :
    iprop(owns (c : Thread nD τ) arg2 fullShare x0 ∗ owns (c : Thread nD τ) arg3 fullShare x1
        ∗ owns (c : Thread nD τ) arg5 fullShare s
        ∗ (iprop(owns (c : Thread nD τ) arg2 fullShare x0 ∗ owns (c : Thread nD τ) arg3 fullShare x1
            ∗ owns (c : Thread nD τ) arg5 fullShare (k1_pay2 x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_store_whole1 _ _ offs_zero1]
  simp only [load_whole1 (S := S2048x1024) _ _ offs_zero1, load_whole1 (S := S1024x512) _ _ offs_zero1,
    load_whole1 (S := S2048x512) _ _ offs_zero1, View.readCov_unit_zero (S := S2048x512) _ offs_zero1]

set_option maxHeartbeats 1000000 in
/-- The body where a run ends: the accumulator takes the point's product, and the output's buffer, found at
    anything, is stored from what the accumulator then holds. -/
theorem sound_kernel1_last (c : Dev nD) (E : Set ℕ) (i : grid1.Coords)
    (arg2 : Memref sig .tc .vmem S2048x1024 .f32) (harg2 : arg2.IsWhole)
    (arg3 : Memref sig .tc .vmem S1024x512 .f32) (harg3 : arg3.IsWhole)
    (arg4 : Memref sig .tc .vmem S2048x512 .f32) (harg4 : arg4.IsWhole)
    (arg5 : Memref sig .tc .vmem S2048x512 .f32) (harg5 : arg5.IsWhole)
    (hc1 : ¬ k1_first i) (hc2 : k1_last i)
    (x0 : Vec F S2048x1024 .f32) (x1 : Vec F S1024x512 .f32) (s : Vec F S2048x512 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare ((k1_pay2 x0 x1 s))
            ∗ owns (c : Thread nD τ) arg5 fullShare (k1_pay2 x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [read_store_whole1 _ _ offs_zero1]
    simp only [load_whole1 (S := S2048x1024) _ _ offs_zero1, load_whole1 (S := S1024x512) _ _ offs_zero1,
      load_whole1 (S := S2048x512) _ _ offs_zero1, View.readCov_unit_zero (S := S2048x512) _ offs_zero1]
  iexists _; isplitr
  swap; · iexact HS
  ipureintro
  sl_unfold_run_names
  rw [read_store_whole1 _ _ offs_zero1]
  simp only [load_whole1 (S := S2048x1024) _ _ offs_zero1, load_whole1 (S := S1024x512) _ _ offs_zero1,
    load_whole1 (S := S2048x512) _ _ offs_zero1, View.readCov_unit_zero (S := S2048x512) _ offs_zero1]

/-! ## The accumulator, point by point -/

/-- One point's update at a point of the grid: the product of the point's two blocks added to `s`. -/
theorem step1_at (c : Dev nD) (t : Fin cfg1.N) (s : Vec F S2048x512 .f32) :
    step1 V c t.val s = k1_pay2 (iblk1 V c 0 t) (iblk1 V c 1 t) s := by
  unfold step1; rw [dif_pos t.isLt]

/-- Where a run along the contracted axis begins the accumulator holds the point's product alone. -/
theorem acc1_reset (c : Dev nD) (t : Fin cfg1.N) (h : t.val % 8 = 0) :
    acc1 V c t.val = k1_pay2 (iblk1 V c 0 t) (iblk1 V c 1 t) (k1_pay1 (F := F)) := by
  rw [← step1_at]
  obtain ⟨n, hn⟩ := t
  cases n with
  | zero => rfl
  | succ n =>
    dsimp only at h
    show step1 V c (n + 1) (if (n + 1) % 8 = 0 then _ else _) = _
    rw [if_pos h]

/-- Elsewhere it holds the point's product on top of what the point before left. -/
theorem acc1_carry (c : Dev nD) (t : Fin cfg1.N) (h : t.val % 8 ≠ 0) :
    acc1 V c t.val = k1_pay2 (iblk1 V c 0 t) (iblk1 V c 1 t) (acc1 V c (t.val - 1)) := by
  rw [← step1_at]
  obtain ⟨n, hn⟩ := t
  cases n with
  | zero => exact absurd (Nat.zero_mod 8) h
  | succ n =>
    dsimp only at h
    show step1 V c (n + 1) (if (n + 1) % 8 = 0 then _ else _) = _
    rw [if_neg h]; rfl

/-! ## The invariant, position by position -/

/-- After point `n` the accumulator is held at what that point left. -/
theorem Phi1_succ (c : Dev nD) (n : ℕ) :
    Phi1 V c (n + 1) = iprop(owns (c : Thread nD τ) scM1 fullShare (acc1 V c n) ∗ restNS1 (F := F) c ∗ (∃ r, prngReg c r)) := rfl

/-- Before any point but the first the accumulator is held at what the point before left. -/
theorem Phi1_pos (c : Dev nD) (n : ℕ) (hn : n ≠ 0) :
    Phi1 V c n = iprop(owns (c : Thread nD τ) scM1 fullShare (acc1 V c (n - 1)) ∗ restNS1 (F := F) c ∗ (∃ r, prngReg c r)) := by
  cases n with
  | zero => exact absurd rfl hn
  | succ n => rfl

/-- The class's invariant is the accumulator at some contents, the other scoped buffers, and the generator register:
    the accumulator is one of the scoped buffers that is no staging buffer of this region. -/
theorem PhiA1_acc_rest (c : Dev nD) :
    (Pipeline.ΦA spec1 c : sProp 𝕄)
      = iprop((∃ d, owns (c : Thread nD τ) scM1 fullShare d) ∗ restNS1 (F := F) c ∗ (∃ r, prngReg c r)) := by
  unfold Pipeline.ΦA Pipeline.scopedRest restNS1
  rw [bigSep_erase (i := cc1_scratch0) (by decide)]
  simp only [scM1, owns_whole]
  exact BI.equiv_iff.mp ⟨Idealize.SL.BI.sep_assoc, Idealize.SL.BI.sep_assoc'⟩

/-- At every position the invariant yields the accumulator at some contents. -/
theorem Phi1_any (c : Dev nD) (n : ℕ) :
    Phi1 V c n ⊢ iprop((∃ d, owns (c : Thread nD τ) scM1 fullShare d) ∗ restNS1 (F := F) c ∗ (∃ r, prngReg c r)) := by
  cases n with
  | zero =>
    rw [show Phi1 V c 0 = Pipeline.ΦA spec1 c from rfl, PhiA1_acc_rest]
  | succ n =>
    rw [Phi1_succ]
    iintro ⟨HS, HR, Hg⟩
    isplitl [HS]; · iexists _; iexact HS
    isplitl [HR]; · iexact HR
    iexact Hg

/-! ## What the body finds in the input windows' buffers, and where the output window is idle -/

/-- The left operand's buffer holds its block at every point: the body leaves it in place, and a point that does not
    fetch has not moved the block index. -/
theorem before1_0 (c : Dev nD) (t : Fin cfg1.N) (d) : (dat1 V c).before 0 t d = iblk1 V c 0 t := by
  rw [(dat1 V c).before_in_eq_fetched 0 rfl (fun _ => rfl) (fun _ _ _ => rfl)
    (fun u => by rw [after1_0]; unfold Dat.blockOf iblk1; rw [A_eq1]) t d]
  unfold Dat.fetched Dat.blockOf iblk1; rw [A_eq1]; rfl

/-- The right operand's buffer likewise. -/
theorem before1_1 (c : Dev nD) (t : Fin cfg1.N) (d) : (dat1 V c).before 1 t d = iblk1 V c 1 t := by
  rw [(dat1 V c).before_in_eq_fetched 1 rfl (fun _ => rfl) (fun _ _ _ => rfl)
    (fun u => by rw [after1_1]; unfold Dat.blockOf iblk1; rw [A_eq1]) t d]
  unfold Dat.fetched Dat.blockOf iblk1; rw [A_eq1]; rfl

/-- Inside a run the output window is idle, -/
theorem idle1_2_inside : ∀ t : Fin cfg1.N, t.val % 8 ≠ 7 → cfg1.idle 2 (grid1.coords t) = true := by decide +kernel
/-- and live where it ends. -/
theorem idle1_2_end : ∀ t : Fin cfg1.N, t.val % 8 = 7 → cfg1.idle 2 (grid1.coords t) = false := by decide +kernel
/-- Inside a run the output block is not written back. -/
theorem flush1_2_inside (t : Fin cfg1.N) (h : t.val % 8 ≠ 7) : (cfg1.win 2).flush t = false :=
  Bool.eq_false_iff.mpr fun hf => h ((flush1_2 t).mp hf)

/-- What the body is to leave in each window's buffer: the operands' blocks in place, -/
theorem leaves1_0 (c : Dev nD) (t : Fin cfg1.N) :
    (dat1 V c).leavesExact 0 t = owns (c : Thread nD τ) (st1_0 t) fullShare (iblk1 V c 0 t) := by
  unfold Dat.leavesExact; rw [after1_0]
theorem leaves1_1 (c : Dev nD) (t : Fin cfg1.N) :
    (dat1 V c).leavesExact 1 t = owns (c : Thread nD τ) (st1_1 t) fullShare (iblk1 V c 1 t) := by
  unfold Dat.leavesExact; rw [after1_1]
/-- the output's buffer as found inside a run, -/
theorem leaves1_2_inside (c : Dev nD) (t : Fin cfg1.N) (h : t.val % 8 ≠ 7) :
    (dat1 V c).leavesExact 2 t = iprop(∃ d, owns (c : Thread nD τ) (st1_2 t) fullShare ((dat1 V c).before 2 t d)) :=
  (dat1 V c).leavesExact_idle 2 t (idle1_2_inside t h) (flush1_2_inside t h)
/-- and at the stored block where the run ends. -/
theorem leaves1_2_end (c : Dev nD) (t : Fin cfg1.N) (h : t.val % 8 = 7) :
    (dat1 V c).leavesExact 2 t = owns (c : Thread nD τ) (st1_2 t) fullShare (out1_2 V c t) := by
  unfold Dat.leavesExact; rw [idle1_2_end t h, after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
/-- The body at any point, by the point's place in its run along the contracted axis: the invariant hands the body the
    accumulator (at anything where a run begins, else at what the point before left) and takes it back at this point's
    contents; the operands' buffers hold their blocks and keep them; the output's buffer is handed back as found inside a
    run and at the stored block where the run ends; the other scoped buffers, the generator register and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) from rfl, Phi1_succ,
    show (dat1 V c).Φ t.castSucc = Phi1 V c t.val from rfl, leaves1_0, leaves1_1]
  by_cases h0 : t.val % 8 = 0
  · have h7 : t.val % 8 ≠ 7 := by omega
    rw [leaves1_2_inside V c t h7, acc1_reset V c t h0]
    iintro ⟨HΦ, Ho, ⟨%d0, H0⟩, ⟨%d1, H1⟩, H2⟩
    icases (Phi1_any V c t.val) $$ HΦ with ⟨HS, HR, Hg⟩
    iapply (sound_kernel1_first c Set.univ (grid1.coords t) _ _ _ _ _ _ _ _ ((k1_first_iff t).mpr h0)
      (fun h => h7 ((k1_last_iff t).mp h)) (iblk1 V c 0 t) (iblk1 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hpos : t.val ≠ 0 := fun h => h0 (by rw [h])
    by_cases h7 : t.val % 8 = 7
    · rw [leaves1_2_end V c t h7]; unfold out1_2
      rw [Phi1_pos V c t.val hpos, acc1_carry V c t h0]
      iintro ⟨⟨HS, HR, Hg⟩, Ho, ⟨%d0, H0⟩, ⟨%d1, H1⟩, ⟨%d2, H2⟩⟩
      iapply (sound_kernel1_last c Set.univ (grid1.coords t) _ _ _ _ _ _ _ _ (fun h => h0 ((k1_first_iff t).mp h))
        ((k1_last_iff t).mpr h7) (iblk1 V c 0 t) (iblk1 V c 1 t) (acc1 V c (t.val - 1)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [leaves1_2_inside V c t h7, Phi1_pos V c t.val hpos, acc1_carry V c t h0]
      iintro ⟨⟨HS, HR, Hg⟩, Ho, ⟨%d0, H0⟩, ⟨%d1, H1⟩, H2⟩
      iapply (sound_kernel1_mid c Set.univ (grid1.coords t) _ _ _ _ _ _ _ _ (fun h => h0 ((k1_first_iff t).mp h))
        (fun h => h7 ((k1_last_iff t).mp h)) (iblk1 V c 0 t) (iblk1 V c 1 t) (acc1 V c (t.val - 1)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The class's invariant with the accumulator split off the scoped rest. -/
theorem PhiA1_split (c : Dev nD) :
    (Pipeline.ΦA spec1 c : sProp 𝕄)
      = iprop((∃ d, owns (c : Thread nD τ) scM1 fullShare d) ∗ restNS1 (F := F) c ∗ (∃ r, prngReg c r)) :=
  PhiA1_acc_rest c

/-- What the launch hands the region is the invariant before the first point. -/
theorem hin1 (c : Dev nD) : Pipeline.ΦA spec1 c ⊢ (dat1 V c).Φ 0 :=
  Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl, PhiA1_acc_rest]
  exact Phi1_any V c _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the idealized kernel's @main (the closing product of the latent matrix with its own transpose), at
  any float instance and at the contents `V` the region is entered from.

  The pallas_call runs on a 4 x 4 grid: point `t = 4 i + j` takes row block `i` and row block `j` of ONE array (the
  8192 x 128 latent matrix, staged through two windows) and stores block `(i, j)` of the result, the 2048 x 2048
  matrix of the inner products of the rows of the first block with the rows of the second. Nothing is carried
  from point to point. The two input windows read one array, so the core holds it as two half shares.
-/
import proofs.«181997_j36361193128417_1_alg».proof.Proof.Gen.KernelIdeal.Launch
import proofs.«181997_j36361193128417_1_alg».proof.Proof.Gen.KernelIdeal.Skeleton
import proofs.«181997_j36361193128417_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output's staging buffer holds after the body at point `t`: the products of the two row blocks. -/
def out2_2 (c : Dev nD) (t : Fin cfg2.N) : Vec F S2048x2048 .f32 := k2_pay1 (iblk2 V c 0 t) (iblk2 V c 1 t)

/-- The proof data of pipeline 2 on core `c`: the two input windows hold the shared array at a half share each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 V c t
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 V c t := by dsimp only [dat2]

/-! ## The body at a point -/

/-- The offsets of a load or store of a whole buffer, however the zeros are spelt. -/
theorem zeros2 : (![0, 0] : Fin 2 → ℕ) = fun _ => 0 := funext fun a => by fin_cases a <;> rfl

/-- An input window's current staging buffer holds its block at every point, fetched there or not: window 0's block
    index (i, 0) does not move along j, so where it is not fetched the buffer still holds the block of the point
    before, which is this point's; window 1 is fetched at every point. Both windows are uncut and never idle. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The body's one store is through the whole-buffer rectangle, which holds every index. -/
theorem cover2_2 (p : Vec F S2048x2048 .f32) (y : S2048x2048.Idx) :
    ∃ pc ∈ ([⟨Rect.unit (s := S2048x2048) ![0, 0] S2048x2048.size inb_S2048x2048_S2048x2048_0_0, p⟩] :
        List (View.Piece (Elt F) S2048x2048 .f32)), y ∈ pc.1.set :=
  ⟨_, List.mem_singleton_self _, View.mem_set_unit_zero zeros2 inb_S2048x2048_S2048x2048_0_0 y⟩

set_option maxHeartbeats 1000000 in
/-- The kernel body on whole staging memrefs: the two inputs' at read contents `x0`, `x1` and the output's at
    anything. It loads both inputs whole, loads the output (a value it never uses) and stores the product of the first
    block with the transpose of the second over the WHOLE output buffer; so it runs to the continuation holding the
    inputs' as they were and the output's at that product. One store covers the buffer, so what it leaves is its
    payload; a load through the whole-buffer rectangle reads the contents. -/
theorem sound_kernel2 (c : Dev nD) (E : Set ℕ) (i : grid2.Coords)
    (arg0 : Memref sig .tc .vmem S2048x128 .f32) (harg0 : arg0.IsWhole)
    (arg1 : Memref sig .tc .vmem S2048x128 .f32) (harg1 : arg1.IsWhole)
    (arg2 : Memref sig .tc .vmem S2048x2048 .f32) (harg2 : arg2.IsWhole)
    (x0 x1 : Vec F S2048x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (k2_pay1 x0 x1)) -∗ K ⟨⟩))
      ⊢ wp frame (wpE (defs₀ (F := F)) Variants.none c none) E (cc2__self_matmul_kernel i arg0 harg0 arg1 harg1 arg2 harg2) K := by
  simp only [cc2__self_matmul_kernel_eq_skeleton]; unfold cc2__self_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover2_2 _),
    View.canon_unit_zero zeros2, View.readAt_eq_ld, View.readAt_eq_ld, View.ld_unit_zero zeros2, View.ld_unit_zero zeros2]

/-- What the body is called with at point `t`: the invariant, what the core owes, and each window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, the output's anything; the invariant and what the core
    owes are the same at every point and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold out2_2
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The shared array: one buffer behind two windows -/

/-- The distinct buffers behind region 2's three windows: the latent matrix's (windows 0 and 1) and the result's. -/
theorem arrImage2 : (Finset.univ.image (Pipeline.arrRef spec2)) = {main_v62, main_v63} := by decide

/-- The shares the windows' arrays are held at: an input's is the proof data's, the output's is full. -/
theorem share2_0 (c : Dev nD) : (dat2 V c).share 0 = fullShare.left := by
  unfold Dat.share; rw [if_neg (by decide)]; dsimp only [dat2]
theorem share2_1 (c : Dev nD) : (dat2 V c).share 1 = fullShare.right := by
  unfold Dat.share; rw [if_neg (by decide)]; dsimp only [dat2]
theorem share2_2 (c : Dev nD) : (dat2 V c).share 2 = fullShare := by
  unfold Dat.share; rw [if_pos (by decide)]

/-- The windows' arrays at any contents, window by window: every array is a whole buffer, so the three conjuncts are
    the shared buffer at its left half, the same buffer at its right half, and the result's buffer whole. -/
theorem arrays2_eq (c : Dev nD) (G : (w : Fin cfg2.W) → Buf (Elt F) ((cfg2.win w).arr.view.loc (c : Thread nD τ))) :
    ((dat2 V c).arrays G : sProp 𝕄)
      = iprop(((c : Thread nD τ).loc main_v62 ↦{fullShare.left} G 0) ∗ ((c : Thread nD τ).loc main_v62 ↦{fullShare.right} G 1)
          ∗ ((c : Thread nD τ).loc main_v63 ↦{fullShare} G 2)) := by
  unfold Dat.arrays
  rw [bigSep_W2, (arr_whole2 0).set_eq_univ, (arr_whole2 2).set_eq_univ, share2_0, share2_1, share2_2]

/-- The buffers behind the arrays, one conjunct per DISTINCT buffer: two, not three. -/
theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop(((c : Thread nD τ).loc main_v62 ↦{fullShare} X main_v62) ∗ ((c : Thread nD τ).loc main_v63 ↦{fullShare} X main_v63)) := by
  unfold Pipeline.arrBufs
  rw [arrImage2, bigSep_insert (by decide), bigSep_singleton]
  rfl

/-- ENTRY: the buffers behind region 2's arrays, each whole at the full share at `V`, are the windows' arrays at the
    proof data's entry contents and shares: the latent matrix's buffer split into two halves, the result's whole. -/
theorem hsplit2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  -- at entry every window's array holds the region-entry contents of its buffer
  show _ ⊢ iprop(((c : Thread nD τ).loc main_v62 ↦{fullShare.left} V c main_v62) ∗ ((c : Thread nD τ).loc main_v62 ↦{fullShare.right} V c main_v62)
          ∗ ((c : Thread nD τ).loc main_v63 ↦{fullShare} V c main_v63))
  iintro ⟨H62, H63⟩
  -- the full share of the shared buffer is the sum of its two halves
  ihave H := (pointsTo_share (PosShare.mem_left_op_right fullShare)).1 $$ H62
  icases H with ⟨Hl, Hr⟩
  isplitl [Hl]; · iexact Hl
  isplitl [Hr]; · iexact Hr
  iexact H63

/-- EXIT: the windows' arrays at the pipeline's final contents are those buffers whole again, the inputs as entered and
    the result at what the write-backs left. -/
theorem hjoin2 (c : Dev nD) :
    (dat2 V c).arrays ((dat2 V c).arrAt · cfg2.N)
      ⊢ (Pipeline.arrBufs (Ix := Unit) (Name := ℕ) (U := UR sig nD τ) (Lvl := ℕ) spec2 c
          (Function.update (V c) main_v63 ((dat2 V c).arrAt 2 cfg2.N)) : sProp 𝕄) := by
  rw [arrBufs2_eq, arrays2_eq, Function.update_self, Function.update_of_ne (by decide),
    (dat2 V c).arrAt_in 0 rfl, (dat2 V c).arrAt_in 1 rfl]
  -- an input array is never written: both input windows end at the entry contents of the one buffer
  show iprop(((c : Thread nD τ).loc main_v62 ↦{fullShare.left} V c main_v62) ∗ ((c : Thread nD τ).loc main_v62 ↦{fullShare.right} V c main_v62)
          ∗ ((c : Thread nD τ).loc main_v63 ↦{fullShare} (dat2 V c).arrAt 2 cfg2.N)) ⊢ _
  iintro ⟨Hl, Hr, H63⟩
  isplitl [Hl Hr]
  · iapply (pointsTo_share (PosShare.mem_left_op_right fullShare)).2
    isplitl [Hl]; · iexact Hl
    iexact Hr
  iexact H63

end Cert.KernelIdeal.Hand

end
-- ==== Proof.KI.RunBase.lean ====
/-
  The run of the kernel's @main, at any float instance: what the core's unscoped buffers hold between @main's items.
  Three pallas_calls stand among stretches of host operations. Between two items the core holds every unscoped buffer
  at a named valuation (the launch memory, then each host stretch applied, then after a region its result array at
  what the pipeline's write-backs leave), beside its generator register and the fact that it owes no other core
  anything. This module names what each region leaves, the proof data of the three pipelines (each at the contents its
  region is entered from), and that thread state.
-/
import proofs.«181997_j36361193128417_1_alg».proof.Proof.KI.Reg0
import proofs.«181997_j36361193128417_1_alg».proof.Proof.KI.Reg1
import proofs.«181997_j36361193128417_1_alg».proof.Proof.KI.Reg2
import proofs.«181997_j36361193128417_1_alg».proof.Proof.Gen.KernelIdeal.Regions
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The contents region 0 is entered from, read at the TensorCore's references. -/
abbrev Ve0 : (c : Dev nD) → (b : Ref sig .tc) → Buf (Elt F) ((c : Thread nD τ).loc b) := fun c b => V1 m c b

/-- After region 0: the hidden layer's array at what the pipeline's write-backs leave, every other buffer as entered. -/
def X2 (c : Dev nD) : Valuation τ sig (Elt F) := Function.update (V1 m c) main_v1 ((dat0 (Ve0 m) c).arrAt 2 cfg0.N)
/-- The regions' results so far: region 0's. -/
def outs2 : Outs (F := F) := fun _ r c => X2 m c r

/-- The contents region 1 is entered from. -/
abbrev Ve1 : (c : Dev nD) → (b : Ref sig .tc) → Buf (Elt F) ((c : Thread nD τ).loc b) := fun c b => V3 m (outs2 m) c b

/-- After region 1: its result array at what the write-backs leave, every other buffer as entered. -/
def X4 (c : Dev nD) : Valuation τ sig (Elt F) := Function.update (V3 m (outs2 m) c) main_v4 ((dat1 (Ve1 m) c).arrAt 2 cfg1.N)
/-- The regions' results so far: regions 0's and 1's. -/
def outs4 : Outs (F := F) := fun J r c => match J with | 2 => X2 m c r | _ => X4 m c r

/-- The contents region 2 is entered from. -/
abbrev Ve2 : (c : Dev nD) → (b : Ref sig .tc) → Buf (Elt F) ((c : Thread nD τ).loc b) := fun c b => V9 m (outs4 m) c b

/-- After region 2: its result array at what the write-backs leave, every other buffer as entered. -/
def X10 (c : Dev nD) : Valuation τ sig (Elt F) := Function.update (V9 m (outs4 m) c) main_v63 ((dat2 (Ve2 m) c).arrAt 2 cfg2.N)

/-- What the three regions leave in the buffers they may change. -/
def outs : Outs (F := F) := fun J r c => match J with | 2 => X2 m c r | 4 => X4 m c r | _ => X10 m c r

theorem outs_2 (c : Dev nD) : outs m 2 main_v1 c = (dat0 (Ve0 m) c).arrAt 2 cfg0.N := by
  show X2 m c main_v1 = _; unfold X2; exact Function.update_self ..
theorem V3_outs (c : Dev nD) : V3 m (outs m) c = V3 m (outs2 m) c := rfl
theorem outs_4 (c : Dev nD) : outs m 4 main_v4 c = (dat1 (Ve1 m) c).arrAt 2 cfg1.N := by
  show X4 m c main_v4 = _; unfold X4; exact Function.update_self ..
theorem V9_outs (c : Dev nD) : V9 m (outs m) c = V9 m (outs4 m) c := rfl
theorem outs_10 (c : Dev nD) : outs m 10 main_v63 c = (dat2 (Ve2 m) c).arrAt 2 cfg2.N := by
  show X10 m c main_v63 = _; unfold X10; exact Function.update_self ..

/-! ## The proof data family and the thread state -/

/-- The prefetched tables' admissible contents: no pallas_call has a table. -/
abbrev adm' : (p : Fin 3) → (pcfgs (F := F) p).Adm := fun p => (cfgs p).toPCfg_adm

/-- Every pipeline's proof data, each at the contents its region is entered from. -/
def pdats : (p : Fin 3) → (c : Dev nD) → Dat τ (Elt F) Unit ℕ (UR sig nD τ) ℕ (Pipeline.pin (pcfgs (F := F)) adm' p) c
  | ⟨0, _⟩ => fun c => dat0 (Ve0 m) c
  | ⟨1, _⟩ => fun c => dat1 (Ve1 m) c
  | ⟨2, _⟩ => fun c => dat2 (Ve2 m) c

/-- No core owes another anything: no level is assigned. -/
abbrev L0 : GSem nD τ sig → Finset Unit := fun _ => ∅
abbrev lv0 : GSem nD τ sig → Unit → ℕ := fun _ _ => 0

/-- What rides beside the buffers through every item: the core's generator register at some state, and that it owes nothing. -/
abbrev Rst (c : Dev nD) : sProp 𝕄 := iprop((∃ r, prngReg c r) ∗ ∃ W, owes (c : Thread nD τ) (0 : CellTallies nD τ sig Unit) W)
/-- The same between any two items. -/
abbrev Est : Fin 4 → Dev nD → sProp 𝕄 := fun _ c => Rst (F := F) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.RunR0.lean ====
/-
  Region 0 as an item of @main's run: entered from every unscoped buffer at the contents after the first host stretch,
  its windows' arrays are taken out of the unscoped buffers, the pipeline runs the body at every grid point, and the
  arrays are put back with the hidden layer's array at what the write-backs leave. The generator register passes into
  the region invariant and out; the accumulator is taken from the scoped buffers at the first point and forgotten after
  the last.
-/
import proofs.«181997_j36361193128417_1_alg».proof.Proof.KI.RunBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 0 -/

/-- After region 0 each of its arrays holds what the pipeline leaves: the two operands as entered, the result at the
    write-backs' fold. -/
theorem hF0 (c : Dev nD) (w : Fin cfg0.W) : (dat0 (Ve0 m) c).arrAt w cfg0.N = V2 m (outs m) c (Pipeline.arrRef spec0 w) := by
  match w with
  | ⟨0, _⟩ => exact ((dat0 (Ve0 m) c).arrAt_in 0 rfl _).trans (V2_of m (outs m) c main_arg1 (by decide)).symm
  | ⟨1, _⟩ => exact ((dat0 (Ve0 m) c).arrAt_in 1 rfl _).trans (V2_of m (outs m) c main_v0 (by decide)).symm
  | ⟨2, _⟩ =>
    show _ = Function.update (V1 m c) main_v1 (outs m 2 main_v1 c) main_v1
    rw [Function.update_self, outs_2]; rfl
/-- Every other buffer is as region 0 found it. -/
theorem hrest0 (c : Dev nD) : ∀ b : Ref sig .tc, b ∉ Finset.univ.image (Pipeline.arrRef spec0) → V2 m (outs m) c b = V1 m c b :=
  fun b hb => V2_of m (outs m) c b fun h => hb (Finset.mem_image.mpr ⟨2, Finset.mem_univ _, (List.mem_singleton.mp h).symm⟩)

set_option backward.isDefEq.respectTransparency.types false in
/-- REGION 0 over the thread state: entered from every unscoped buffer at the contents after the first host stretch, left
    with the hidden layer's array at what the write-backs leave. The generator register passes into the region invariant and
    out; the accumulator is taken from the scoped buffers at the first point and forgotten after the last. -/
def reg0 : Pipeline.RegionSeg (pcfgs (F := F)) adm' (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L0 lv0 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Ve0 m) c)
    unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Ve0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunR1.lean ====
/-
  Region 1 as an item of @main's run: entered from every unscoped buffer at the contents after the second host stretch,
  its windows' arrays are taken out of the unscoped buffers, the pipeline runs the body at every grid point, and the
  arrays are put back with its result array at what the write-backs leave. The generator register passes into
  the region invariant and out; the accumulator is taken from the scoped buffers at the first point and forgotten after
  the last.
-/
import proofs.«181997_j36361193128417_1_alg».proof.Proof.KI.RunBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 1 -/

/-- After region 1 each of its arrays holds what the pipeline leaves: the two operands as entered, the result at the
    write-backs' fold. -/
theorem hF1 (c : Dev nD) (w : Fin cfg1.W) : (dat1 (Ve1 m) c).arrAt w cfg1.N = V4 m (outs m) c (Pipeline.arrRef spec1 w) := by
  match w with
  | ⟨0, _⟩ => exact ((dat1 (Ve1 m) c).arrAt_in 0 rfl _).trans (V4_of m (outs m) c main_arg1 (by decide)).symm
  | ⟨1, _⟩ => exact ((dat1 (Ve1 m) c).arrAt_in 1 rfl _).trans (V4_of m (outs m) c main_v3 (by decide)).symm
  | ⟨2, _⟩ =>
    show _ = Function.update (V3 m (outs m) c) main_v4 (outs m 4 main_v4 c) main_v4
    rw [Function.update_self, outs_4]; rfl
/-- Every other buffer is as region 1 found it. -/
theorem hrest1 (c : Dev nD) : ∀ b : Ref sig .tc, b ∉ Finset.univ.image (Pipeline.arrRef spec1) → V4 m (outs m) c b = V3 m (outs m) c b :=
  fun b hb => V4_of m (outs m) c b fun h => hb (Finset.mem_image.mpr ⟨2, Finset.mem_univ _, (List.mem_singleton.mp h).symm⟩)

set_option backward.isDefEq.respectTransparency.types false in
/-- REGION 1 over the thread state: entered from every unscoped buffer at the contents after the second host stretch, left
    with its result array at what the write-backs leave. The generator register passes into the region invariant and
    out; the accumulator is taken from the scoped buffers at the first point and forgotten after the last. -/
def reg1 : Pipeline.RegionSeg (pcfgs (F := F)) adm' (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L0 lv0 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (Ve1 m c) fun _ => rfl
    rw [Pipeline.unscopedBufs_held, show V3 m (outs2 m) c = V3 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (Ve1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunR2.lean ====
/-
  Region 2 as an item of @main's run: entered from every unscoped buffer at the contents after the last host stretch
  and left with the result array at what the write-backs leave. Its two input windows read ONE array, so that
  array's buffer is dealt to them as two half shares at the entry and joined again at the exit.
-/
import proofs.«181997_j36361193128417_1_alg».proof.Proof.KI.RunBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 2 -/

/-- The valuation after region 2, read at the TensorCore's references, is the one it was entered from with the result's
    buffer replaced. -/
theorem V10_upd (c : Dev nD) :
    (fun b : Ref sig .tc => V10 m (outs m) c b) = Function.update (Ve2 m c) main_v63 ((dat2 (Ve2 m) c).arrAt 2 cfg2.N) := by
  funext b
  by_cases hb : b = main_v63
  · subst hb
    rw [Function.update_self]
    show Function.update (V9 m (outs m) c) main_v63 (outs m 10 main_v63 c) main_v63 = _
    rw [Function.update_self, outs_10]
  · rw [Function.update_of_ne hb]
    exact V10_of m (outs m) c b fun h => hb (List.mem_singleton.mp h)

/-- The unscoped buffers that are none of region 2's arrays are as it found them. -/
theorem rest2_eq (c : Dev nD) :
    (Pipeline.unscopedRest (Ix := Unit) (Name := ℕ) (U := UR sig nD τ) (Lvl := ℕ) spec2 c (fun b => V10 m (outs m) c b) : sProp 𝕄)
      = Pipeline.unscopedRest spec2 c (Ve2 m c) := by
  unfold Pipeline.unscopedRest
  refine bigSep_congr fun b hb => ?_
  exact congrArg (fun v => (((c : Thread nD τ).loc b) ↦{fullShare} v : sProp 𝕄))
    (V10_of m (outs m) c b fun h => (Finset.mem_sdiff.mp hb).2 (Finset.mem_image.mpr ⟨2, Finset.mem_univ _, (List.mem_singleton.mp h).symm⟩))

/-- ENTRY: every unscoped buffer at the contents region 2 is entered from is its windows' arrays at the proof data's entry
    contents and shares, beside the buffers that are none of them. -/
theorem entry2 (c : Dev nD) :
    (StableHlo.held (c : Thread nD τ) (Pipeline.ucRefs τ sig) (V9 m (outs m) c) : sProp 𝕄)
      ⊢ iprop((pdats m 2 c).arrays ((pdats m 2 c).arrAt · 0) ∗ Pipeline.unscopedRest spec2 c (Ve2 m c)) := by
  show _ ⊢ iprop((dat2 (Ve2 m) c).arrays ((dat2 (Ve2 m) c).arrAt · 0) ∗ Pipeline.unscopedRest spec2 c (Ve2 m c))
  rw [← Pipeline.unscopedBufs_held c (V9 m (outs m) c),
    Pipeline.unscopedBufs_split₀ (Pipeline.pin (pcfgs (F := F)) adm') (2 : Fin 3) winFacts₀2.arr_unscoped c (fun b => V9 m (outs m) c b)]
  exact sep_mono (hsplit2 (Ve2 m) c) .rfl

/-- EXIT: the arrays at the pipeline's final contents and those other buffers are every unscoped buffer at the contents
    after region 2. -/
theorem exit2 (c : Dev nD) :
    iprop((pdats m 2 c).arrays ((pdats m 2 c).arrAt · cfg2.N) ∗ Pipeline.unscopedRest spec2 c (Ve2 m c))
      ⊢ (StableHlo.held (c : Thread nD τ) (Pipeline.ucRefs τ sig) (V10 m (outs m) c) : sProp 𝕄) := by
  show iprop((dat2 (Ve2 m) c).arrays ((dat2 (Ve2 m) c).arrAt · cfg2.N) ∗ Pipeline.unscopedRest spec2 c (Ve2 m c)) ⊢ _
  rw [← Pipeline.unscopedBufs_held c (V10 m (outs m) c),
    Pipeline.unscopedBufs_split₀ (Pipeline.pin (pcfgs (F := F)) adm') (2 : Fin 3) winFacts₀2.arr_unscoped c (fun b => V10 m (outs m) c b)]
  refine sep_mono ((hjoin2 (Ve2 m) c).trans (.of_eq ?_)) (.of_eq (rest2_eq m c).symm)
  exact congrArg (Pipeline.arrBufs spec2 c) (V10_upd m c).symm

set_option backward.isDefEq.respectTransparency.types false in
/-- REGION 2 over the thread state: entered from every unscoped buffer at the contents after the last host stretch, left with
    the result array at what the write-backs leave. The latent matrix's buffer is dealt to the two input windows as two half
    shares at the entry and joined again at the exit. -/
def reg2 : Pipeline.RegionSeg (pcfgs (F := F)) adm' (pdats m) () defs₀ Variants.none L0 lv0 2 where
  win := winFacts₀2
  block_pos := block_pos2
  stage_whole := stage_whole2
  K := PEmpty
  osem k := k.elim
  ho := Pipeline.OwnSemFacts.none _
  hbody c := (body_obligation2 (Ve2 m) c).loose
  hwaits := Pipeline.hwaits_of_owed_zero _ _ _ _ L0 lv0 2 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 m c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The launch of the kernel's @main, at any float instance: the ten items (host stretches and the three regions) run
  one after the other, each entered from what the one before left. The conclusion reads every unscoped buffer of the
  final memory off the last valuation; the frame claim (every argument array ends as launched) is read from it, since
  no host stretch writes an argument and no region may change one.
-/
import proofs.«181997_j36361193128417_1_alg».proof.Proof.KI.RunR0
import proofs.«181997_j36361193128417_1_alg».proof.Proof.KI.RunR1
import proofs.«181997_j36361193128417_1_alg».proof.Proof.KI.RunR2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

set_option backward.isDefEq.respectTransparency.types false in
/-- THE RUN. At the compiled mesh, at any float instance, from any memory with zero counters: every weakly fair execution of
    @main on the TensorCores terminates, nothing faulting, and every unscoped buffer of the final memory holds what the last
    valuation says: the launch memory, each host stretch applied in turn, each region's result array at what its pipeline's
    write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm' (pdats m) () cellOf_inj emb₁ defs₀ Variants.none L0 lv0 m ρ main
    (segs m (outs m) Variants.none L0 lv0 (Est (F := F)) () (pdats m) (reg0 m) (reg1 m) (reg2 m))
    (fun c Q => by
      rewrite [main_chain c, Pipeline.Seg.run_eq_chain,
        show (segs m (outs m) Variants.none L0 lv0 (Est (F := F)) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      (show iprop(StableHlo.held (c : Thread nD τ) (Pipeline.ucRefs τ sig) (V10 m (outs m) c) ∗ Rst c)
          ⊢ (iprop(StableHlo.held (c : Thread nD τ) (Pipeline.ucRefs τ sig) (V10 m (outs m) c)
              ∗ ∃ W, owes (c : Thread nD τ) (0 : CellTallies nD τ sig Unit) W) : sProp 𝕄)
        from sep_mono .rfl (by iintro ⟨-, HO⟩; iexact HO))⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun _ h => h)

/-- THE FRAME: every weakly fair execution of @main terminates, nothing faulting, and every argument array ends holding its
    launch contents: no host stretch writes an argument and no region may change one, so the last valuation at an argument's
    buffer walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c),
      (h c _ (mem_uc main_arg11 (by decide))).trans (V10_main_arg11 m (outs m) c)⟩)
    (run_all m ρ)

end Cert.KernelIdeal.Hand

end
-- ==== Proof.KI.Val0.lean ====
/-
  The value of region 0 over the extended reals: after the region the result array holds, entry by entry, the
  product of the adjacency matrix with the right operand, summed over all 8192 inner indices, clamped below at
  zero. The kernel reaches it as eight partial sums of 1024 terms each added to a cleared accumulator; addition
  of extended reals is commutative and associative, so the regrouping needs no finiteness.

  The argument. Write `term p q K` for the product of entry (p, K) of the left array with entry (K, q) of the
  right one. (1) The reference's entry (p, q) is max(Σ_{K < 8192} term p q K, 0). (2) At grid point t = 8 i + k the
  two input blocks are rows 2048 i … and columns 1024 k … of the left array, and rows 1024 k … of the right one, so
  one step adds Σ_{kk < 1024} term (2048 i + r) q (1024 k + kk) to entry (r, q) of the accumulator. (3) By
  induction on k inside a fixed i, the accumulator after point 8 i + k holds Σ_{K < 1024 (k + 1)} term (2048 i + r) q K:
  a sum over an initial segment of the naturals splits off its last 1024 terms. (4) At k = 7 that is the full sum
  over K < 8192; the block stored there is its maximum with zero, which is rows 2048 i … of the reference's array.
  (5) The four blocks written back (i = 0 … 3) cover all 8192 rows.
-/
import proofs.«181997_j36361193128417_1_alg».proof.Proof.KI.Reg0
import proofs.«181997_j36361193128417_1_alg».proof.Proof.Gen.ReferenceIdeal
import Idealize.ShloMosaic.PureOps.Ideal.Laws
import Idealize.ShloMosaic.Lib.ValueIdx
import Idealize.ShloMosaic.Lib.Pipeline.Value
import Mathlib.Algebra.BigOperators.Fin

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

/-! ## The terms of the product, by natural-number coordinates -/

/-- One term of the matrix product: entry `(p, K)` of the left array times entry `(K, q)` of the right one, with
    the coordinates given as natural numbers (zero outside the arrays' ranges, so that sums over initial segments
    of the naturals can be split and joined without carrying bounds). -/
def term (A : FVec Ideal S8192x8192 .f32) (B : FVec Ideal S8192x256 .f32) (p q K : ℕ) : EReal :=
  if h : p < 8192 ∧ q < 256 ∧ K < 8192 then A (ix2 ⟨p, h.1⟩ ⟨K, h.2.2⟩) * B (ix2 ⟨K, h.2.2⟩ ⟨q, h.2.1⟩) else 0

/-- Inside the ranges a term is the product of the two entries. -/
theorem term_eq (A : FVec Ideal S8192x8192 .f32) (B : FVec Ideal S8192x256 .f32) (p q K : ℕ)
    (hp : p < 8192) (hq : q < 256) (hK : K < 8192) :
    term A B p q K = A (ix2 ⟨p, hp⟩ ⟨K, hK⟩) * B (ix2 ⟨K, hK⟩ ⟨q, hq⟩) := by
  unfold term
  rw [dif_pos ⟨hp, hq, hK⟩]

/-- THE RESULT, entry by entry: the sum of the 8192 terms of row `p` and column `q`, clamped below at zero. -/
def spec (A : FVec Ideal S8192x8192 .f32) (B : FVec Ideal S8192x256 .f32) : FVec Ideal S8192x256 .f32 :=
  fun i => max (∑ K ∈ Finset.range 8192, term A B (i 0).val (i 1).val K) 0

/-- The result at the entry of coordinates `p`, `q`. -/
theorem spec_apply (A : FVec Ideal S8192x8192 .f32) (B : FVec Ideal S8192x256 .f32) (p : Fin 8192) (q : Fin 256) :
    spec A B (ix2 p q) = max (∑ K ∈ Finset.range 8192, term A B p.val q.val K) 0 := rfl

/-- The first `1024 (k + 1)` values of a sequence sum to the first `1024 k` plus the next 1024. -/
theorem sum_next_block (f : ℕ → EReal) (k : ℕ) :
    ∑ K ∈ Finset.range (1024 * (k + 1)), f K
      = ∑ K ∈ Finset.range (1024 * k), f K + ∑ kk ∈ Finset.range 1024, f (1024 * k + kk) := by
  rw [show 1024 * (k + 1) = 1024 * k + 1024 by ring, Finset.sum_range_add]

/-! ## The reference's array is the result -/

/-- The left operand's index of output entry `i` and inner index `q`: on axis 0 the output's row … -/
theorem rlhs_0 (i : Cert.ReferenceIdeal.S8192x256.Idx) (q : Cert.ReferenceIdeal.dot_S8192x8192_S8192x256_S8192x256_1_0_0_1_n_n.contr.Idx) :
    (Cert.ReferenceIdeal.dot_S8192x8192_S8192x256_S8192x256_1_0_0_1_n_n.lhsIdx i q 0).val = (i 0).val := by
  unfold DotDims.lhsIdx
  rw [dif_neg (show ¬(0 : Fin Cert.ReferenceIdeal.S8192x8192.rank) ∈ Cert.ReferenceIdeal.dot_S8192x8192_S8192x256_S8192x256_1_0_0_1_n_n.lhsBatch by decide), dif_pos (show (0 : Fin Cert.ReferenceIdeal.S8192x8192.rank) ∈ Cert.ReferenceIdeal.dot_S8192x8192_S8192x256_S8192x256_1_0_0_1_n_n.lhsNonContracting by decide)]
  rfl
/-- … on axis 1 the inner index. -/
theorem rlhs_1 (i : Cert.ReferenceIdeal.S8192x256.Idx) (q : Cert.ReferenceIdeal.dot_S8192x8192_S8192x256_S8192x256_1_0_0_1_n_n.contr.Idx) :
    (Cert.ReferenceIdeal.dot_S8192x8192_S8192x256_S8192x256_1_0_0_1_n_n.lhsIdx i q 1).val = (q ⟨0, by decide⟩).val :=
  Cert.ReferenceIdeal.dot_S8192x8192_S8192x256_S8192x256_1_0_0_1_n_n.lhsIdx_val_of_single rfl i q
/-- The right operand's index: on axis 0 the inner index … -/
theorem rrhs_0 (i : Cert.ReferenceIdeal.S8192x256.Idx) (q : Cert.ReferenceIdeal.dot_S8192x8192_S8192x256_S8192x256_1_0_0_1_n_n.contr.Idx) :
    (Cert.ReferenceIdeal.dot_S8192x8192_S8192x256_S8192x256_1_0_0_1_n_n.rhsIdx i q 0).val = (q ⟨0, by decide⟩).val :=
  Cert.ReferenceIdeal.dot_S8192x8192_S8192x256_S8192x256_1_0_0_1_n_n.rhsIdx_val_of_single rfl i q
/-- … on axis 1 the output's column. -/
theorem rrhs_1 (i : Cert.ReferenceIdeal.S8192x256.Idx) (q : Cert.ReferenceIdeal.dot_S8192x8192_S8192x256_S8192x256_1_0_0_1_n_n.contr.Idx) :
    (Cert.ReferenceIdeal.dot_S8192x8192_S8192x256_S8192x256_1_0_0_1_n_n.rhsIdx i q 1).val = (i 1).val := by
  unfold DotDims.rhsIdx
  rw [dif_neg (show ¬(1 : Fin Cert.ReferenceIdeal.S8192x256.rank) ∈ Cert.ReferenceIdeal.dot_S8192x8192_S8192x256_S8192x256_1_0_0_1_n_n.rhsBatch by decide), dif_pos (show (1 : Fin Cert.ReferenceIdeal.S8192x256.rank) ∈ Cert.ReferenceIdeal.dot_S8192x8192_S8192x256_S8192x256_1_0_0_1_n_n.rhsNonContracting by decide)]
  rfl

/-- The host's product at entry `(p, q)`: over the extended reals, the sum over the 8192 inner indices of the
    left array's row `p` times the right array's column `q`. -/
theorem refdot_apply (A : FVec Ideal Cert.ReferenceIdeal.S8192x8192 .f32) (B : FVec Ideal Cert.ReferenceIdeal.S8192x256 .f32)
    (p : Fin 8192) (q : Fin 256) :
    Host.dotGeneral (F := Ideal) (φ₁ := .f32) (φ₂ := .f32) Cert.ReferenceIdeal.dot_S8192x8192_S8192x256_S8192x256_1_0_0_1_n_n none A B (ix2 p q)
      = ∑ K : Fin 8192, A (ix2 p K) * B (ix2 K q) := by
  simp only [Host.dotGeneral]
  rw [Ideal.dotGeneral_apply, ← Equiv.sum_comp (contrEquiv1 Cert.ReferenceIdeal.dot_S8192x8192_S8192x256_S8192x256_1_0_0_1_n_n 8192 rfl rfl).symm]
  refine Finset.sum_congr rfl fun k _ => ?_
  have hk := contrEquiv1_symm_val Cert.ReferenceIdeal.dot_S8192x8192_S8192x256_S8192x256_1_0_0_1_n_n 8192 rfl rfl k
  have el : Cert.ReferenceIdeal.dot_S8192x8192_S8192x256_S8192x256_1_0_0_1_n_n.lhsIdx (ix2 p q) ((contrEquiv1 Cert.ReferenceIdeal.dot_S8192x8192_S8192x256_S8192x256_1_0_0_1_n_n 8192 rfl rfl).symm k) = ix2 p k := funext fun a => Fin.ext (by
    match a with
    | ⟨0, _⟩ => exact rlhs_0 _ _
    | ⟨1, _⟩ => exact (rlhs_1 _ _).trans hk)
  have er : Cert.ReferenceIdeal.dot_S8192x8192_S8192x256_S8192x256_1_0_0_1_n_n.rhsIdx (ix2 p q) ((contrEquiv1 Cert.ReferenceIdeal.dot_S8192x8192_S8192x256_S8192x256_1_0_0_1_n_n 8192 rfl rfl).symm k) = ix2 k q := funext fun a => Fin.ext (by
    match a with
    | ⟨0, _⟩ => exact (rrhs_0 _ _).trans hk
    | ⟨1, _⟩ => exact rrhs_1 _ _)
  rw [el, er]

/-- The reference's clamped product IS the result: entry by entry the same sum, and the array it is clamped
    against is zero everywhere (the zero word read as the extended real 0). -/
theorem ref_eq_spec (A : FVec Ideal S8192x8192 .f32) (B : FVec Ideal S8192x256 .f32) :
    maximumf (F := Ideal) (Host.dotGeneral (F := Ideal) (φ₁ := .f32) (φ₂ := .f32) Cert.ReferenceIdeal.dot_S8192x8192_S8192x256_S8192x256_1_0_0_1_n_n none A B)
        (broadcastInDim Cert.ReferenceIdeal.S8192x256 ![] Cert.ReferenceIdeal.Facts₀.bcast_S_S8192x256 (constant (F := Ideal) Cert.ReferenceIdeal.S_ .f32 0x00000000#32))
      = spec A B := by
  funext i
  obtain ⟨p, q, rfl⟩ : ∃ (p : Fin 8192) (q : Fin 256), i = ix2 p q := ⟨i 0, i 1, eq_ix2 i⟩
  show max (Host.dotGeneral (F := Ideal) (φ₁ := .f32) (φ₂ := .f32) Cert.ReferenceIdeal.dot_S8192x8192_S8192x256_S8192x256_1_0_0_1_n_n none A B (ix2 p q))
      (broadcastInDim Cert.ReferenceIdeal.S8192x256 ![] Cert.ReferenceIdeal.Facts₀.bcast_S_S8192x256 (constant (F := Ideal) Cert.ReferenceIdeal.S_ .f32 0x00000000#32) (ix2 p q))
    = max (∑ K ∈ Finset.range 8192, term A B p.val q.val K) 0
  have hb : broadcastInDim Cert.ReferenceIdeal.S8192x256 ![] Cert.ReferenceIdeal.Facts₀.bcast_S_S8192x256 (constant (F := Ideal) Cert.ReferenceIdeal.S_ .f32 0x00000000#32) (ix2 p q) = 0 :=
    (broadcastInDim_apply _ Cert.ReferenceIdeal.Facts₀.bcast_S_S8192x256 (constant (F := Ideal) Cert.ReferenceIdeal.S_ .f32 0x00000000#32) (ix2 p q) (fun a => a.elim0) (fun a => a.elim0)).trans Ideal.ofBits_zero_f32
  rw [hb, refdot_apply, Finset.sum_range]
  refine congrArg (max · 0) (Finset.sum_congr rfl fun K _ => ?_)
  exact (term_eq A B p.val q.val K.val p.isLt q.isLt K.isLt).symm

/-! ## The kernel's three payloads at an entry -/

/-- The block product's left index of output entry `i` and inner index `q`: on axis 0 the output's row … -/
theorem klhs_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
/-- … on axis 1 the inner index. -/
theorem klhs_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
/-- The right index: on axis 0 the inner index … -/
theorem krhs_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
/-- … on axis 1 the output's column. -/
theorem krhs_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The block product into a zero accumulator, at entry `(r, q)`: the sum over the block's 1024 inner indices of
    the left block's row `r` times the right block's column `q`. -/
theorem kdot_apply (x : FVec Ideal S2048x1024 .bf16) (y : FVec Ideal S1024x256 .bf16) (r : Fin 2048) (q : Fin 256) :
    matmul (F := Ideal) dot_S2048x1024_S1024x256_S2048x256_1_0_0_1_n_n none x y (constant (F := Ideal) S2048x256 .f32 0x00000000#32) (ix2 r q)
      = ∑ kk : Fin 1024, x (ix2 r kk) * y (ix2 kk q) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 r q) ((contrEquiv1 dot_S2048x1024_S1024x256_S2048x256_1_0_0_1_n_n 1024 rfl rfl).symm k) = ix2 r k := funext fun a => Fin.ext (by
    match a with
    | ⟨0, _⟩ => exact klhs_0 _ _
    | ⟨1, _⟩ => exact (klhs_1 _ _).trans hk)
  have er : dot_S2048x1024_S1024x256_S2048x256_1_0_0_1_n_n.rhsIdx (ix2 r q) ((contrEquiv1 dot_S2048x1024_S1024x256_S2048x256_1_0_0_1_n_n 1024 rfl rfl).symm k) = ix2 k q := funext fun a => Fin.ext (by
    match a with
    | ⟨0, _⟩ => exact (krhs_0 _ _).trans hk
    | ⟨1, _⟩ => exact krhs_1 _ _)
  rw [el, er]

/-- The cleared accumulator is zero at every entry. -/
theorem pay1_apply (j : S2048x256.Idx) : k0_pay1 (F := Ideal) j = 0 := by
  unfold k0_pay1
  refine (congrFun (shapeCast_self _ _) j).trans ?_
  exact Ideal.ofBits_zero_f32

/-- The stored output block is the accumulator clamped below at zero, entry by entry. -/
theorem pay3_apply (v : Vec Ideal S2048x256 .f32) (j : S2048x256.Idx) : k0_pay3 v j = max (v j) 0 := by
  unfold k0_pay3
  exact congrArg (max (v j)) Ideal.ofBits_zero_f32

/-- One update of the accumulator `s` from a left block `x` and a right block `y`, at entry `(r, q)`: the old entry
    plus the 1024 products of row `r` of `x` with column `q` of `y` (over the extended reals the narrowing of the
    operands' format changes nothing). -/
theorem pay2_apply (x : Vec Ideal S2048x1024 .f32) (y : Vec Ideal S1024x256 .f32) (s : Vec Ideal S2048x256 .f32)
    (r : Fin 2048) (q : Fin 256) :
    k0_pay2 x y s (ix2 r q) = s (ix2 r q) + ∑ kk : Fin 1024, x (ix2 r kk) * y (ix2 kk q) := by
  unfold k0_pay2
  refine (congrFun (shapeCast_self _ _) (ix2 r q)).trans ?_
  refine (congrArg (s (ix2 r q) + ·) (kdot_apply _ _ r q)).trans ?_
  refine congrArg (s (ix2 r q) + ·) (Finset.sum_congr rfl fun kk _ => ?_)
  exact congrArg (x (ix2 r kk) * ·) (congrFun (shapeCast_self y _) (ix2 kk q))

/-! ## The region's blocks, read off the arrays -/

variable (V : (c : Dev nD) → (b : Ref sig .tc) → Buf (Elt Ideal) ((c : Thread nD τ).loc b))

/-- The adjacency matrix as the region finds it. -/
abbrev adj (c : Dev nD) : FVec Ideal S8192x8192 .f32 := V c main_arg1
/-- The right operand as the region finds it. -/
abbrev xw (c : Dev nD) : FVec Ideal S8192x256 .f32 := V c main_v0
/-- The adjacency block of point `t`. -/
abbrev ablk (c : Dev nD) (t : Fin cfg0.N) : Vec Ideal S2048x1024 .f32 := iblk0 V c 0 t
/-- The right operand's block of point `t`. -/
abbrev bblk (c : Dev nD) (t : Fin cfg0.N) : Vec Ideal S1024x256 .f32 := iblk0 V c 1 t

/-- The block indices at point `t = 8 i + k`: the adjacency block is `(i, k)`, the right operand's `(k, 0)`, the
    output's `(i, 0)`. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The grid has 4 × 8 = 32 points. -/
theorem N0 : cfg0.N = 32 := by decide

/-- Entry `(r, kk)` of the adjacency block at point `t` is entry `(2048 (t / 8) + r, 1024 (t % 8) + kk)` of the matrix. -/
theorem ablk_apply (c : Dev nD) (t : Fin cfg0.N) (r : Fin 2048) (kk : Fin 1024)
    (hp : 2048 * (t.val / 8) + r.val < 8192) (hK : 1024 * (t.val % 8) + kk.val < 8192) :
    ablk V c t (ix2 r kk) = adj V c (ix2 ⟨2048 * (t.val / 8) + r.val, hp⟩ ⟨1024 * (t.val % 8) + kk.val, hK⟩) := by
  obtain ⟨e0, e1, -⟩ := idx_facts t
  show V c main_arg1 (((cfg0.win 0).blk t).view.emb (ix2 r kk)) = V c main_arg1 _
  congr 1
  funext a; apply Fin.ext
  match a with
  | ⟨0, _⟩ => show win0_0.index t (0 : Fin 2) * 2048 + 1 * r.val = 2048 * (t.val / 8) + r.val; omega
  | ⟨1, _⟩ => show win0_0.index t (1 : Fin 2) * 1024 + 1 * kk.val = 1024 * (t.val % 8) + kk.val; omega

/-- Entry `(kk, q)` of the right operand's block at point `t` is entry `(1024 (t % 8) + kk, q)` of the operand. -/
theorem bblk_apply (c : Dev nD) (t : Fin cfg0.N) (kk : Fin 1024) (q : Fin 256)
    (hK : 1024 * (t.val % 8) + kk.val < 8192) :
    bblk V c t (ix2 kk q) = xw V c (ix2 ⟨1024 * (t.val % 8) + kk.val, hK⟩ q) := by
  obtain ⟨-, -, e2, e3, -⟩ := idx_facts t
  show V c main_v0 (((cfg0.win 1).blk t).view.emb (ix2 kk q)) = V c main_v0 _
  congr 1
  funext a; apply Fin.ext
  match a with
  | ⟨0, _⟩ => show win0_1.index t (0 : Fin 2) * 1024 + 1 * kk.val = 1024 * (t.val % 8) + kk.val; omega
  | ⟨1, _⟩ => show win0_1.index t (1 : Fin 2) * 256 + 1 * q.val = q.val; omega

/-! ## The accumulator -/

/-- ONE POINT'S UPDATE at entry `(r, q)`: point `n` adds to the accumulator the 1024 terms of row
    `2048 (n / 8) + r`, column `q`, with inner indices `1024 (n % 8) … 1024 (n % 8) + 1023`. -/
theorem step_apply (c : Dev nD) (n : ℕ) (hn : n < 32) (s : Vec Ideal S2048x256 .f32) (r : Fin 2048) (q : Fin 256) :
    step0 V c n s (ix2 r q)
      = s (ix2 r q) + ∑ kk ∈ Finset.range 1024, term (adj V c) (xw V c) (2048 * (n / 8) + r.val) q.val (1024 * (n % 8) + kk) := by
  have hN : n < cfg0.N := by rw [N0]; exact hn
  unfold step0
  rw [dif_pos hN]
  refine (pay2_apply (ablk V c ⟨n, hN⟩) (bblk V c ⟨n, hN⟩) s r q).trans ?_
  rw [Finset.sum_range]
  refine congrArg (s (ix2 r q) + ·) (Finset.sum_congr rfl fun kk _ => ?_)
  have hp : 2048 * (n / 8) + r.val < 8192 := by have := r.isLt; omega
  have hK : 1024 * (n % 8) + kk.val < 8192 := by have := kk.isLt; omega
  rw [term_eq _ _ _ _ _ hp q.isLt hK]
  exact congrArg₂ (· * ·) (ablk_apply V c ⟨n, hN⟩ r kk hp hK) (bblk_apply V c ⟨n, hN⟩ kk q hK)

/-- Where a run along the inner axis begins the accumulator is the update of zero … -/
theorem acc_reset (c : Dev nD) (n : ℕ) (h : n % 8 = 0) : acc0 V c n = step0 V c n (k0_pay1 (F := Ideal)) := by
  cases n with
  | zero => rw [acc0]
  | succ m => rw [acc0, if_pos h]

/-- … and elsewhere the update of what the point before left. -/
theorem acc_step (c : Dev nD) (n : ℕ) (h : ¬(n + 1) % 8 = 0) : acc0 V c (n + 1) = step0 V c (n + 1) (acc0 V c n) := by
  rw [acc0, if_neg h]

/-- THE PARTIAL SUMS. After point `8 i + k` entry `(r, q)` of the accumulator is the sum of the first
    `1024 (k + 1)` terms of row `2048 i + r`, column `q`: by induction on `k` inside a fixed `i`, each step
    appending the next 1024 terms. -/
theorem acc_eq (c : Dev nD) (i : ℕ) (hi : i < 4) : ∀ (k : ℕ), k < 8 → ∀ (r : Fin 2048) (q : Fin 256),
    acc0 V c (8 * i + k) (ix2 r q)
      = ∑ K ∈ Finset.range (1024 * (k + 1)), term (adj V c) (xw V c) (2048 * i + r.val) q.val K
  | 0, _, r, q => by
    rw [acc_reset V c (8 * i + 0) (by omega), step_apply V c (8 * i + 0) (by omega), pay1_apply, zero_add,
      show (8 * i + 0) / 8 = i by omega, show (8 * i + 0) % 8 = 0 by omega]
    simp only [Nat.mul_zero, Nat.zero_add, Nat.mul_one]
  | k + 1, hk, r, q => by
    rw [show 8 * i + (k + 1) = (8 * i + k) + 1 by ring, acc_step V c (8 * i + k) (by omega),
      step_apply V c (8 * i + k + 1) (by omega), acc_eq c i hi k (by omega) r q,
      show (8 * i + k + 1) / 8 = i by omega, show (8 * i + k + 1) % 8 = k + 1 by omega]
    exact (sum_next_block _ (k + 1)).symm

/-! ## What a point writes back, the cover, the array -/

/-- WHAT POINT `t` WRITES BACK (`t % 8 = 7`) is block `t` of the result: there the accumulator holds the full
    sums of rows `2048 (t / 8) …`, the stored block is their maximum with zero, and the output block sits at those
    rows of the array. -/
theorem flushed_eq (c : Dev nD) (t : Fin cfg0.N) (hf : (cfg0.win 2).flush t = true) :
    (dat0 V c).flushed 2 t = ((cfg0.win 2).blk t).view.read (Elt Ideal) (spec (adj V c) (xw V c)) := by
  have h7 : t.val % 8 = 7 := (flush0_2 t).mp hf
  have hN : t.val < 32 := Nat.lt_of_lt_of_eq t.isLt N0
  obtain ⟨-, -, -, -, e4, e5⟩ := idx_facts t
  show (cfg0.win 2).cut (grid0.coords t) ((dat0 V c).after 2 t) = _
  rw [after0_2]
  unfold out0_2
  funext j
  obtain ⟨r, q, rfl⟩ : ∃ (r : Fin 2048) (q : Fin 256), j = ix2 r q := ⟨j 0, j 1, eq_ix2 j⟩
  show k0_pay3 (acc0 V c t.val) (ix2 r q) = spec (adj V c) (xw V c) (((cfg0.win 2).blk t).view.emb (ix2 r q))
  have hp : 2048 * (t.val / 8) + r.val < 8192 := by have := r.isLt; omega
  have hemb : ((cfg0.win 2).blk t).view.emb (ix2 r q) = ix2 (⟨2048 * (t.val / 8) + r.val, hp⟩ : Fin 8192) q := by
    funext a; apply Fin.ext
    match a with
    | ⟨0, _⟩ => show win0_2.index t (0 : Fin 2) * 2048 + 1 * r.val = 2048 * (t.val / 8) + r.val; omega
    | ⟨1, _⟩ => show win0_2.index t (1 : Fin 2) * 256 + 1 * q.val = q.val; omega
  have ht : 8 * (t.val / 8) + 7 = t.val := by omega
  have hacc := acc_eq V c (t.val / 8) (by omega) 7 (by omega) r q
  rw [ht] at hacc
  rw [hemb, spec_apply, pay3_apply, hacc]

/-- An entry of the array is in point `t`'s output block iff each coordinate is in the block's range on its axis. -/
theorem mem_blk (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v1).slice (win0_2.rect t)).set ↔ _
  rw [View.set_slice_whole, Rect.mem_set_unit]
  exact Iff.rfl

/-- THE COVER: the entry of row `p` lies in the block written back at point `8 (p / 2048) + 7`. -/
theorem covered (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, tv⟩ : ∃ t : Fin cfg0.N, t.val = 8 * ((i 0).val / 2048) + 7 := ⟨⟨8 * ((i 0).val / 2048) + 7, by rw [N0]; omega⟩, rfl⟩
  obtain ⟨-, -, -, -, e4, e5⟩ := idx_facts t
  refine ⟨t, (flush0_2 t).mpr (by omega), ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- Region 0 leaves in its result array the host's product of the two operand arrays clamped below at zero. -/
theorem val0 (c : Dev nD) :
    ((dat0 V c).arrAt 2 cfg0.N : (⟨S8192x256, .f32⟩ : BufTy).Contents (Elt Ideal))
      = maximumf (F := Ideal) (Host.dotGeneral (F := Ideal) (φ₁ := .f32) (φ₂ := .f32) Cert.ReferenceIdeal.dot_S8192x8192_S8192x256_S8192x256_1_0_0_1_n_n none (V c main_arg1) (V c main_v0))
          (broadcastInDim Cert.ReferenceIdeal.S8192x256 ![] Cert.ReferenceIdeal.Facts₀.bcast_S_S8192x256 (constant (F := Ideal) Cert.ReferenceIdeal.S_ .f32 0x00000000#32)) := by
  refine ((dat0 V c).arrAt_eq_of_cover 2 (spec (adj V c) (xw V c)) (fun t hf => flushed_eq V c t hf) covered).trans ?_
  exact (ref_eq_spec (adj V c) (xw V c)).symm

end Cert.KernelIdeal.Val

end
-- ==== Proof.KI.Val1.lean ====
/-
  The value of region 1 over the extended reals, read through the four column slices the host takes of it. The
  region's right operand is the product of the hidden layer with the four 256 x 128 weight matrices laid side by
  side (256 x 512); column `128 j + q` of a product is the product with column `128 j + q` of the right factor, so
  columns `128 j … 128 j + 127` of the region's result are the adjacency product of the hidden layer's product with
  the `j`-th weight matrix alone. The sum over 8192 inner indices is reached as eight partial sums of 1024 terms.
-/
import proofs.«181997_j36361193128417_1_alg».proof.Proof.KI.Reg1
import proofs.«181997_j36361193128417_1_alg».proof.Proof.Gen.ReferenceIdeal
import Idealize.ShloMosaic.PureOps.Ideal.Laws
import Idealize.ShloMosaic.Lib.ValueIdx
import Idealize.ShloMosaic.Lib.Pipeline.Value
import Mathlib.Algebra.BigOperators.Fin
import Mathlib.Data.Fintype.BigOperators
import Mathlib.Logic.Equiv.Fin.Basic

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand
open Idealize.ShloMosaic.ValueIdx
open scoped BigOperators

/-! ## A product of two matrices read at an entry

Each of the four contractions met here (the kernel's block product, the host's product with the four weight
matrices side by side, and the reference's two products) contracts the second axis of its left factor with the
first axis of its right factor. Entry (a, b) of such a product is the sum over the inner index k of the left
factor at (a, k) times the right factor at (k, b). -/

/-- A contraction of the left factor's columns with the right factor's rows, summed over the inner index itself:
    the four coordinate facts say which entry of each factor the contraction reads. -/
theorem r1_dot_sum {m K n : ℕ} (D : DotDims ⟨2, ![m, K]⟩ ⟨2, ![K, n]⟩ ⟨2, ![m, n]⟩)
    (hr : D.contr.rank = 1) (hs : D.contr.size ⟨0, by omega⟩ = K)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (L : (⟨2, ![m, K]⟩ : Shape).Idx → EReal) (R : (⟨2, ![K, n]⟩ : Shape).Idx → EReal) (a : Fin m) (b : Fin n) :
    ∑ q : D.contr.Idx, L (D.lhsIdx (ix2 a b) q) * R (D.rhsIdx (ix2 a b) q) = ∑ k : Fin K, L (ix2 a k) * R (ix2 k b) := by
  rw [← Equiv.sum_comp (contrEquiv1 D K hr hs).symm]
  refine Finset.sum_congr rfl fun k _ => ?_
  have hk := contrEquiv1_symm_val D K hr hs k
  have el : D.lhsIdx (ix2 a b) ((contrEquiv1 D K hr hs).symm k) = ix2 a k := funext fun d => Fin.ext (by
    match d with
    | ⟨0, _⟩ => exact hl0 _ _
    | ⟨1, _⟩ => exact (hl1 _ _).trans hk)
  have er : D.rhsIdx (ix2 a b) ((contrEquiv1 D K hr hs).symm k) = ix2 k b := funext fun d => Fin.ext (by
    match d with
    | ⟨0, _⟩ => exact (hr0 _ _).trans hk
    | ⟨1, _⟩ => exact hr1 _ _)
  rw [el, er]

/-! The coordinate facts of the kernel's block product (2048 x 1024 times 1024 x 512). -/

theorem r1_mm_l0 (j : S2048x512.Idx) (q : dot_S2048x1024_S1024x512_S2048x512_1_0_0_1_n_n.contr.Idx) :
    (dot_S2048x1024_S1024x512_S2048x512_1_0_0_1_n_n.lhsIdx j q 0).val = (j 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem r1_mm_l1 (j : S2048x512.Idx) (q : dot_S2048x1024_S1024x512_S2048x512_1_0_0_1_n_n.contr.Idx) :
    (dot_S2048x1024_S1024x512_S2048x512_1_0_0_1_n_n.lhsIdx j q 1).val = (q ⟨0, by decide⟩).val :=
  dot_S2048x1024_S1024x512_S2048x512_1_0_0_1_n_n.lhsIdx_val_of_single rfl j q
theorem r1_mm_r0 (j : S2048x512.Idx) (q : dot_S2048x1024_S1024x512_S2048x512_1_0_0_1_n_n.contr.Idx) :
    (dot_S2048x1024_S1024x512_S2048x512_1_0_0_1_n_n.rhsIdx j q 0).val = (q ⟨0, by decide⟩).val :=
  dot_S2048x1024_S1024x512_S2048x512_1_0_0_1_n_n.rhsIdx_val_of_single rfl j q
theorem r1_mm_r1 (j : S2048x512.Idx) (q : dot_S2048x1024_S1024x512_S2048x512_1_0_0_1_n_n.contr.Idx) :
    (dot_S2048x1024_S1024x512_S2048x512_1_0_0_1_n_n.rhsIdx j q 1).val = (j 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The kernel's block product into a cleared accumulator, at an entry. -/
theorem r1_mm_apply (x0 : FVec Ideal S2048x1024 .bf16) (x1 : FVec Ideal S1024x512 .bf16) (a : Fin 2048) (b : Fin 512) :
    (matmul (F := Ideal) dot_S2048x1024_S1024x512_S2048x512_1_0_0_1_n_n none x0 x1 (constant (F := Ideal) S2048x512 .f32 0x00000000#32) : FVec Ideal S2048x512 .f32) (ix2 a b)
      = ∑ κ : Fin 1024, x0 (ix2 a κ) * x1 (ix2 κ b) := by
  simp only [matmul]
  rw [Ideal.matmul_constant_zero_apply]
  exact r1_dot_sum dot_S2048x1024_S1024x512_S2048x512_1_0_0_1_n_n rfl rfl r1_mm_l0 r1_mm_l1 r1_mm_r0 r1_mm_r1 x0 x1 a b

/-- The cleared accumulator reads zero at every entry. -/
theorem r1_pay1_apply (y : S2048x512.Idx) : (k1_pay1 (F := Ideal) : FVec Ideal S2048x512 .f32) y = 0 := by
  unfold k1_pay1
  rw [shapeCast_self]
  exact Ideal.ofBits_zero_f32

/-- One point's update at an entry: the accumulator's entry plus the inner sum over the point's two blocks (the
    change of float format before the product is the identity on extended reals). -/
theorem r1_pay2_apply (x0 : Vec Ideal S2048x1024 .f32) (x1 : Vec Ideal S1024x512 .f32) (s : Vec Ideal S2048x512 .f32)
    (a : Fin 2048) (b : Fin 512) :
    (k1_pay2 (F := Ideal) x0 x1 s : FVec Ideal S2048x512 .f32) (ix2 a b) = s (ix2 a b) + ∑ κ : Fin 1024, x0 (ix2 a κ) * x1 (ix2 κ b) := by
  unfold k1_pay2
  rw [shapeCast_self, shapeCast_self]
  refine (congrArg (s (ix2 a b) + ·) (r1_mm_apply (truncf .bf16 x0 bitsLt_bf16_f32) (truncf .bf16 x1 bitsLt_bf16_f32) a b)).trans ?_
  rfl

/-! ## A sum over 8192 inner indices as eight sums of 1024 -/

/-- Inner index K = 1024 s + κ: summing over the eight blocks s and the 1024 places κ inside a block is summing over K. -/
theorem r1_sum_blocks {M : Type*} [AddCommMonoid M] (f : Fin 8192 → M) :
    ∑ s : Fin 8, ∑ κ : Fin 1024, f ⟨1024 * s.val + κ.val, by have := s.isLt; have := κ.isLt; omega⟩ = ∑ K : Fin 8192, f K := by
  rw [← Fintype.sum_prod_type (f := fun p : Fin 8 × Fin 1024 => f ⟨1024 * p.1.val + p.2.val, by have := p.1.isLt; have := p.2.isLt; omega⟩)]
  exact Fintype.sum_equiv (finProdFinEquiv (m := 8) (n := 1024)) _ _ fun p => congrArg f (Fin.ext (by
    show 1024 * p.1.val + p.2.val = p.2.val + 1024 * p.1.val
    omega))

/-- A host product at an entry, given the contraction's four coordinate facts: the same inner sum, with no accumulator. -/
theorem r1_hostDot_apply {m K n : ℕ} (D : DotDims ⟨2, ![m, K]⟩ ⟨2, ![K, n]⟩ ⟨2, ![m, n]⟩)
    (hr : D.contr.rank = 1) (hs : D.contr.size ⟨0, by omega⟩ = K)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (L : FVec Ideal ⟨2, ![m, K]⟩ .f32) (R : FVec Ideal ⟨2, ![K, n]⟩ .f32) (a : Fin m) (b : Fin n) :
    Host.dotGeneral (F := Ideal) (φ₁ := .f32) (φ₂ := .f32) D none L R (ix2 a b) = ∑ k : Fin K, L (ix2 a k) * R (ix2 k b) := by
  simp only [Host.dotGeneral]
  rw [Ideal.dotGeneral_apply]
  exact r1_dot_sum D hr hs hl0 hl1 hr0 hr1 L R a b

/-! The coordinate facts of the host's product with the four weight matrices side by side (8192 x 256 times 256 x 512), and
    of the reference's two products (8192 x 8192 times 8192 x 128; 8192 x 256 times 256 x 128). -/

theorem r1_hw_l0 (j : S8192x512.Idx) (q : dot_S8192x256_S256x512_S8192x512_1_0_0_1_n_n.contr.Idx) :
    (dot_S8192x256_S256x512_S8192x512_1_0_0_1_n_n.lhsIdx j q 0).val = (j 0).val := by
  unfold DotDims.lhsIdx
  rw [dif_neg (show ¬(0 : Fin S8192x256.rank) ∈ dot_S8192x256_S256x512_S8192x512_1_0_0_1_n_n.lhsBatch by decide), dif_pos (show (0 : Fin S8192x256.rank) ∈ dot_S8192x256_S256x512_S8192x512_1_0_0_1_n_n.lhsNonContracting by decide)]
  rfl
theorem r1_hw_l1 (j : S8192x512.Idx) (q : dot_S8192x256_S256x512_S8192x512_1_0_0_1_n_n.contr.Idx) :
    (dot_S8192x256_S256x512_S8192x512_1_0_0_1_n_n.lhsIdx j q 1).val = (q ⟨0, by decide⟩).val :=
  dot_S8192x256_S256x512_S8192x512_1_0_0_1_n_n.lhsIdx_val_of_single rfl j q
theorem r1_hw_r0 (j : S8192x512.Idx) (q : dot_S8192x256_S256x512_S8192x512_1_0_0_1_n_n.contr.Idx) :
    (dot_S8192x256_S256x512_S8192x512_1_0_0_1_n_n.rhsIdx j q 0).val = (q ⟨0, by decide⟩).val :=
  dot_S8192x256_S256x512_S8192x512_1_0_0_1_n_n.rhsIdx_val_of_single rfl j q
theorem r1_hw_r1 (j : S8192x512.Idx) (q : dot_S8192x256_S256x512_S8192x512_1_0_0_1_n_n.contr.Idx) :
    (dot_S8192x256_S256x512_S8192x512_1_0_0_1_n_n.rhsIdx j q 1).val = (j 1).val := by
  unfold DotDims.rhsIdx
  rw [dif_neg (show ¬(1 : Fin S256x512.rank) ∈ dot_S8192x256_S256x512_S8192x512_1_0_0_1_n_n.rhsBatch by decide), dif_pos (show (1 : Fin S256x512.rank) ∈ dot_S8192x256_S256x512_S8192x512_1_0_0_1_n_n.rhsNonContracting by decide)]
  rfl

theorem r1_ra_l0 (j : Cert.ReferenceIdeal.S8192x128.Idx) (q : Cert.ReferenceIdeal.dot_S8192x8192_S8192x128_S8192x128_1_0_0_1_n_n.contr.Idx) :
    (Cert.ReferenceIdeal.dot_S8192x8192_S8192x128_S8192x128_1_0_0_1_n_n.lhsIdx j q 0).val = (j 0).val := by
  unfold DotDims.lhsIdx
  rw [dif_neg (show ¬(0 : Fin Cert.ReferenceIdeal.S8192x8192.rank) ∈ Cert.ReferenceIdeal.dot_S8192x8192_S8192x128_S8192x128_1_0_0_1_n_n.lhsBatch by decide), dif_pos (show (0 : Fin Cert.ReferenceIdeal.S8192x8192.rank) ∈ Cert.ReferenceIdeal.dot_S8192x8192_S8192x128_S8192x128_1_0_0_1_n_n.lhsNonContracting by decide)]
  rfl
theorem r1_ra_l1 (j : Cert.ReferenceIdeal.S8192x128.Idx) (q : Cert.ReferenceIdeal.dot_S8192x8192_S8192x128_S8192x128_1_0_0_1_n_n.contr.Idx) :
    (Cert.ReferenceIdeal.dot_S8192x8192_S8192x128_S8192x128_1_0_0_1_n_n.lhsIdx j q 1).val = (q ⟨0, by decide⟩).val :=
  Cert.ReferenceIdeal.dot_S8192x8192_S8192x128_S8192x128_1_0_0_1_n_n.lhsIdx_val_of_single rfl j q
theorem r1_ra_r0 (j : Cert.ReferenceIdeal.S8192x128.Idx) (q : Cert.ReferenceIdeal.dot_S8192x8192_S8192x128_S8192x128_1_0_0_1_n_n.contr.Idx) :
    (Cert.ReferenceIdeal.dot_S8192x8192_S8192x128_S8192x128_1_0_0_1_n_n.rhsIdx j q 0).val = (q ⟨0, by decide⟩).val :=
  Cert.ReferenceIdeal.dot_S8192x8192_S8192x128_S8192x128_1_0_0_1_n_n.rhsIdx_val_of_single rfl j q
theorem r1_ra_r1 (j : Cert.ReferenceIdeal.S8192x128.Idx) (q : Cert.ReferenceIdeal.dot_S8192x8192_S8192x128_S8192x128_1_0_0_1_n_n.contr.Idx) :
    (Cert.ReferenceIdeal.dot_S8192x8192_S8192x128_S8192x128_1_0_0_1_n_n.rhsIdx j q 1).val = (j 1).val := by
  unfold DotDims.rhsIdx
  rw [dif_neg (show ¬(1 : Fin Cert.ReferenceIdeal.S8192x128.rank) ∈ Cert.ReferenceIdeal.dot_S8192x8192_S8192x128_S8192x128_1_0_0_1_n_n.rhsBatch by decide), dif_pos (show (1 : Fin Cert.ReferenceIdeal.S8192x128.rank) ∈ Cert.ReferenceIdeal.dot_S8192x8192_S8192x128_S8192x128_1_0_0_1_n_n.rhsNonContracting by decide)]
  rfl

theorem r1_rw_l0 (j : Cert.ReferenceIdeal.S8192x128.Idx) (q : Cert.ReferenceIdeal.dot_S8192x256_S256x128_S8192x128_1_0_0_1_n_n.contr.Idx) :
    (Cert.ReferenceIdeal.dot_S8192x256_S256x128_S8192x128_1_0_0_1_n_n.lhsIdx j q 0).val = (j 0).val := by
  unfold DotDims.lhsIdx
  rw [dif_neg (show ¬(0 : Fin Cert.ReferenceIdeal.S8192x256.rank) ∈ Cert.ReferenceIdeal.dot_S8192x256_S256x128_S8192x128_1_0_0_1_n_n.lhsBatch by decide), dif_pos (show (0 : Fin Cert.ReferenceIdeal.S8192x256.rank) ∈ Cert.ReferenceIdeal.dot_S8192x256_S256x128_S8192x128_1_0_0_1_n_n.lhsNonContracting by decide)]
  rfl
theorem r1_rw_l1 (j : Cert.ReferenceIdeal.S8192x128.Idx) (q : Cert.ReferenceIdeal.dot_S8192x256_S256x128_S8192x128_1_0_0_1_n_n.contr.Idx) :
    (Cert.ReferenceIdeal.dot_S8192x256_S256x128_S8192x128_1_0_0_1_n_n.lhsIdx j q 1).val = (q ⟨0, by decide⟩).val :=
  Cert.ReferenceIdeal.dot_S8192x256_S256x128_S8192x128_1_0_0_1_n_n.lhsIdx_val_of_single rfl j q
theorem r1_rw_r0 (j : Cert.ReferenceIdeal.S8192x128.Idx) (q : Cert.ReferenceIdeal.dot_S8192x256_S256x128_S8192x128_1_0_0_1_n_n.contr.Idx) :
    (Cert.ReferenceIdeal.dot_S8192x256_S256x128_S8192x128_1_0_0_1_n_n.rhsIdx j q 0).val = (q ⟨0, by decide⟩).val :=
  Cert.ReferenceIdeal.dot_S8192x256_S256x128_S8192x128_1_0_0_1_n_n.rhsIdx_val_of_single rfl j q
theorem r1_rw_r1 (j : Cert.ReferenceIdeal.S8192x128.Idx) (q : Cert.ReferenceIdeal.dot_S8192x256_S256x128_S8192x128_1_0_0_1_n_n.contr.Idx) :
    (Cert.ReferenceIdeal.dot_S8192x256_S256x128_S8192x128_1_0_0_1_n_n.rhsIdx j q 1).val = (j 1).val := by
  unfold DotDims.rhsIdx
  rw [dif_neg (show ¬(1 : Fin Cert.ReferenceIdeal.S256x128.rank) ∈ Cert.ReferenceIdeal.dot_S8192x256_S256x128_S8192x128_1_0_0_1_n_n.rhsBatch by decide), dif_pos (show (1 : Fin Cert.ReferenceIdeal.S256x128.rank) ∈ Cert.ReferenceIdeal.dot_S8192x256_S256x128_S8192x128_1_0_0_1_n_n.rhsNonContracting by decide)]
  rfl

/-! ## Four matrices side by side, read at an entry -/

/-- Column `off + q` of matrices laid side by side along the columns, where `off` is the total width of the pieces
    before piece `k`, is column `q` of piece `k`. -/
theorem r1_cat_piece (xs : List ((s : Shape) × (s.Idx → EReal))) (h : Shape.Concatenates (xs.map (·.1)) S256x512 1)
    (k : ℕ) (hk : k < xs.length) (w : S256x128.Idx → EReal) (hxk : xs[k] = ⟨S256x128, w⟩) (off : ℕ)
    (hpre : (((xs.take k).map (·.1)).map fun s => if h : s.rank = S256x512.rank then s.size ((1 : Fin S256x512.rank).cast h.symm) else 0).sum = off)
    (l : Fin 256) (q : Fin 128) (hq : off + q.val < 512) :
    concatenate S256x512 1 xs h (ix2 l ⟨off + q.val, hq⟩) = w (ix2 l q) :=
  concatenate_apply_piece (1 : Fin S256x512.rank) xs h (ix2 l ⟨off + q.val, hq⟩) k hk S256x128 w hxk rfl off hpre (ix2 l q)
    (fun b hb => by
      match b with
      | ⟨0, _⟩ => rfl
      | ⟨1, _⟩ => exact absurd rfl hb)
    rfl

variable (V : (c : Dev nD) → (b : Ref sig .tc) → Buf (Elt Ideal) ((c : Thread nD τ).loc b))

/-- Region 1's result array after the region, as a 8192 x 512 matrix of extended reals. -/
abbrev out1 (c : Dev nD) : (⟨S8192x512, .f32⟩ : BufTy).Contents (Elt Ideal) := (dat1 V c).arrAt 2 cfg1.N

/-- The reference's two-step product for one weight matrix: the adjacency matrix times (the hidden layer times the weights). -/
abbrev refProd (adj : (⟨Cert.ReferenceIdeal.S8192x8192, .f32⟩ : BufTy).Contents (Elt Ideal)) (h1 : (⟨Cert.ReferenceIdeal.S8192x256, .f32⟩ : BufTy).Contents (Elt Ideal)) (w : (⟨Cert.ReferenceIdeal.S256x128, .f32⟩ : BufTy).Contents (Elt Ideal)) :
    (⟨Cert.ReferenceIdeal.S8192x128, .f32⟩ : BufTy).Contents (Elt Ideal) :=
  Host.dotGeneral (F := Ideal) (φ₁ := .f32) (φ₂ := .f32) Cert.ReferenceIdeal.dot_S8192x8192_S8192x128_S8192x128_1_0_0_1_n_n none adj
    (Host.dotGeneral (F := Ideal) (φ₁ := .f32) (φ₂ := .f32) Cert.ReferenceIdeal.dot_S8192x256_S256x128_S8192x128_1_0_0_1_n_n none h1 w)

/-! ## The blocks a point reads, as entries of the two arrays -/

/-- The adjacency matrix and the region's right operand (the hidden layer times the four weight matrices side by
    side) as the region finds them, and the two blocks point `t` reads of them. -/
abbrev r1_adj (c : Dev nD) : Vec Ideal S8192x8192 .f32 := V c main_arg1
abbrev r1_rhs (c : Dev nD) : Vec Ideal S8192x512 .f32 := V c main_v3
abbrev r1_blk0 (c : Dev nD) (t : Fin cfg1.N) : Vec Ideal S2048x1024 .f32 := iblk1 V c 0 t
abbrev r1_blk1 (c : Dev nD) (t : Fin cfg1.N) : Vec Ideal S1024x512 .f32 := iblk1 V c 1 t

/-- The block indices at point `t = 8 i + k`: the adjacency block is (i, k), the right operand's block is (k, 0), the
    result's block is (i, 0). Decided over the 32 points. -/
theorem r1_idx : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Entry (a, κ) of the adjacency block at point `t` is the matrix's entry (2048 (t / 8) + a, 1024 (t % 8) + κ). -/
theorem r1_blk0_apply (c : Dev nD) (t : Fin cfg1.N) (a : Fin 2048) (κ : Fin 1024) (k : S8192x8192.Idx)
    (h0 : (k 0).val = 2048 * (t.val / 8) + a.val) (h1 : (k 1).val = 1024 * (t.val % 8) + κ.val) :
    r1_blk0 V c t (ix2 a κ) = r1_adj V c k := by
  obtain ⟨e0, e1, -⟩ := r1_idx t
  show V c main_arg1 (((cfg1.win 0).blk t).view.emb (ix2 a κ)) = V c main_arg1 k
  refine congrArg (V c main_arg1) (funext fun d => Fin.ext ?_)
  match d with
  | ⟨0, _⟩ => show win1_0.index t (0 : Fin 2) * 2048 + 1 * a.val = (k 0).val; rw [e0, h0]; omega
  | ⟨1, _⟩ => show win1_0.index t (1 : Fin 2) * 1024 + 1 * κ.val = (k 1).val; rw [e1, h1]; omega

/-- Entry (κ, b) of the right operand's block at point `t` is the operand's entry (1024 (t % 8) + κ, b). -/
theorem r1_blk1_apply (c : Dev nD) (t : Fin cfg1.N) (κ : Fin 1024) (b : Fin 512) (k : S8192x512.Idx)
    (h0 : (k 0).val = 1024 * (t.val % 8) + κ.val) (h1 : (k 1).val = b.val) :
    r1_blk1 V c t (ix2 κ b) = r1_rhs V c k := by
  obtain ⟨-, -, e2, e3, -⟩ := r1_idx t
  show V c main_v3 (((cfg1.win 1).blk t).view.emb (ix2 κ b)) = V c main_v3 k
  refine congrArg (V c main_v3) (funext fun d => Fin.ext ?_)
  match d with
  | ⟨0, _⟩ => show win1_1.index t (0 : Fin 2) * 1024 + 1 * κ.val = (k 0).val; rw [e2, h0]; omega
  | ⟨1, _⟩ => show win1_1.index t (1 : Fin 2) * 512 + 1 * b.val = (k 1).val; rw [e3, h1]; omega

/-! ## The accumulator after each point of a run along the inner grid axis -/

/-- What the point at place `s` of row block `i` adds at entry (a, b): the inner sum over the 1024 indices
    `1024 s … 1024 s + 1023` of row `2048 i + a` of the adjacency matrix against column `b` of the right operand. -/
def r1_part (c : Dev nD) (i : ℕ) (hi : i < 4) (s : ℕ) (hs : s < 8) (a : Fin 2048) (b : Fin 512) : EReal :=
  ∑ κ : Fin 1024,
    (r1_adj V c (ix2 (n0 := 8192) (n1 := 8192) ⟨2048 * i + a.val, by have := a.isLt; omega⟩ ⟨1024 * s + κ.val, by have := κ.isLt; omega⟩) : EReal)
      * (r1_rhs V c (ix2 (n0 := 8192) (n1 := 512) ⟨1024 * s + κ.val, by have := κ.isLt; omega⟩ b) : EReal)

/-- Where a run along the inner axis begins the accumulator is the point's update of the cleared one; -/
theorem r1_acc_reset (c : Dev nD) (n : ℕ) (h : n % 8 = 0) : acc1 V c n = step1 V c n (k1_pay1 (F := Ideal)) := by
  cases n with
  | zero => rw [acc1]
  | succ n => rw [acc1, if_pos h]

/-- elsewhere it is the point's update of what the point before left. -/
theorem r1_acc_step (c : Dev nD) (n : ℕ) (h : ¬(n + 1) % 8 = 0) : acc1 V c (n + 1) = step1 V c (n + 1) (acc1 V c n) := by
  rw [acc1, if_neg h]

/-- One point's update at an entry, through the two arrays: the accumulator's entry plus the point's partial inner sum. -/
theorem r1_step_apply (c : Dev nD) (i : ℕ) (hi : i < 4) (s : ℕ) (hs : s < 8) (acc : Vec Ideal S2048x512 .f32) (a : Fin 2048) (b : Fin 512) :
    step1 V c (8 * i + s) acc (ix2 a b) = acc (ix2 a b) + r1_part V c i hi s hs a b := by
  have h : 8 * i + s < cfg1.N := by show 8 * i + s < grid1.N; rw [N_1]; omega
  unfold step1
  rw [dif_pos h]
  refine (r1_pay2_apply (r1_blk0 V c ⟨8 * i + s, h⟩) (r1_blk1 V c ⟨8 * i + s, h⟩) acc a b).trans ?_
  refine congrArg (acc (ix2 a b) + ·) ?_
  unfold r1_part
  refine Finset.sum_congr rfl fun κ _ => ?_
  refine congrArg₂ (· * ·) (r1_blk0_apply V c ⟨8 * i + s, h⟩ a κ _ ?_ ?_) (r1_blk1_apply V c ⟨8 * i + s, h⟩ κ b _ ?_ ?_)
  · show 2048 * i + a.val = 2048 * ((8 * i + s) / 8) + a.val; omega
  · show 1024 * s + κ.val = 1024 * ((8 * i + s) % 8) + κ.val; omega
  · show 1024 * s + κ.val = 1024 * ((8 * i + s) % 8) + κ.val; omega
  · rfl

/-- After the point at place `k` of row block `i`'s run the accumulator holds the partial sums of places `0 … k`. -/
theorem r1_acc_apply (c : Dev nD) (i : ℕ) (hi : i < 4) (a : Fin 2048) (b : Fin 512) : ∀ (k : ℕ), k < 8 →
    acc1 V c (8 * i + k) (ix2 a b) = ∑ s ∈ Finset.range (k + 1), (if hs : s < 8 then r1_part V c i hi s hs a b else 0)
  | 0, hk => by
    rw [r1_acc_reset V c (8 * i + 0) (by omega), r1_step_apply V c i hi 0 hk, r1_pay1_apply, zero_add, Finset.sum_range_one, dif_pos hk]
  | k + 1, hk => by
    rw [show 8 * i + (k + 1) = (8 * i + k) + 1 from rfl, r1_acc_step V c (8 * i + k) (by omega),
      show (8 * i + k) + 1 = 8 * i + (k + 1) from rfl, r1_step_apply V c i hi (k + 1) hk,
      r1_acc_apply c i hi a b k (by omega), Finset.sum_range_succ _ (k + 1), dif_pos hk]

/-- The region's result as one function of the two arrays: entry (p, q) is the sum over all 8192 inner indices K
    of the adjacency matrix at (p, K) times the right operand at (K, q). -/
def r1_G (c : Dev nD) : Vec Ideal S8192x512 .f32 := fun k =>
  ∑ K : Fin 8192, (r1_adj V c (ix2 (n0 := 8192) (n1 := 8192) (k 0) K) : EReal) * (r1_rhs V c (ix2 (n0 := 8192) (n1 := 512) K (k 1)) : EReal)

/-- After the last point of row block `i`'s run the accumulator is rows `2048 i …` of that function: the eight partial
    sums of 1024 terms are the sum over all 8192 inner indices. -/
theorem r1_acc_last (c : Dev nD) (i : ℕ) (hi : i < 4) (a : Fin 2048) (b : Fin 512) :
    acc1 V c (8 * i + 7) (ix2 a b) = r1_G V c (ix2 ⟨2048 * i + a.val, by have := a.isLt; omega⟩ b) := by
  rw [r1_acc_apply V c i hi a b 7 (by omega)]
  show ∑ s ∈ Finset.range 8, _ = _
  rw [Finset.sum_range]
  unfold r1_G
  rw [← r1_sum_blocks]
  refine Finset.sum_congr rfl fun s _ => ?_
  rw [dif_pos s.isLt]
  rfl

/-- The accumulator at a point `t` that ends a run (`t % 8 = 7`), at an entry of its block, is that function at the
    entry of the array under it: row block `t / 8`, same column. -/
theorem r1_acc_flush (c : Dev nD) (t : Fin cfg1.N) (h7 : t.val % 8 = 7) (y : S2048x512.Idx) (k : S8192x512.Idx)
    (h0 : (k 0).val = 2048 * (t.val / 8) + (y 0).val) (h1 : (k 1).val = (y 1).val) :
    acc1 V c t.val y = r1_G V c k := by
  have ht : t.val < 32 := lt_of_lt_of_eq t.isLt N_1
  obtain ⟨a, b, rfl⟩ : ∃ (a : Fin 2048) (b : Fin 512), y = ix2 a b := ⟨y 0, y 1, eq_ix2 y⟩
  have hb : 2048 * (t.val / 8) + a.val < 8192 := by have := a.isLt; omega
  have hk : k = ix2 ⟨2048 * (t.val / 8) + a.val, hb⟩ b := Shape.idx_ext₂ h0 h1
  rw [hk]
  have e : t.val = 8 * (t.val / 8) + 7 := by omega
  exact (congrArg (fun n => acc1 V c n (ix2 a b)) e).trans (r1_acc_last V c (t.val / 8) (by omega) a b)

/-! ## From the blocks written back to the array -/

/-- What a point that ends a run writes back is its block of that one function of the two arrays. -/
theorem r1_flushed_eq (c : Dev nD) (t : Fin cfg1.N) (hf : (cfg1.win 2).flush t = true) :
    (dat1 V c).flushed 2 t = ((cfg1.win 2).blk t).view.read (Elt Ideal) (r1_G V c) := by
  have h7 : t.val % 8 = 7 := (flush1_2 t).mp hf
  obtain ⟨-, -, -, -, e4, e5⟩ := r1_idx t
  show (cfg1.win 2).cut (grid1.coords t) ((dat1 V c).after 2 t) = _
  rw [after1_2]
  funext y
  show acc1 V c t.val y = r1_G V c (((cfg1.win 2).blk t).view.emb y)
  refine r1_acc_flush V c t h7 y _ ?_ ?_
  · show win1_2.index t (0 : Fin 2) * 2048 + 1 * (y 0).val = 2048 * (t.val / 8) + (y 0).val
    rw [e4]; omega
  · show win1_2.index t (1 : Fin 2) * 512 + 1 * (y 1).val = (y 1).val
    rw [e5]; omega

/-- An entry of the array lies in point `t`'s block when each coordinate lies in the block's range on its axis. -/
theorem r1_mem_blk (t : Fin cfg1.N) (i : S8192x512.Idx) :
    i ∈ ((cfg1.win 2).blk t).view.set ↔ ∀ a : Fin 2, win1_2.index t a * S2048x512.size a ≤ (i a).val ∧ (i a).val < win1_2.index t a * S2048x512.size a + S2048x512.size a := by
  show i ∈ ((View.whole main_v4).slice (win1_2.rect t)).set ↔ _
  rw [View.set_slice_whole, Rect.mem_set_unit]
  exact Iff.rfl

/-- Every entry (p, q) of the array is in the block written back by the last point of row block `p / 2048`'s run. -/
theorem r1_cover (i : S8192x512.Idx) : ∃ t : Fin cfg1.N, (cfg1.win 2).flush t = true ∧ i ∈ ((cfg1.win 2).blk t).view.set := by
  have h0 : (i 0).val < 8192 := idx2_lt0 i
  have h1 : (i 1).val < 512 := idx2_lt1 i
  have hN : 8 * ((i 0).val / 2048) + 7 < cfg1.N := by show _ < grid1.N; rw [N_1]; omega
  refine ⟨⟨8 * ((i 0).val / 2048) + 7, hN⟩, (flush1_2 _).mpr (by show (8 * ((i 0).val / 2048) + 7) % 8 = 7; omega), ?_⟩
  obtain ⟨-, -, -, -, e4, e5⟩ := r1_idx ⟨8 * ((i 0).val / 2048) + 7, hN⟩
  have e4' : win1_2.index ⟨8 * ((i 0).val / 2048) + 7, hN⟩ (0 : Fin 2) = (8 * ((i 0).val / 2048) + 7) / 8 := e4
  rw [r1_mem_blk]
  intro a
  match a with
  | ⟨0, _⟩ =>
    show win1_2.index ⟨8 * ((i 0).val / 2048) + 7, hN⟩ (0 : Fin 2) * 2048 ≤ (i 0).val ∧ (i 0).val < win1_2.index ⟨8 * ((i 0).val / 2048) + 7, hN⟩ (0 : Fin 2) * 2048 + 2048
    rw [e4']; omega
  | ⟨1, _⟩ =>
    show win1_2.index ⟨8 * ((i 0).val / 2048) + 7, hN⟩ (1 : Fin 2) * 512 ≤ (i 1).val ∧ (i 1).val < win1_2.index ⟨8 * ((i 0).val / 2048) + 7, hN⟩ (1 : Fin 2) * 512 + 512
    rw [e5]; omega

/-- So the region's result array ends holding that function. -/
theorem r1_final (c : Dev nD) : out1 V c = r1_G V c :=
  (dat1 V c).arrAt_eq_of_cover 2 (r1_G V c) (fun t hf => r1_flushed_eq V c t hf) r1_cover

/-! ## A column slice of the result is the reference's two-step product with one weight matrix -/

/-- Columns `off … off + 127` of the region's result, when those columns of the side-by-side weight matrix are the
    matrix `w`: entry (p, q) is the sum over K of the adjacency matrix at (p, K) times the sum over l of the hidden
    layer at (K, l) times `w` at (l, q), on both sides. -/
theorem r1_slice (c : Dev nD) (Wcat : FVec Ideal S256x512 .f32) (w : FVec Ideal S256x128 .f32)
    (hv3 : (V c main_v3 : FVec Ideal S8192x512 .f32) = Host.dotGeneral (F := Ideal) (φ₁ := .f32) (φ₂ := .f32) dot_S8192x256_S256x512_S8192x512_1_0_0_1_n_n none (V c main_v1) Wcat)
    (off : ℕ) (hoff : off + 128 ≤ 512) (hs : S8192x512.Slices ![0, off] S8192x128)
    (hW : ∀ (l : Fin 256) (q : Fin 128), Wcat (ix2 l ⟨off + q.val, by have := q.isLt; omega⟩) = w (ix2 l q)) :
    (extractStridedSlice S8192x128 ![0, off] (out1 V c) hs : (⟨S8192x128, .f32⟩ : BufTy).Contents (Elt Ideal)) = refProd (V c main_arg1) (V c main_v1) w := by
  funext j
  obtain ⟨p, q, rfl⟩ : ∃ (p : Fin 8192) (q : Fin 128), j = ix2 p q := ⟨j 0, j 1, eq_ix2 j⟩
  have hq : off + q.val < 512 := by have := q.isLt; omega
  rw [extractStridedSlice_apply ![0, off] (out1 V c) hs (ix2 p q) (ix2 p ⟨off + q.val, hq⟩) (fun a => by
    match a with
    | ⟨0, _⟩ => show p.val = 0 + p.val; omega
    | ⟨1, _⟩ => rfl)]
  rw [r1_final]
  refine Eq.trans ?_ (r1_hostDot_apply Cert.ReferenceIdeal.dot_S8192x8192_S8192x128_S8192x128_1_0_0_1_n_n rfl rfl r1_ra_l0 r1_ra_l1 r1_ra_r0 r1_ra_r1 _ _ p q).symm
  unfold r1_G
  refine Finset.sum_congr rfl fun K _ => ?_
  refine congrArg ((r1_adj V c (ix2 p K) : EReal) * ·) ?_
  have e : @Eq EReal (r1_rhs V c (ix2 K ⟨off + q.val, hq⟩))
      (Host.dotGeneral (F := Ideal) (φ₁ := .f32) (φ₂ := .f32) dot_S8192x256_S256x512_S8192x512_1_0_0_1_n_n none (V c main_v1) Wcat (ix2 K ⟨off + q.val, hq⟩)) :=
    congrFun hv3 _
  refine e.trans ?_
  rw [r1_hostDot_apply dot_S8192x256_S256x512_S8192x512_1_0_0_1_n_n rfl rfl r1_hw_l0 r1_hw_l1 r1_hw_r0 r1_hw_r1,
    r1_hostDot_apply Cert.ReferenceIdeal.dot_S8192x256_S256x128_S8192x128_1_0_0_1_n_n rfl rfl r1_rw_l0 r1_rw_l1 r1_rw_r0 r1_rw_r1]
  exact Finset.sum_congr rfl fun l _ => by rw [hW]

/-- The four 128-column slices of region 1's result are the four separate two-step products of the reference. -/
theorem val1_slices (c : Dev nD)
    (hv3 : (V c main_v3 : (⟨S8192x512, .f32⟩ : BufTy).Contents (Elt Ideal)) = Host.dotGeneral (F := Ideal) (φ₁ := .f32) (φ₂ := .f32) dot_S8192x256_S256x512_S8192x512_1_0_0_1_n_n none (V c main_v1)
      (concatenate S256x512 1 [⟨S256x128, V c main_arg3⟩, ⟨S256x128, V c main_arg4⟩, ⟨S256x128, V c main_arg5⟩, ⟨S256x128, V c main_arg6⟩]
        concatenates_S256x128_S256x128_S256x128_S256x128_S256x512_d1)) :
    (extractStridedSlice S8192x128 ![0, 0] (out1 V c) slices_S8192x512_S8192x128_0_0 : (⟨S8192x128, .f32⟩ : BufTy).Contents (Elt Ideal)) = refProd (V c main_arg1) (V c main_v1) (V c main_arg3)
    ∧ (extractStridedSlice S8192x128 ![0, 128] (out1 V c) slices_S8192x512_S8192x128_0_128 : (⟨S8192x128, .f32⟩ : BufTy).Contents (Elt Ideal)) = refProd (V c main_arg1) (V c main_v1) (V c main_arg4)
    ∧ (extractStridedSlice S8192x128 ![0, 256] (out1 V c) slices_S8192x512_S8192x128_0_256 : (⟨S8192x128, .f32⟩ : BufTy).Contents (Elt Ideal)) = refProd (V c main_arg1) (V c main_v1) (V c main_arg5)
    ∧ (extractStridedSlice S8192x128 ![0, 384] (out1 V c) slices_S8192x512_S8192x128_0_384 : (⟨S8192x128, .f32⟩ : BufTy).Contents (Elt Ideal)) = refProd (V c main_arg1) (V c main_v1) (V c main_arg6) := by
  refine ⟨r1_slice V c _ _ hv3 0 (by omega) _ fun l q => ?_, r1_slice V c _ _ hv3 128 (by omega) _ fun l q => ?_,
    r1_slice V c _ _ hv3 256 (by omega) _ fun l q => ?_, r1_slice V c _ _ hv3 384 (by omega) _ fun l q => ?_⟩
  · exact r1_cat_piece _ _ 0 (by show _ < 4; omega) _ rfl 0 rfl l q _
  · exact r1_cat_piece _ _ 1 (by show _ < 4; omega) _ rfl 128 rfl l q _
  · exact r1_cat_piece _ _ 2 (by show _ < 4; omega) _ rfl 256 rfl l q _
  · exact r1_cat_piece _ _ 3 (by show _ < 4; omega) _ rfl 384 rfl l q _

end Cert.KernelIdeal.Val

end
-- ==== Proof.KI.Val2.lean ====
/-
  The value of region 2 over the extended reals: entry `(p, q)` of the result is the inner product of rows `p` and
  `q` of the latent matrix, which is what the host's product of the matrix with its transpose holds there.
-/
import proofs.«181997_j36361193128417_1_alg».proof.Proof.KI.Reg2
import proofs.«181997_j36361193128417_1_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

/-! ## The block product at an index -/

/-- On the left block's row axis the product reads the result's row. -/
theorem r2_lhs_0 (i : S2048x2048.Idx) (q : dot_S2048x128_S2048x128_S2048x2048_1_1_0_0_n_n.contr.Idx) :
    (dot_S2048x128_S2048x128_S2048x2048_1_1_0_0_n_n.lhsIdx i q 0).val = (i 0).val := by
  unfold DotDims.lhsIdx
  rw [dif_neg (show ¬(0 : Fin S2048x128.rank) ∈ dot_S2048x128_S2048x128_S2048x2048_1_1_0_0_n_n.lhsBatch by decide), dif_pos (show (0 : Fin S2048x128.rank) ∈ dot_S2048x128_S2048x128_S2048x2048_1_1_0_0_n_n.lhsNonContracting by decide)]
  rfl
/-- On the left block's column axis it reads the summation index. -/
theorem r2_lhs_1 (i : S2048x2048.Idx) (q : dot_S2048x128_S2048x128_S2048x2048_1_1_0_0_n_n.contr.Idx) :
    (dot_S2048x128_S2048x128_S2048x2048_1_1_0_0_n_n.lhsIdx i q 1).val = (q ⟨0, by decide⟩).val :=
  dot_S2048x128_S2048x128_S2048x2048_1_1_0_0_n_n.lhsIdx_val_of_single rfl i q
/-- On the right block's row axis it reads the result's column. -/
theorem r2_rhs_0 (i : S2048x2048.Idx) (q : dot_S2048x128_S2048x128_S2048x2048_1_1_0_0_n_n.contr.Idx) :
    (dot_S2048x128_S2048x128_S2048x2048_1_1_0_0_n_n.rhsIdx i q 0).val = (i 1).val := by
  unfold DotDims.rhsIdx
  rw [dif_neg (show ¬(0 : Fin S2048x128.rank) ∈ dot_S2048x128_S2048x128_S2048x2048_1_1_0_0_n_n.rhsBatch by decide), dif_pos (show (0 : Fin S2048x128.rank) ∈ dot_S2048x128_S2048x128_S2048x2048_1_1_0_0_n_n.rhsNonContracting by decide)]
  rfl
/-- On the right block's column axis it reads the summation index. -/
theorem r2_rhs_1 (i : S2048x2048.Idx) (q : dot_S2048x128_S2048x128_S2048x2048_1_1_0_0_n_n.contr.Idx) :
    (dot_S2048x128_S2048x128_S2048x2048_1_1_0_0_n_n.rhsIdx i q 1).val = (q ⟨0, by decide⟩).val :=
  dot_S2048x128_S2048x128_S2048x2048_1_1_0_0_n_n.rhsIdx_val_of_single rfl i q

/-- Entry `(r, s)` of the block product is the inner product of row `r` of the first block and row `s` of the second:
    the casts to the narrower format change nothing over the extended reals and the accumulator starts at zero. -/
theorem r2_pay_apply (x0 x1 : Vec Ideal S2048x128 .f32) (j : S2048x2048.Idx) :
    k2_pay1 x0 x1 j = ∑ k : Fin 128, x0 (ix2 (n0 := 2048) (n1 := 128) (j 0) k) * x1 (ix2 (n0 := 2048) (n1 := 128) (j 1) k) := by
  unfold k2_pay1
  simp only [matmul]
  rw [shapeCast_self, shapeCast_self]
  rw [Ideal.matmul_constant_zero_apply, ← Equiv.sum_comp (contrEquiv1 dot_S2048x128_S2048x128_S2048x2048_1_1_0_0_n_n 128 rfl rfl).symm]
  refine Finset.sum_congr rfl fun k _ => ?_
  have hk := contrEquiv1_symm_val dot_S2048x128_S2048x128_S2048x2048_1_1_0_0_n_n 128 rfl rfl k
  have el : dot_S2048x128_S2048x128_S2048x2048_1_1_0_0_n_n.lhsIdx j ((contrEquiv1 dot_S2048x128_S2048x128_S2048x2048_1_1_0_0_n_n 128 rfl rfl).symm k) = ix2 (j 0) k := funext fun a => Fin.ext (by
    match a with
    | ⟨0, _⟩ => exact r2_lhs_0 _ _
    | ⟨1, _⟩ => exact (r2_lhs_1 _ _).trans hk)
  have er : dot_S2048x128_S2048x128_S2048x2048_1_1_0_0_n_n.rhsIdx j ((contrEquiv1 dot_S2048x128_S2048x128_S2048x2048_1_1_0_0_n_n 128 rfl rfl).symm k) = ix2 (j 1) k := funext fun a => Fin.ext (by
    match a with
    | ⟨0, _⟩ => exact r2_rhs_0 _ _
    | ⟨1, _⟩ => exact (r2_rhs_1 _ _).trans hk)
  rw [el, er]
  rfl

/-! ## What a point writes back -/

/-- The whole result as one function of the latent matrix `u`: entry `(p, q)` is the inner product of rows `p` and `q`. -/
def r2_G (u : S8192x128.Idx → Elt Ideal .f32) : S8192x8192.Idx → Elt Ideal .f32 :=
  fun i => ∑ k : Fin 128, u (ix2 (i 0) k) * u (ix2 (i 1) k)

/-- The printed index maps over the grid: the first input window walks the row blocks with the result's row block, the
    second with the result's column block, neither moves along the columns of the latent matrix, and the result's block
    indices stay below four. -/
theorem r2_idx_facts : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 3
    ∧ win2_2.index t (1 : Fin 2) ≤ 3 :=
  (by decide +kernel : ∀ t : Fin grid2.N, _)

/-- Every pair of block indices is some point's. -/
theorem r2_idx_onto : ∀ (q0 q1 : Fin 4), ∃ t : Fin cfg2.N, win2_2.index t = ![q0.val, q1.val] :=
  (by decide +kernel : ∀ (q0 q1 : Fin 4), ∃ t : Fin grid2.N, win2_2.index t = ![q0.val, q1.val])

section Blocks

variable (V : (c : Dev nD) → (b : Ref sig .tc) → Buf (Elt Ideal) ((c : Thread nD τ).loc b))

/-- The first input block at a point holds, at row `r` and column `k`, the latent matrix at the row `r` of the result's
    row block and the same column. -/
theorem r2_iblk0_apply (c : Dev nD) (t : Fin cfg2.N) (r : Fin 2048) (k : Fin 128) (p : S8192x128.Idx)
    (h0 : (p 0).val = win2_2.index t (0 : Fin 2) * 2048 + r.val) (h1 : (p 1).val = k.val) :
    iblk2 V c 0 t (ix2 (n0 := 2048) (n1 := 128) r k) = V c main_v62 p := by
  obtain ⟨e0, e1, e2, e3, e4, e5⟩ := r2_idx_facts t
  unfold iblk2
  rw [View.read_apply]
  show V c main_v62 (((cfg2.win 0).blk t).view.emb (ix2 (n0 := 2048) (n1 := 128) r k)) = V c main_v62 p
  refine congrArg (V c main_v62) (funext fun a => Fin.ext ?_)
  match a with
  | ⟨0, _⟩ => show win2_0.index t (0 : Fin 2) * 2048 + 1 * r.val = (p 0).val; omega
  | ⟨1, _⟩ => show win2_0.index t (1 : Fin 2) * 128 + 1 * k.val = (p 1).val; omega

/-- The second input block at a point holds, at row `s` and column `k`, the latent matrix at the row `s` of the result's
    column block and the same column. -/
theorem r2_iblk1_apply (c : Dev nD) (t : Fin cfg2.N) (s : Fin 2048) (k : Fin 128) (p : S8192x128.Idx)
    (h0 : (p 0).val = win2_2.index t (1 : Fin 2) * 2048 + s.val) (h1 : (p 1).val = k.val) :
    iblk2 V c 1 t (ix2 (n0 := 2048) (n1 := 128) s k) = V c main_v62 p := by
  obtain ⟨e0, e1, e2, e3, e4, e5⟩ := r2_idx_facts t
  unfold iblk2
  rw [View.read_apply]
  show V c main_v62 (((cfg2.win 1).blk t).view.emb (ix2 (n0 := 2048) (n1 := 128) s k)) = V c main_v62 p
  refine congrArg (V c main_v62) (funext fun a => Fin.ext ?_)
  match a with
  | ⟨0, _⟩ => show win2_1.index t (0 : Fin 2) * 2048 + 1 * s.val = (p 0).val; omega
  | ⟨1, _⟩ => show win2_1.index t (1 : Fin 2) * 128 + 1 * k.val = (p 1).val; omega

/-- WHAT POINT `t` WRITES BACK is block `t` of the matrix of inner products of the latent matrix's rows. -/
theorem r2_flushed_eq (c : Dev nD) (t : Fin cfg2.N) :
    (dat2 V c).flushed 2 t = ((cfg2.win 2).blk t).view.read (Elt Ideal) (r2_G (V c main_v62)) := by
  show (cfg2.win 2).cut (grid2.coords t) ((dat2 V c).after 2 t) = _
  rw [after2_2]
  unfold out2_2
  funext j
  rw [View.read_apply]
  show k2_pay1 (iblk2 V c 0 t) (iblk2 V c 1 t) ((cfg2.win 2).xinj (grid2.coords t) j) = r2_G (V c main_v62) (((cfg2.win 2).blk t).view.emb j)
  rw [r2_pay_apply]
  unfold r2_G
  refine Finset.sum_congr rfl fun k _ => ?_
  have h0 : ((((cfg2.win 2).blk t).view.emb j) 0).val = win2_2.index t (0 : Fin 2) * 2048 + (j 0).val := by
    show win2_2.index t (0 : Fin 2) * 2048 + 1 * (j 0).val = _; omega
  have h1 : ((((cfg2.win 2).blk t).view.emb j) 1).val = win2_2.index t (1 : Fin 2) * 2048 + (j 1).val := by
    show win2_2.index t (1 : Fin 2) * 2048 + 1 * (j 1).val = _; omega
  exact congrArg₂ (· * ·)
    (r2_iblk0_apply V c t ⟨(j 0).val, (j 0).isLt⟩ k (ix2 ((((cfg2.win 2).blk t).view.emb j) 0) k) h0 rfl)
    (r2_iblk1_apply V c t ⟨(j 1).val, (j 1).isLt⟩ k (ix2 ((((cfg2.win 2).blk t).view.emb j) 1) k) h1 rfl)

/-- An index of the result is in point `t`'s block iff each coordinate is in the block's range on its axis. -/
theorem r2_mem_blk (t : Fin cfg2.N) (i : S8192x8192.Idx) :
    i ∈ ((cfg2.win 2).blk t).view.set ↔ ∀ a : Fin 2, win2_2.index t a * S2048x2048.size a ≤ (i a).val ∧ (i a).val < win2_2.index t a * S2048x2048.size a + S2048x2048.size a := by
  show i ∈ ((View.whole main_v63).slice (win2_2.rect t)).set ↔ _
  rw [View.set_slice_whole, Rect.mem_set_unit]
  exact Iff.rfl

/-- The sixteen blocks tile the result: every index is in the block of the point whose block indices are the
    quotients of its coordinates by the block's extents. -/
theorem r2_cover (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := r2_idx_onto ⟨(i 0).val / 2048, by omega⟩ ⟨(i 1).val / 2048, by omega⟩
  have q0 : win2_2.index t (0 : Fin 2) = (i 0).val / 2048 := congrFun ht 0
  have q1 : win2_2.index t (1 : Fin 2) = (i 1).val / 2048 := congrFun ht 1
  refine ⟨t, flush2_2 t, ?_⟩
  rw [r2_mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 2048 ≤ (i 1).val ∧ (i 1).val < win2_2.index t (1 : Fin 2) * 2048 + 2048; omega

end Blocks

/-! ## The host's product at an index -/

/-- On the left operand's row axis the host's product reads the result's row. -/
theorem r2_ref_lhs_0 (i : Cert.ReferenceIdeal.S8192x8192.Idx) (q : Cert.ReferenceIdeal.dot_S8192x128_S128x8192_S8192x8192_1_0_0_1_n_n.contr.Idx) :
    (Cert.ReferenceIdeal.dot_S8192x128_S128x8192_S8192x8192_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x8192_S8192x8192_1_0_0_1_n_n.lhsBatch by decide), dif_pos (show (0 : Fin Cert.ReferenceIdeal.S8192x128.rank) ∈ Cert.ReferenceIdeal.dot_S8192x128_S128x8192_S8192x8192_1_0_0_1_n_n.lhsNonContracting by decide)]
  rfl
/-- On the left operand's column axis it reads the summation index. -/
theorem r2_ref_lhs_1 (i : Cert.ReferenceIdeal.S8192x8192.Idx) (q : Cert.ReferenceIdeal.dot_S8192x128_S128x8192_S8192x8192_1_0_0_1_n_n.contr.Idx) :
    (Cert.ReferenceIdeal.dot_S8192x128_S128x8192_S8192x8192_1_0_0_1_n_n.lhsIdx i q 1).val = (q ⟨0, by decide⟩).val :=
  Cert.ReferenceIdeal.dot_S8192x128_S128x8192_S8192x8192_1_0_0_1_n_n.lhsIdx_val_of_single rfl i q
/-- On the right operand's row axis it reads the summation index. -/
theorem r2_ref_rhs_0 (i : Cert.ReferenceIdeal.S8192x8192.Idx) (q : Cert.ReferenceIdeal.dot_S8192x128_S128x8192_S8192x8192_1_0_0_1_n_n.contr.Idx) :
    (Cert.ReferenceIdeal.dot_S8192x128_S128x8192_S8192x8192_1_0_0_1_n_n.rhsIdx i q 0).val = (q ⟨0, by decide⟩).val :=
  Cert.ReferenceIdeal.dot_S8192x128_S128x8192_S8192x8192_1_0_0_1_n_n.rhsIdx_val_of_single rfl i q
/-- On the right operand's column axis it reads the result's column. -/
theorem r2_ref_rhs_1 (i : Cert.ReferenceIdeal.S8192x8192.Idx) (q : Cert.ReferenceIdeal.dot_S8192x128_S128x8192_S8192x8192_1_0_0_1_n_n.contr.Idx) :
    (Cert.ReferenceIdeal.dot_S8192x128_S128x8192_S8192x8192_1_0_0_1_n_n.rhsIdx i q 1).val = (i 1).val := by
  unfold DotDims.rhsIdx
  rw [dif_neg (show ¬(1 : Fin Cert.ReferenceIdeal.S128x8192.rank) ∈ Cert.ReferenceIdeal.dot_S8192x128_S128x8192_S8192x8192_1_0_0_1_n_n.rhsBatch by decide), dif_pos (show (1 : Fin Cert.ReferenceIdeal.S128x8192.rank) ∈ Cert.ReferenceIdeal.dot_S8192x128_S128x8192_S8192x8192_1_0_0_1_n_n.rhsNonContracting by decide)]
  rfl

/-- Entry `(p, q)` of the host's product of a matrix with its transpose is the inner product of rows `p` and `q`: the
    transpose at `(k, q)` is the matrix at `(q, k)`. -/
theorem r2_ref_apply (u : (⟨Cert.ReferenceIdeal.S8192x128, .f32⟩ : BufTy).Contents (Elt Ideal)) (i : Cert.ReferenceIdeal.S8192x8192.Idx) :
    Host.dotGeneral (F := Ideal) (φ₁ := .f32) (φ₂ := .f32) Cert.ReferenceIdeal.dot_S8192x128_S128x8192_S8192x8192_1_0_0_1_n_n none u
        (transpose (α := Elt Ideal .f32) Cert.ReferenceIdeal.S128x8192 [1, 0] u Cert.ReferenceIdeal.Facts₀.transposes_S8192x128_S128x8192_1_0) i
      = ∑ k : Fin 128, u (ix2 (n0 := 8192) (n1 := 128) (i 0) k) * u (ix2 (n0 := 8192) (n1 := 128) (i 1) k) := by
  generalize hy : transpose (α := Elt Ideal .f32) Cert.ReferenceIdeal.S128x8192 [1, 0] u Cert.ReferenceIdeal.Facts₀.transposes_S8192x128_S128x8192_1_0 = y
  simp only [Host.dotGeneral]
  rw [Ideal.dotGeneral_apply, ← Equiv.sum_comp (contrEquiv1 Cert.ReferenceIdeal.dot_S8192x128_S128x8192_S8192x8192_1_0_0_1_n_n 128 rfl rfl).symm]
  refine Finset.sum_congr rfl fun k _ => ?_
  have hk := contrEquiv1_symm_val Cert.ReferenceIdeal.dot_S8192x128_S128x8192_S8192x8192_1_0_0_1_n_n 128 rfl rfl k
  have el : Cert.ReferenceIdeal.dot_S8192x128_S128x8192_S8192x8192_1_0_0_1_n_n.lhsIdx i ((contrEquiv1 Cert.ReferenceIdeal.dot_S8192x128_S128x8192_S8192x8192_1_0_0_1_n_n 128 rfl rfl).symm k) = ix2 (n0 := 8192) (n1 := 128) (i 0) k := funext fun a => Fin.ext (by
    match a with
    | ⟨0, _⟩ => exact r2_ref_lhs_0 _ _
    | ⟨1, _⟩ => exact (r2_ref_lhs_1 _ _).trans hk)
  have er : Cert.ReferenceIdeal.dot_S8192x128_S128x8192_S8192x8192_1_0_0_1_n_n.rhsIdx i ((contrEquiv1 Cert.ReferenceIdeal.dot_S8192x128_S128x8192_S8192x8192_1_0_0_1_n_n 128 rfl rfl).symm k) = ix2 (n0 := 128) (n1 := 8192) k (i 1) := funext fun a => Fin.ext (by
    match a with
    | ⟨0, _⟩ => exact (r2_ref_rhs_0 _ _).trans hk
    | ⟨1, _⟩ => exact r2_ref_rhs_1 _ _)
  rw [el, er, ← hy]
  exact congrArg (u (ix2 (n0 := 8192) (n1 := 128) (i 0) k) * ·)
    (transpose_apply [1, 0] u Cert.ReferenceIdeal.Facts₀.transposes_S8192x128_S128x8192_1_0 (ix2 (n0 := 128) (n1 := 8192) k (i 1)) (ix2 (n0 := 8192) (n1 := 128) (i 1) k)
      (fun b => match b with
        | ⟨0, _⟩ => rfl
        | ⟨1, _⟩ => rfl))

variable (V : (c : Dev nD) → (b : Ref sig .tc) → Buf (Elt Ideal) ((c : Thread nD τ).loc b))

/-- Region 2 leaves in its result array the host's product of the latent matrix with its transpose. -/
theorem val2 (c : Dev nD) :
    ((dat2 V c).arrAt 2 cfg2.N : (⟨S8192x8192, .f32⟩ : BufTy).Contents (Elt Ideal))
      = Host.dotGeneral (F := Ideal) (φ₁ := .f32) (φ₂ := .f32) Cert.ReferenceIdeal.dot_S8192x128_S128x8192_S8192x8192_1_0_0_1_n_n none (V c main_v62)
          (transpose (α := Elt Ideal .f32) Cert.ReferenceIdeal.S128x8192 [1, 0] (V c main_v62 : (⟨Cert.ReferenceIdeal.S8192x128, .f32⟩ : BufTy).Contents (Elt Ideal)) Cert.ReferenceIdeal.Facts₀.transposes_S8192x128_S128x8192_1_0) := by
  refine ((dat2 V c).arrAt_eq_of_cover 2 (r2_G (V c main_v62)) (fun t _ => r2_flushed_eq V c t) r2_cover).trans ?_
  funext i
  exact (r2_ref_apply (V c main_v62) i).symm

end Cert.KernelIdeal.Val

end
-- ==== Proof.KI.Glue.lean ====
/-
  The host operations between the second and the third pallas_call, and the ones before them, read as pure
  functions. After region 1 the host cuts its 8192 x 512 result into four 8192 x 128 column slices (the mean, the
  log-variance, the class mean, the class log-variance) and from them computes, by the same operations in the same
  order as the reference does from its four separate products: the sample `z`, the precision-weighted group mean
  and group log-variance (two segment sums and three row gathers by the group labels), and the latent matrix that
  the last pallas_call multiplies with its own transpose. Each of these is ONE function of the four matrices and the
  arguments; the kernel's buffers hold it at the slices, the reference's results are it at the products.
-/
import proofs.«181997_j36361193128417_1_alg».proof.Proof.Gen.KernelIdeal.Regions
import proofs.«181997_j36361193128417_1_alg».proof.Proof.Gen.ReferenceIdeal.Run
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

/-- An 8192 x 128 matrix, an 8192 x 512 matrix, the group labels. -/
abbrev M128 (F : FTy → Type) [FloatOps F] : Type := (⟨S8192x128, .f32⟩ : BufTy).Contents (Elt F)
abbrev M512 (F : FTy → Type) [FloatOps F] : Type := (⟨S8192x512, .f32⟩ : BufTy).Contents (Elt F)
abbrev Labels (F : FTy → Type) [FloatOps F] : Type := (⟨S8192, .i32⟩ : BufTy).Contents (Elt F)

/-- The four column slices the host takes of region 1's result. -/
abbrev sl0 (x : M512 F) : M128 F := extractStridedSlice S8192x128 ![0, 0] x slices_S8192x512_S8192x128_0_0
abbrev sl128 (x : M512 F) : M128 F := extractStridedSlice S8192x128 ![0, 128] x slices_S8192x512_S8192x128_0_128
abbrev sl256 (x : M512 F) : M128 F := extractStridedSlice S8192x128 ![0, 256] x slices_S8192x512_S8192x128_0_256
abbrev sl384 (x : M512 F) : M128 F := extractStridedSlice S8192x128 ![0, 384] x slices_S8192x512_S8192x128_0_384

/-- The sample: the noise scaled by the exponential of the log-variance, plus the mean. -/
def gZ (eps mu lv : M128 F) : M128 F := addf (mulf eps (Host.exp lv)) mu

/-- A matrix made safe as a divisor or under a logarithm: a small positive number in every place where it is exactly
    zero (the program's `where`: the small number broadcast, chosen where the comparison with zero holds). -/
abbrev gSafe (x : M128 F) : M128 F :=
  select (cmpf (F := F) .oeq x (broadcastInDim S8192x128 ![] bcast_S_S8192x128 (constant (F := F) S_ .f32 0x00000000#32)))
    (broadcastInDim S8192x128 ![] bcast_S_S8192x128 (id (constant (F := F) S_ .f32 0x358637BD#32)))
    x

/-- The class variance of every node: the exponential of the class log-variance, made safe. -/
abbrev gVar (clv : M128 F) : M128 F := gSafe (Host.exp clv)

/-- The precision of every node: one over its variance `d`. -/
abbrev gPrec (d : M128 F) : M128 F :=
  Host.divf (broadcastInDim S8192x128 ![] bcast_S_S8192x128 (constant (F := F) S_ .f32 0x3F800000#32)) d

/-- The sum over the nodes of a group of a node matrix's rows: a scatter-add into one zero row per group, by the labels. -/
abbrev gSeg (batch : Labels F) (x : M128 F) : (⟨S1x128, .f32⟩ : BufTy).Contents (Elt F) :=
  Host.scatterAdd scatter_S1x128_S8192x1_S8192x128_1_0_0_1
    (broadcastInDim S1x128 ![] bcast_S_S1x128 (constant (F := F) S_ .f32 0x00000000#32))
    (broadcastInDim S8192x1 ![0] bcast_S8192_S8192x1_0 batch) x

/-- The group variance: one over the sum of the group's precisions, from the nodes' variances `d`. -/
abbrev gGVar (batch : Labels F) (d : M128 F) : (⟨S1x128, .f32⟩ : BufTy).Contents (Elt F) :=
  Host.divf (broadcastInDim S1x128 ![] bcast_S_S1x128 (constant (F := F) S_ .f32 0x3F800000#32)) (gSeg batch (gPrec d))

/-- The row index of every node's group: its label, a negative label counted from the end. -/
abbrev gIdx (batch : Labels F) : (⟨S8192x1, .i32⟩ : BufTy).Contents (Elt F) :=
  broadcastInDim S8192x1 ![0] bcast_S8192_S8192x1_0
    (select (cmpi .slt batch (broadcastInDim S8192 ![] bcast_S_S8192 (constantI S_ 32 0#32)))
      (addi batch (broadcastInDim S8192 ![] bcast_S_S8192 (constantI S_ 32 1#32))) batch)

/-- The group variance gathered back to the nodes. -/
abbrev gGVarN (batch : Labels F) (d : M128 F) : M128 F :=
  Host.gather gather_S1x128_S8192x1_S8192x128_1_0_n_n_0_1_1128 (gGVar batch d) (gIdx batch)

/-- The precision-weighted group mean gathered back to the nodes, from the nodes' means `cmu` and variances `d`. -/
abbrev gMuOf (batch : Labels F) (cmu d : M128 F) : M128 F :=
  Host.gather gather_S1x128_S8192x1_S8192x128_1_0_n_n_0_1_1128
    (mulf (gGVar batch d) (gSeg batch (mulf cmu (gPrec d)))) (gIdx batch)

/-- The group mean gathered back to the nodes, from the labels, the class mean and the class log-variance. -/
def gMu (batch : Labels F) (cmu clv : M128 F) : M128 F := gMuOf batch cmu (gVar clv)

/-- The logarithm of the group variance gathered back to the nodes, from the labels and the class log-variance. -/
def gLv (batch : Labels F) (clv : M128 F) : M128 F := Host.log (gSafe (gGVarN batch (gVar clv)))

/-- The latent matrix from the sample, the group mean and the group log-variance: the class latent is the group mean
    plus the group noise scaled by the group standard deviation; the sample and the class latent stand side by side,
    are multiplied by the last weights, and the bias is added to every row. -/
abbrev gUzOf (wl : (⟨S256x128, .f32⟩ : BufTy).Contents (Elt F)) (bl : (⟨S128, .f32⟩ : BufTy).Contents (Elt F)) (epsg : (⟨S1x128, .f32⟩ : BufTy).Contents (Elt F)) (batch : Labels F)
    (z gm glv : M128 F) : M128 F :=
  addf
    (Host.dotGeneral dot_S8192x256_S256x128_S8192x128_1_0_0_1_n_n none
      (concatenate S8192x256 1 [⟨S8192x128, z⟩,
        ⟨S8192x128, addf gm (mulf (Host.exp (mulf (broadcastInDim S8192x128 ![] bcast_S_S8192x128 (constant (F := F) S_ .f32 0x3F000000#32)) glv))
          (Host.gather gather_S1x128_S8192x1_S8192x128_1_0_n_n_0_1_1128 epsg (gIdx batch)))⟩]
        concatenates_S8192x128_S8192x128_S8192x256_d1) wl)
    (broadcastInDim S8192x128 ![0, 1] bcast_S1x128_S8192x128_0_1 (broadcastInDim S1x128 ![1] bcast_S128_S1x128_1 bl))

/-- The latent matrix: the sample and the class latent side by side, times the last weights, plus the bias. -/
def gUz (wl : (⟨S256x128, .f32⟩ : BufTy).Contents (Elt F)) (bl : (⟨S128, .f32⟩ : BufTy).Contents (Elt F)) (epsz : M128 F) (epsg : (⟨S1x128, .f32⟩ : BufTy).Contents (Elt F)) (batch : Labels F)
    (mu lv cmu clv : M128 F) : M128 F :=
  gUzOf wl bl epsg batch (gZ epsz mu lv) (gMu batch cmu clv) (gLv batch clv)

/-! ## Each stretch of host operations, from any contents `W`

What a stretch leaves in the buffers read later, as a function of what it found in the buffers it reads. -/

section Stretches

variable (W : Valuation τ sig (Elt F))

/-- Two blocks side by side are equal when their parts are. -/
theorem concat2_congr {a a' b b' : M128 F} (ha : a = a') (hb : b = b') :
    concatenate S8192x256 1 [⟨S8192x128, a⟩, ⟨S8192x128, b⟩] concatenates_S8192x128_S8192x128_S8192x256_d1
      = concatenate S8192x256 1 [⟨S8192x128, a'⟩, ⟨S8192x128, b'⟩] concatenates_S8192x128_S8192x128_S8192x256_d1 := by
  subst ha hb; rfl

/-- The stretch before region 1, from the hidden layer `h` and the four weight matrices: their product with the four
    matrices side by side. -/
theorem st1 {h : (⟨S8192x256, .f32⟩ : BufTy).Contents (Elt F)} {w3 w4 w5 w6 : (⟨S256x128, .f32⟩ : BufTy).Contents (Elt F)}
    (hh : W main_v1 = h) (h3 : W main_arg3 = w3) (h4 : W main_arg4 = w4) (h5 : W main_arg5 = w5) (h6 : W main_arg6 = w6) :
    StableHlo.after hostOps1 W main_v3 = Host.dotGeneral dot_S8192x256_S256x512_S8192x512_1_0_0_1_n_n none h
      (concatenate S256x512 1 [⟨S256x128, w3⟩, ⟨S256x128, w4⟩, ⟨S256x128, w5⟩, ⟨S256x128, w6⟩]
        concatenates_S256x128_S256x128_S256x128_S256x128_S256x512_d1) := by
  subst hh h3 h4 h5 h6
  dsimp only [hostOps1]
  after_results_simp <;> rfl

/-- The first stretch after region 1, from region 1's result `p` and the sample noise `e`: the slices, the sample, and
    the exponential of the class log-variance with its comparison against zero and the small number. -/
theorem st2 {p : M512 F} {e : M128 F} (hp : W main_v4 = p) (he : W main_arg9 = e) :
    StableHlo.after hostOps2 W main_v5 = sl0 p
    ∧ StableHlo.after hostOps2 W main_v6 = sl128 p
    ∧ StableHlo.after hostOps2 W main_v7 = sl256 p
    ∧ StableHlo.after hostOps2 W main_v11 = gZ e (sl0 p) (sl128 p)
    ∧ StableHlo.after hostOps2 W main_v12 = Host.exp (sl384 p)
    ∧ StableHlo.after hostOps2 W main_v14 = cmpf (F := F) .oeq (Host.exp (sl384 p)) (broadcastInDim S8192x128 ![] bcast_S_S8192x128 (constant (F := F) S_ .f32 0x00000000#32))
    ∧ StableHlo.after hostOps2 W main_cst_0 = constant (F := F) S_ .f32 0x358637BD#32 := by
  subst hp he
  dsimp only [hostOps2]
  refine ⟨?_, ?_, ?_, ?_, ?_, ?_, ?_⟩ <;> after_results_simp <;> rfl

/-- The first `where`: the exponential `x` with the small number `s` where the comparison `k` holds. -/
theorem st2_1 {k : (⟨S8192x128, .i1⟩ : BufTy).Contents (Elt F)} {s : (⟨S_, .f32⟩ : BufTy).Contents (Elt F)} {x : M128 F}
    (hk : W main_v14 = k) (hs : W main_cst_0 = s) (hx : W main_v12 = x) :
    StableHlo.after hostOps2_1 W main_v15 = select k (broadcastInDim S8192x128 ![] bcast_S_S8192x128 (id s)) x := by
  subst hk hs hx
  dsimp only [hostOps2_1]
  after_results_simp <;> rfl

/-- The long middle stretch, from the labels `b`, the class mean `cm` and the nodes' variances `d`: the group mean at the
    nodes, the group variance at the nodes with its comparison against zero, and the small number. -/
theorem st2_2 {b : Labels F} {cm d : M128 F} (hb : W main_arg11 = b) (hcm : W main_v7 = cm) (hd : W main_v15 = d) :
    StableHlo.after hostOps2_2 W main_v34 = gMuOf b cm d
    ∧ StableHlo.after hostOps2_2 W main_v41 = gGVarN b d
    ∧ StableHlo.after hostOps2_2 W main_v43 = cmpf (F := F) .oeq (gGVarN b d) (broadcastInDim S8192x128 ![] bcast_S_S8192x128 (constant (F := F) S_ .f32 0x00000000#32))
    ∧ StableHlo.after hostOps2_2 W main_cst_9 = constant (F := F) S_ .f32 0x358637BD#32 := by
  subst hb hcm hd
  dsimp only [hostOps2_2]
  refine ⟨?_, ?_, ?_, ?_⟩ <;> after_results_simp <;> rfl

/-- The second `where`: the gathered group variance `x` with the small number `s` where the comparison `k` holds. -/
theorem st2_3 {k : (⟨S8192x128, .i1⟩ : BufTy).Contents (Elt F)} {s : (⟨S_, .f32⟩ : BufTy).Contents (Elt F)} {x : M128 F}
    (hk : W main_v43 = k) (hs : W main_cst_9 = s) (hx : W main_v41 = x) :
    StableHlo.after hostOps2_3 W main_v44 = select k (broadcastInDim S8192x128 ![] bcast_S_S8192x128 (id s)) x := by
  subst hk hs hx
  dsimp only [hostOps2_3]
  after_results_simp <;> rfl

/-- The last stretch, from the safe group variance `v`, the sample `z`, the group mean `gm` and the arguments: the group
    log-variance and the latent matrix. The two parts of the side-by-side block are read back one by one. -/
theorem st2_4 {wl : (⟨S256x128, .f32⟩ : BufTy).Contents (Elt F)} {bl : (⟨S128, .f32⟩ : BufTy).Contents (Elt F)} {epsg : (⟨S1x128, .f32⟩ : BufTy).Contents (Elt F)}
    {b : Labels F} {z gm v : M128 F}
    (hwl : W main_arg7 = wl) (hbl : W main_arg8 = bl) (heg : W main_arg10 = epsg) (hb : W main_arg11 = b)
    (hz : W main_v11 = z) (hgm : W main_v34 = gm) (hv : W main_v44 = v) :
    StableHlo.after hostOps2_4 W main_v45 = Host.log v
    ∧ StableHlo.after hostOps2_4 W main_v62 = gUzOf wl bl epsg b z gm (Host.log v) := by
  subst hwl hbl heg hb hz hgm hv
  dsimp only [hostOps2_4]
  refine ⟨by after_results_simp, ?_⟩
  after_results_simp
  refine congrArg₂ addf (congrArg₂ (Host.dotGeneral _ none) (concat2_congr ?_ ?_) rfl) rfl
  · after_results_simp
  · after_results_simp <;> rfl

end Stretches

variable (m : (ℓ : Loc nD τ sig) → Buf (Elt F) ℓ) (outs : Outs (F := F))

/-- Before region 0 the right operand's buffer holds the host's product of the features with the first weights;
    the adjacency matrix is as launched. -/
theorem head0 (c : Dev nD) :
    V1 m c main_v0 = Host.dotGeneral dot_S8192x512_S512x256_S8192x256_1_0_0_1_n_n none (m ((c : Thread nD τ).loc main_arg0)) (m ((c : Thread nD τ).loc main_arg2))
    ∧ V1 m c main_arg1 = m ((c : Thread nD τ).loc main_arg1) := by
  refine ⟨?_, V1_of m c main_arg1 (by decide)⟩
  dsimp only [V1, hostOps0]
  after_results

/-! ## The valuations between the stretches -/

/-- What region 1 left. -/
theorem V4_main_v4 (c : Dev nD) : V4 m outs c main_v4 = outs 4 main_v4 c := Function.update_self ..

/-- A reference nothing up to region 1 writes holds its launch contents after region 1 … -/
theorem V4_arg (c : Dev nD) (r : Ref sig .tc) (h1 : r ∉ (hostOps0_W : List (Ref sig .tc)) := by decide)
    (h2 : r ∉ ([main_v1] : List (Ref sig .tc)) := by decide) (h3 : r ∉ (hostOps1_W : List (Ref sig .tc)) := by decide)
    (h4 : r ∉ ([main_v4] : List (Ref sig .tc)) := by decide) :
    V4 m outs c r = m ((c : Thread nD τ).loc r) :=
  (V4_of m outs c r h4).trans <| (V3_of m outs c r h3).trans <| (V2_of m outs c r h2).trans <| (V1_of m c r h1).trans rfl

/-- … and, if the first two stretches after region 1 do not write it, after them … -/
theorem V6_arg (c : Dev nD) (r : Ref sig .tc) (h1 : r ∉ (hostOps0_W : List (Ref sig .tc)) := by decide)
    (h2 : r ∉ ([main_v1] : List (Ref sig .tc)) := by decide) (h3 : r ∉ (hostOps1_W : List (Ref sig .tc)) := by decide)
    (h4 : r ∉ ([main_v4] : List (Ref sig .tc)) := by decide) (h5 : r ∉ (hostOps2_W : List (Ref sig .tc)) := by decide)
    (h6 : r ∉ (hostOps2_1_W : List (Ref sig .tc)) := by decide) :
    V6 m outs c r = m ((c : Thread nD τ).loc r) :=
  (V6_of m outs c r h6).trans <| (V5_of m outs c r h5).trans <| V4_arg m outs c r h1 h2 h3 h4

/-- … and, if the next two do not write it either, before the last stretch. -/
theorem V8_arg (c : Dev nD) (r : Ref sig .tc) (h1 : r ∉ (hostOps0_W : List (Ref sig .tc)) := by decide)
    (h2 : r ∉ ([main_v1] : List (Ref sig .tc)) := by decide) (h3 : r ∉ (hostOps1_W : List (Ref sig .tc)) := by decide)
    (h4 : r ∉ ([main_v4] : List (Ref sig .tc)) := by decide) (h5 : r ∉ (hostOps2_W : List (Ref sig .tc)) := by decide)
    (h6 : r ∉ (hostOps2_1_W : List (Ref sig .tc)) := by decide) (h7 : r ∉ (hostOps2_2_W : List (Ref sig .tc)) := by decide)
    (h8 : r ∉ (hostOps2_3_W : List (Ref sig .tc)) := by decide) :
    V8 m outs c r = m ((c : Thread nD τ).loc r) :=
  (V8_of m outs c r h8).trans <| (V7_of m outs c r h7).trans <| V6_arg m outs c r h1 h2 h3 h4 h5 h6

/-- After the first stretch: the slices of region 1's result, the sample, the exponential of the class log-variance, its
    comparison with zero, the small number. -/
theorem V5_reads (c : Dev nD) :
    V5 m outs c main_v5 = sl0 (outs 4 main_v4 c)
    ∧ V5 m outs c main_v6 = sl128 (outs 4 main_v4 c)
    ∧ V5 m outs c main_v7 = sl256 (outs 4 main_v4 c)
    ∧ V5 m outs c main_v11 = gZ (m ((c : Thread nD τ).loc main_arg9)) (sl0 (outs 4 main_v4 c)) (sl128 (outs 4 main_v4 c))
    ∧ V5 m outs c main_v12 = Host.exp (sl384 (outs 4 main_v4 c))
    ∧ V5 m outs c main_v14 = cmpf (F := F) .oeq (Host.exp (sl384 (outs 4 main_v4 c))) (broadcastInDim S8192x128 ![] bcast_S_S8192x128 (constant (F := F) S_ .f32 0x00000000#32))
    ∧ V5 m outs c main_cst_0 = constant (F := F) S_ .f32 0x358637BD#32 :=
  st2 (V4 m outs c) (V4_main_v4 m outs c) (V4_arg m outs c main_arg9)

/-- After the first `where`: the nodes' safe class variances. -/
theorem V6_main_v15 (c : Dev nD) : V6 m outs c main_v15 = gVar (sl384 (outs 4 main_v4 c)) :=
  st2_1 (V5 m outs c) (V5_reads m outs c).2.2.2.2.2.1 (V5_reads m outs c).2.2.2.2.2.2 (V5_reads m outs c).2.2.2.2.1

/-- After the middle stretch: the group mean and the group variance at the nodes, its comparison with zero, the small
    number. -/
theorem V7_reads (c : Dev nD) :
    V7 m outs c main_v34 = gMu (m ((c : Thread nD τ).loc main_arg11)) (sl256 (outs 4 main_v4 c)) (sl384 (outs 4 main_v4 c))
    ∧ V7 m outs c main_v41 = gGVarN (m ((c : Thread nD τ).loc main_arg11)) (gVar (sl384 (outs 4 main_v4 c)))
    ∧ V7 m outs c main_v43 = cmpf (F := F) .oeq (gGVarN (m ((c : Thread nD τ).loc main_arg11)) (gVar (sl384 (outs 4 main_v4 c)))) (broadcastInDim S8192x128 ![] bcast_S_S8192x128 (constant (F := F) S_ .f32 0x00000000#32))
    ∧ V7 m outs c main_cst_9 = constant (F := F) S_ .f32 0x358637BD#32 :=
  st2_2 (V6 m outs c) (V6_arg m outs c main_arg11) ((V6_of m outs c main_v7 (by decide)).trans (V5_reads m outs c).2.2.1) (V6_main_v15 m outs c)

/-- After the second `where`: the safe group variance at the nodes. -/
theorem V8_main_v44 (c : Dev nD) :
    V8 m outs c main_v44 = gSafe (gGVarN (m ((c : Thread nD τ).loc main_arg11)) (gVar (sl384 (outs 4 main_v4 c)))) :=
  st2_3 (V7 m outs c) (V7_reads m outs c).2.2.1 (V7_reads m outs c).2.2.2 (V7_reads m outs c).2.1

/-- Before region 1: the hidden layer is what region 0 left, the right operand the host's product of it with the four
    weight matrices side by side, the adjacency matrix and the weights as launched. -/
theorem head1 (c : Dev nD) :
    V3 m outs c main_v1 = outs 2 main_v1 c
    ∧ V3 m outs c main_v3 = Host.dotGeneral dot_S8192x256_S256x512_S8192x512_1_0_0_1_n_n none (outs 2 main_v1 c)
        (concatenate S256x512 1 [⟨S256x128, m ((c : Thread nD τ).loc main_arg3)⟩, ⟨S256x128, m ((c : Thread nD τ).loc main_arg4)⟩, ⟨S256x128, m ((c : Thread nD τ).loc main_arg5)⟩, ⟨S256x128, m ((c : Thread nD τ).loc main_arg6)⟩]
          concatenates_S256x128_S256x128_S256x128_S256x128_S256x512_d1)
    ∧ V3 m outs c main_arg1 = m ((c : Thread nD τ).loc main_arg1)
    ∧ V3 m outs c main_arg3 = m ((c : Thread nD τ).loc main_arg3)
    ∧ V3 m outs c main_arg4 = m ((c : Thread nD τ).loc main_arg4)
    ∧ V3 m outs c main_arg5 = m ((c : Thread nD τ).loc main_arg5)
    ∧ V3 m outs c main_arg6 = m ((c : Thread nD τ).loc main_arg6) := by
  have a : ∀ (r : Ref sig .tc) (h1 : r ∉ (hostOps0_W : List (Ref sig .tc))) (h2 : r ∉ ([main_v1] : List (Ref sig .tc))),
      V2 m outs c r = m ((c : Thread nD τ).loc r) :=
    fun r h1 h2 => (V2_of m outs c r h2).trans <| (V1_of m c r h1).trans rfl
  have a3 : ∀ (r : Ref sig .tc) (h1 : r ∉ (hostOps0_W : List (Ref sig .tc))) (h2 : r ∉ ([main_v1] : List (Ref sig .tc)))
      (h3 : r ∉ (hostOps1_W : List (Ref sig .tc))), V3 m outs c r = m ((c : Thread nD τ).loc r) :=
    fun r h1 h2 h3 => (V3_of m outs c r h3).trans (a r h1 h2)
  have hv1 : V2 m outs c main_v1 = outs 2 main_v1 c := Function.update_self ..
  exact ⟨(V3_of m outs c main_v1 (by decide)).trans hv1,
    st1 (V2 m outs c) hv1 (a main_arg3 (by decide) (by decide)) (a main_arg4 (by decide) (by decide)) (a main_arg5 (by decide) (by decide)) (a main_arg6 (by decide) (by decide)),
    a3 main_arg1 (by decide) (by decide) (by decide), a3 main_arg3 (by decide) (by decide) (by decide), a3 main_arg4 (by decide) (by decide) (by decide),
    a3 main_arg5 (by decide) (by decide) (by decide), a3 main_arg6 (by decide) (by decide) (by decide)⟩

/-- Before region 2 the host's buffers hold the four functions at the slices of what region 1 left. -/
theorem tail (c : Dev nD) :
    V9 m outs c main_v5 = sl0 (outs 4 main_v4 c)
    ∧ V9 m outs c main_v6 = sl128 (outs 4 main_v4 c)
    ∧ V9 m outs c main_v11 = gZ (m ((c : Thread nD τ).loc main_arg9)) (sl0 (outs 4 main_v4 c)) (sl128 (outs 4 main_v4 c))
    ∧ V9 m outs c main_v34 = gMu (m ((c : Thread nD τ).loc main_arg11)) (sl256 (outs 4 main_v4 c)) (sl384 (outs 4 main_v4 c))
    ∧ V9 m outs c main_v45 = gLv (m ((c : Thread nD τ).loc main_arg11)) (sl384 (outs 4 main_v4 c))
    ∧ V9 m outs c main_v62 = gUz (m ((c : Thread nD τ).loc main_arg7)) (m ((c : Thread nD τ).loc main_arg8)) (m ((c : Thread nD τ).loc main_arg9)) (m ((c : Thread nD τ).loc main_arg10)) (m ((c : Thread nD τ).loc main_arg11))
        (sl0 (outs 4 main_v4 c)) (sl128 (outs 4 main_v4 c)) (sl256 (outs 4 main_v4 c)) (sl384 (outs 4 main_v4 c)) := by
  have h5 := V5_reads m outs c
  have h9 := st2_4 (V8 m outs c) (V8_arg m outs c main_arg7) (V8_arg m outs c main_arg8) (V8_arg m outs c main_arg10) (V8_arg m outs c main_arg11)
    ((V8_of m outs c main_v11 (by decide)).trans <| (V7_of m outs c main_v11 (by decide)).trans <| (V6_of m outs c main_v11 (by decide)).trans h5.2.2.2.1)
    ((V8_of m outs c main_v34 (by decide)).trans (V7_reads m outs c).1)
    (V8_main_v44 m outs c)
  exact ⟨(V9_of m outs c main_v5 (by decide)).trans <| (V8_of m outs c main_v5 (by decide)).trans <| (V7_of m outs c main_v5 (by decide)).trans <| (V6_of m outs c main_v5 (by decide)).trans h5.1,
    (V9_of m outs c main_v6 (by decide)).trans <| (V8_of m outs c main_v6 (by decide)).trans <| (V7_of m outs c main_v6 (by decide)).trans <| (V6_of m outs c main_v6 (by decide)).trans h5.2.1,
    (V9_of m outs c main_v11 (by decide)).trans <| (V8_of m outs c main_v11 (by decide)).trans <| (V7_of m outs c main_v11 (by decide)).trans <| (V6_of m outs c main_v11 (by decide)).trans h5.2.2.2.1,
    (V9_of m outs c main_v34 (by decide)).trans <| (V8_of m outs c main_v34 (by decide)).trans (V7_reads m outs c).1,
    h9.1, h9.2⟩

end Cert.KernelIdeal.Glue

end
-- ==== Proof.KI.KernelVals.lean ====
/-
  What the idealized kernel's results hold over the extended reals, as functions of the launch memory. The last
  valuation of the run is unwound item by item: the hidden layer is region 0's value (the adjacency product of the
  features' product, clamped below at zero); the four column slices of region 1's value are the four two-step products;
  the host's buffers before region 2 hold the sample, the group statistics and the latent matrix as fixed functions of
  those four; region 2's value is the product of the latent matrix with its transpose.
-/
import proofs.«181997_j36361193128417_1_alg».proof.Proof.KI.Run
import proofs.«181997_j36361193128417_1_alg».proof.Proof.KI.Val0
import proofs.«181997_j36361193128417_1_alg».proof.Proof.KI.Val1
import proofs.«181997_j36361193128417_1_alg».proof.Proof.KI.Val2
import proofs.«181997_j36361193128417_1_alg».proof.Proof.KI.Glue

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand Cert.KernelIdeal.Glue

variable (m : (ℓ : Loc nD τ sig) → Buf (Elt Ideal) ℓ) (ρ : Dev nD → PrngReg)

/-- The hidden layer as a function of the launch memory: the adjacency matrix times (the features times the first weights),
    clamped below at zero. -/
abbrev kH1 (c : Dev nD) : (⟨Cert.ReferenceIdeal.S8192x256, .f32⟩ : BufTy).Contents (Elt Ideal) :=
  maximumf (F := Ideal) (Host.dotGeneral (F := Ideal) (φ₁ := .f32) (φ₂ := .f32) Cert.ReferenceIdeal.dot_S8192x8192_S8192x256_S8192x256_1_0_0_1_n_n none (m ((c : Thread nD τ).loc main_arg1))
      (Host.dotGeneral (F := Ideal) (φ₁ := .f32) (φ₂ := .f32) dot_S8192x512_S512x256_S8192x256_1_0_0_1_n_n none (m ((c : Thread nD τ).loc main_arg0)) (m ((c : Thread nD τ).loc main_arg2))))
    (broadcastInDim Cert.ReferenceIdeal.S8192x256 ![] Cert.ReferenceIdeal.Facts₀.bcast_S_S8192x256 (constant (F := Ideal) Cert.ReferenceIdeal.S_ .f32 0x00000000#32))

/-- The two-step product for one weight matrix: the adjacency matrix times (the hidden layer times the weights). -/
abbrev kP (c : Dev nD) (w : (⟨Cert.ReferenceIdeal.S256x128, .f32⟩ : BufTy).Contents (Elt Ideal)) : (⟨Cert.ReferenceIdeal.S8192x128, .f32⟩ : BufTy).Contents (Elt Ideal) := refProd (m ((c : Thread nD τ).loc main_arg1)) (kH1 m c) w

/-- The latent matrix as a function of the launch memory. -/
abbrev kUz (c : Dev nD) : M128 Ideal :=
  gUz (m ((c : Thread nD τ).loc main_arg7)) (m ((c : Thread nD τ).loc main_arg8)) (m ((c : Thread nD τ).loc main_arg9)) (m ((c : Thread nD τ).loc main_arg10)) (m ((c : Thread nD τ).loc main_arg11)) (kP m c (m ((c : Thread nD τ).loc main_arg3))) (kP m c (m ((c : Thread nD τ).loc main_arg4))) (kP m c (m ((c : Thread nD τ).loc main_arg5))) (kP m c (m ((c : Thread nD τ).loc main_arg6)))

/-- Region 0 leaves the hidden layer. -/
theorem hidden_eq (c : Dev nD) : (outs m 2 main_v1 c : (⟨S8192x256, .f32⟩ : BufTy).Contents (Elt Ideal)) = kH1 m c := by
  rw [outs_2]
  refine (val0 (Ve0 m) c).trans ?_
  dsimp only [Ve0]
  rw [(head0 m c).1, (head0 m c).2]

/-- The four column slices of what region 1 leaves are the four two-step products. -/
theorem slices_eq (c : Dev nD) :
    sl0 (outs m 4 main_v4 c) = kP m c (m ((c : Thread nD τ).loc main_arg3)) ∧ sl128 (outs m 4 main_v4 c) = kP m c (m ((c : Thread nD τ).loc main_arg4))
    ∧ sl256 (outs m 4 main_v4 c) = kP m c (m ((c : Thread nD τ).loc main_arg5)) ∧ sl384 (outs m 4 main_v4 c) = kP m c (m ((c : Thread nD τ).loc main_arg6)) := by
  obtain ⟨h1, h3, ha1, ha3, ha4, ha5, ha6⟩ := head1 m (outs m) c
  have hv3 := h3
  rw [← h1, ← ha3, ← ha4, ← ha5, ← ha6] at hv3
  obtain ⟨s0, s1, s2, s3⟩ := val1_slices (Ve1 m) c hv3
  rw [outs_4]
  dsimp only [Ve1] at s0 s1 s2 s3
  rw [show V3 m (outs2 m) c = V3 m (outs m) c from rfl, ha1, h1, hidden_eq] at s0 s1 s2 s3
  rw [ha3] at s0; rw [ha4] at s1; rw [ha5] at s2; rw [ha6] at s3
  exact ⟨s0, s1, s2, s3⟩

/-- Before region 2 the latent matrix's buffer holds it. -/
theorem uz_eq (c : Dev nD) : V9 m (outs m) c main_v62 = kUz m c := by
  obtain ⟨s0, s1, s2, s3⟩ := slices_eq m c
  rw [(tail m (outs m) c).2.2.2.2.2, s0, s1, s2, s3]

/-- THE KERNEL'S RUN WITH ITS VALUES. Every weakly fair execution of the idealized kernel's @main terminates, nothing
    faulting, with the six results at these functions of the launch memory and every argument array as launched. -/
theorem kernel_run : θ_run defs (onTc (τ := τ) (main (F := Ideal))) ⟨m, fun _ => 0, ρ⟩ (fun r => ∀ c : Dev nD,
      r.2.mem ((c.tc : Thread nD τ).loc main_v63)
          = Host.dotGeneral (F := Ideal) (φ₁ := .f32) (φ₂ := .f32) Cert.ReferenceIdeal.dot_S8192x128_S128x8192_S8192x8192_1_0_0_1_n_n none (kUz m c)
              (transpose (α := Elt Ideal .f32) Cert.ReferenceIdeal.S128x8192 [1, 0] (kUz m c : (⟨Cert.ReferenceIdeal.S8192x128, .f32⟩ : BufTy).Contents (Elt Ideal)) Cert.ReferenceIdeal.Facts₀.transposes_S8192x128_S128x8192_1_0)
      ∧ r.2.mem ((c.tc : Thread nD τ).loc main_v11) = gZ (m ((c : Thread nD τ).loc main_arg9)) (kP m c (m ((c : Thread nD τ).loc main_arg3))) (kP m c (m ((c : Thread nD τ).loc main_arg4)))
      ∧ r.2.mem ((c.tc : Thread nD τ).loc main_v5) = kP m c (m ((c : Thread nD τ).loc main_arg3))
      ∧ r.2.mem ((c.tc : Thread nD τ).loc main_v6) = kP m c (m ((c : Thread nD τ).loc main_arg4))
      ∧ r.2.mem ((c.tc : Thread nD τ).loc main_v34) = gMu (m ((c : Thread nD τ).loc main_arg11)) (kP m c (m ((c : Thread nD τ).loc main_arg5))) (kP m c (m ((c : Thread nD τ).loc main_arg6)))
      ∧ r.2.mem ((c.tc : Thread nD τ).loc main_v45) = gLv (m ((c : Thread nD τ).loc main_arg11)) (kP m c (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_) (run_all m ρ)
  obtain ⟨s0, s1, s2, s3⟩ := slices_eq m c
  obtain ⟨t5, t6, t11, t34, t45, -⟩ := tail m (outs m) c
  refine ⟨?_, ?_, ?_, ?_, ?_, ?_, (h c _ (mem_uc main_arg0 (by decide))).trans (V10_main_arg0 m (outs m) c),
    (h c _ (mem_uc main_arg1 (by decide))).trans (V10_main_arg1 m (outs m) c),
    (h c _ (mem_uc main_arg2 (by decide))).trans (V10_main_arg2 m (outs m) c),
    (h c _ (mem_uc main_arg3 (by decide))).trans (V10_main_arg3 m (outs m) c),
    (h c _ (mem_uc main_arg4 (by decide))).trans (V10_main_arg4 m (outs m) c),
    (h c _ (mem_uc main_arg5 (by decide))).trans (V10_main_arg5 m (outs m) c),
    (h c _ (mem_uc main_arg6 (by decide))).trans (V10_main_arg6 m (outs m) c),
    (h c _ (mem_uc main_arg7 (by decide))).trans (V10_main_arg7 m (outs m) c),
    (h c _ (mem_uc main_arg8 (by decide))).trans (V10_main_arg8 m (outs m) c),
    (h c _ (mem_uc main_arg9 (by decide))).trans (V10_main_arg9 m (outs m) c),
    (h c _ (mem_uc main_arg10 (by decide))).trans (V10_main_arg10 m (outs m) c),
    (h c _ (mem_uc main_arg11 (by decide))).trans (V10_main_arg11 m (outs m) c)⟩
  · refine (h c _ (mem_uc main_v63 (by decide))).trans ?_
    show Function.update (V9 m (outs m) c) main_v63 (outs m 10 main_v63 c) main_v63 = _
    rw [Function.update_self, outs_10]
    refine (val2 (Ve2 m) c).trans ?_
    dsimp only [Ve2]
    rw [show V9 m (outs4 m) c = V9 m (outs m) c from rfl, uz_eq]
  · refine (h c _ (mem_uc main_v11 (by decide))).trans ((V10_of m (outs m) c main_v11 (by decide)).trans ?_)
    rw [t11, s0, s1]
  · refine (h c _ (mem_uc main_v5 (by decide))).trans ((V10_of m (outs m) c main_v5 (by decide)).trans ?_)
    rw [t5, s0]
  · refine (h c _ (mem_uc main_v6 (by decide))).trans ((V10_of m (outs m) c main_v6 (by decide)).trans ?_)
    rw [t6, s1]
  · refine (h c _ (mem_uc main_v34 (by decide))).trans ((V10_of m (outs m) c main_v34 (by decide)).trans ?_)
    rw [t34, s2, s3]
  · refine (h c _ (mem_uc main_v45 (by decide))).trans ((V10_of m (outs m) c main_v45 (by decide)).trans ?_)
    rw [t45, s3]

end Cert.KernelIdeal.Val

end
-- ==== Proof.KI.GlueRef.lean ====
/-
  The reference's three results as the same pure functions the kernel's host operations compute. The reference forms
  the hidden layer (the adjacency matrix times the features times the first weights, clamped at zero), then four separate
  products of the adjacency matrix with the hidden layer times one weight matrix each (the mean, the log-variance, the
  class mean, the class log-variance), and from these four the sample, the group mean, the group log-variance and the
  latent matrix by the operations of the kernel's host stretches, in the same order with the same literals; its first
  result is the latent matrix times its own transpose. The two programs' shapes and dimension records are different
  constants with equal contents, so each equation holds by unfolding both sides.
-/
import proofs.«181997_j36361193128417_1_alg».proof.Proof.KI.Glue

set_option maxRecDepth 16384

noncomputable section

namespace Cert.KernelIdeal.Glue

open Idealize.ShloMosaic Idealize.ShloMosaic.TcCoe Idealize.SL.Sem Idealize.ShloMosaic.StableHlo

variable {F : FTy → Type} [FloatOps F]

variable (m' : (ℓ : Loc Cert.ReferenceIdeal.nD Cert.ReferenceIdeal.τ Cert.ReferenceIdeal.sig) → Buf (Elt F) ℓ)

/-- The reference's hidden layer: the adjacency matrix times the product of the features with the first weights,
    clamped at zero. -/
abbrev rH1 (c : Dev Cert.ReferenceIdeal.nD) : (⟨Cert.ReferenceIdeal.S8192x256, .f32⟩ : BufTy).Contents (Elt F) :=
  maximumf
    (Host.dotGeneral Cert.ReferenceIdeal.dot_S8192x8192_S8192x256_S8192x256_1_0_0_1_n_n none (m' ((c.tc : Thread Cert.ReferenceIdeal.nD Cert.ReferenceIdeal.τ).loc Cert.ReferenceIdeal.main_arg1))
      (Host.dotGeneral Cert.ReferenceIdeal.dot_S8192x512_S512x256_S8192x256_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))))
    (broadcastInDim Cert.ReferenceIdeal.S8192x256 ![] Cert.ReferenceIdeal.Facts₀.bcast_S_S8192x256 (constant (F := F) Cert.ReferenceIdeal.S_ .f32 0x00000000#32))

/-- One of the reference's four products: the adjacency matrix times the hidden layer times a weight matrix `w`. -/
abbrev rP (c : Dev Cert.ReferenceIdeal.nD) (w : (⟨Cert.ReferenceIdeal.S256x128, .f32⟩ : BufTy).Contents (Elt F)) : (⟨Cert.ReferenceIdeal.S8192x128, .f32⟩ : BufTy).Contents (Elt F) :=
  Host.dotGeneral Cert.ReferenceIdeal.dot_S8192x8192_S8192x128_S8192x128_1_0_0_1_n_n none (m' ((c.tc : Thread Cert.ReferenceIdeal.nD Cert.ReferenceIdeal.τ).loc Cert.ReferenceIdeal.main_arg1))
    (Host.dotGeneral Cert.ReferenceIdeal.dot_S8192x256_S256x128_S8192x128_1_0_0_1_n_n none (rH1 m' c) w)

/-- The reference's results: the latent matrix (the kernel's function of the four products and the arguments) times its
    transpose, the group mean, the group log-variance. -/
theorem ref_results (c : Dev Cert.ReferenceIdeal.nD) :
    Cert.ReferenceIdeal.Value.res_main_v66 m' c
      = Host.dotGeneral Cert.ReferenceIdeal.dot_S8192x128_S128x8192_S8192x8192_1_0_0_1_n_n none
          (gUz (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
            (rP m' c (m' ((c.tc : Thread Cert.ReferenceIdeal.nD Cert.ReferenceIdeal.τ).loc Cert.ReferenceIdeal.main_arg3))) (rP m' c (m' ((c.tc : Thread Cert.ReferenceIdeal.nD Cert.ReferenceIdeal.τ).loc Cert.ReferenceIdeal.main_arg4)))
            (rP m' c (m' ((c.tc : Thread Cert.ReferenceIdeal.nD Cert.ReferenceIdeal.τ).loc Cert.ReferenceIdeal.main_arg5))) (rP m' c (m' ((c.tc : Thread Cert.ReferenceIdeal.nD Cert.ReferenceIdeal.τ).loc Cert.ReferenceIdeal.main_arg6))))
          (transpose Cert.ReferenceIdeal.S128x8192 [1, 0]
            (gUz (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
            (rP m' c (m' ((c.tc : Thread Cert.ReferenceIdeal.nD Cert.ReferenceIdeal.τ).loc Cert.ReferenceIdeal.main_arg3))) (rP m' c (m' ((c.tc : Thread Cert.ReferenceIdeal.nD Cert.ReferenceIdeal.τ).loc Cert.ReferenceIdeal.main_arg4)))
            (rP m' c (m' ((c.tc : Thread Cert.ReferenceIdeal.nD Cert.ReferenceIdeal.τ).loc Cert.ReferenceIdeal.main_arg5))) (rP m' c (m' ((c.tc : Thread Cert.ReferenceIdeal.nD Cert.ReferenceIdeal.τ).loc Cert.ReferenceIdeal.main_arg6))))
            Cert.ReferenceIdeal.Facts₀.transposes_S8192x128_S128x8192_1_0)
    ∧ Cert.ReferenceIdeal.Value.res_main_v36 m' c = gMu (m' ((c.tc : Thread Cert.ReferenceIdeal.nD Cert.ReferenceIdeal.τ).loc Cert.ReferenceIdeal.main_arg11)) (rP m' c (m' ((c.tc : Thread Cert.ReferenceIdeal.nD Cert.ReferenceIdeal.τ).loc Cert.ReferenceIdeal.main_arg5))) (rP m' c (m' ((c.tc : Thread Cert.ReferenceIdeal.nD Cert.ReferenceIdeal.τ).loc Cert.ReferenceIdeal.main_arg6)))
    ∧ Cert.ReferenceIdeal.Value.res_main_v47 m' c = gLv (m' ((c.tc : Thread Cert.ReferenceIdeal.nD Cert.ReferenceIdeal.τ).loc Cert.ReferenceIdeal.main_arg11)) (rP m' c (m' ((c.tc : Thread Cert.ReferenceIdeal.nD Cert.ReferenceIdeal.τ).loc Cert.ReferenceIdeal.main_arg6))) := by
  refine ⟨?_, ?_, ?_⟩
  · unfold Cert.ReferenceIdeal.Value.res_main_v66 gUz gMu gLv gZ
    rfl
  · unfold Cert.ReferenceIdeal.Value.res_main_v36 gMu
    rfl
  · unfold Cert.ReferenceIdeal.Value.res_main_v47 gLv
    rfl

end Cert.KernelIdeal.Glue

end
-- ==== Proof.lean ====
/-
  The certificate of the graph auto-encoder's forward pass: the Pallas kernel against its jnp reference.

  Both programs compute, from a feature matrix x, a dense adjacency matrix adj and six weight matrices: the hidden layer
  h = max(adj · (x · W1), 0); four products adj · (h · Wj) (mean, log-variance, class mean, class log-variance); from them
  by elementwise host operations, two segment sums and three row gathers the sample z, the group mean and the group
  log-variance; the latent matrix u = [z | class latent] · Wl + bl; and the reconstruction u · uᵀ.

  The kernel does the three large products in pallas_calls. The first two walk a 4 x 8 grid, adding the product of a
  2048 x 1024 block of adj with a 1024-row block of the right operand to an accumulator cleared at the start of each row
  block, and the second runs on the four weight matrices laid side by side, so that the four products are its column
  slices. The third walks a 4 x 4 grid over blocks of u · uᵀ. Over the extended reals a sum over 8192 indices is the sum
  of its eight partial sums of 1024 (addition is commutative and associative there, infinities included, so no
  finiteness is used and the precondition is never opened); a column of a product is the product with that column; and a
  transpose read at (k, q) is the matrix at (q, k). With these three facts the kernel's results are the reference's,
  entry by entry; everything between the products is the same operations applied to equal operands.

  The frames: each kernel program runs to the end, faults nowhere and leaves its arguments unchanged, because no host
  operation writes an argument and a region changes only its result array; the reference's frame is its generated run
  with the results dropped. The idealization rewrote nothing, so `preserves` holds trivially.
-/
import proofs.«181997_j36361193128417_1_alg».proof.Defs
import proofs.«181997_j36361193128417_1_alg».proof.Proof.Gen.Kernel
import proofs.«181997_j36361193128417_1_alg».proof.Proof.Gen.KernelIdeal
import proofs.«181997_j36361193128417_1_alg».proof.Proof.Gen.ReferenceIdeal
import proofs.«181997_j36361193128417_1_alg».proof.Proof.Gen.ReferenceIdeal.Run
import proofs.«181997_j36361193128417_1_alg».proof.Proof.Gen.Pre_finite_inputs
import proofs.«181997_j36361193128417_1_alg».proof.Proof.K.Run
import proofs.«181997_j36361193128417_1_alg».proof.Proof.KI.Run
import proofs.«181997_j36361193128417_1_alg».proof.Proof.KI.KernelVals
import proofs.«181997_j36361193128417_1_alg».proof.Proof.KI.GlueRef
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its frame is its run with the six results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

open Cert.KernelIdeal.Glue Cert.KernelIdeal.Val in
/-- Over the extended reals the two programs, run from memories that agree on the arguments, end with equal results: the
    kernel's six results are fixed functions of the launch memory (the hidden layer, the four two-step products, and the
    host's functions of them), and the reference's generated run states the same functions of its own memory. -/
theorem algebraic : Cert.algebraic_KernelIdeal_ReferenceIdeal := by
  intro m ρ m' ρ' _ hagree
  refine ⟨_, _, _, _, _, _, Cert.KernelIdeal.Val.kernel_run m ρ, ?_⟩
  refine (θ_run Cert.ReferenceIdeal.defs _ _).mono (fun r h c => ?_) (Cert.ReferenceIdeal.Value.run (F := Ideal) m' ρ')
  obtain ⟨h0, h1, h2, h3, h4, h5, hargs⟩ := h c
  obtain ⟨a0, a1, a2, a3, a4, a5, a6, a7, a8, a9, a10, a11⟩ := hagree c
  obtain ⟨r0, r1, r2⟩ := ref_results m' c
  refine ⟨h0.trans (r0.trans ?_), h1.trans ?_, h2.trans ?_, h3.trans ?_, h4.trans (r1.trans ?_), h5.trans (r2.trans ?_), hargs⟩
  all_goals
    simp only [rP, rH1, a0, a1, a2, a3, a4, a5, a6, a7, a8, a9, a10, a11]
    rfl

/-- Everything this certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
